-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x128 : Shape := ⟨3, ![2, 512, 128]⟩
abbrev S2x512x512 : Shape := ⟨3, ![2, 512, 512]⟩
abbrev S128x128 : Shape := ⟨2, ![128, 128]⟩
abbrev S128 : Shape := ⟨1, ![128]⟩
abbrev S128x129 : Shape := ⟨2, ![128, 129]⟩
abbrev S1x257 : Shape := ⟨2, ![1, 257]⟩
abbrev S1 : Shape := ⟨1, ![1]⟩
abbrev S_ : Shape := ⟨0, ![]⟩

class Facts : Prop where
  bcast_S_S2x512x128 : S_.BroadcastsInDim S2x512x128 (![] : Fin 0 → Fin S2x512x128.rank)
  reducesTo_S2x512x128_S_d0_1_2 : S2x512x128.ReducesTo [0, 1, 2] S_
  h_S_ : 0 < S_.numel
  bcast_S_S2x512x512 : S_.BroadcastsInDim S2x512x512 (![] : Fin 0 → Fin S2x512x512.rank)
  reducesTo_S2x512x512_S_d0_1_2 : S2x512x512.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x129 : S_.BroadcastsInDim S128x129 (![] : Fin 0 → Fin S128x129.rank)
  reducesTo_S128x129_S_d0_1 : S128x129.ReducesTo [0, 1] S_
  bcast_S_S1x257 : S_.BroadcastsInDim S1x257 (![] : Fin 0 → Fin S1x257.rank)
  reducesTo_S1x257_S_d0_1 : S1x257.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S128 .f32) (main_arg15 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  main_v78

def fn_part3 {F : FTy → Type} [FloatOps F] (main_arg11 : FVec F S128 .f32) (main_arg12 : FVec F S128x128 .f32) (main_arg13 : FVec F S128 .f32) (main_arg14 : FVec F S128 .f32) (main_arg15 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_v63 main_v67

def fn_part2 {F : FTy → Type} [FloatOps F] (main_arg7 : FVec F S128 .f32) (main_arg8 : FVec F S1x257 .f32) (main_arg9 : FVec F S1 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S1x257 .f32 := Host.absf main_arg8
  let main_cst_14 : FVec F S_ .f32 := constant S_ .f32 0x7F800000#32
  let main_v40 : FVec F S1x257 .f32 := broadcastInDim S1x257 ![] bcast_S_S1x257 main_cst_14
  let main_v41 : IVec S1x257 1 := cmpf .olt main_v39 main_v40
  let main_c_15 : IVec S_ 1 := constantI S_ 1 1#1
  let main_v42 : IVec S_ 1 := (fun x v => Host.reduce IntOp.andi x v reducesTo_S1x257_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_arg15 main_v48 main_v49 main_v50

def fn_part1 {F : FTy → Type} [FloatOps F] (main_arg4 : FVec F S128x129 .f32) (main_arg5 : FVec F S128 .f32) (main_arg6 : FVec F S128x128 .f32) (main_arg7 : FVec F S128 .f32) (main_arg8 : FVec F S1x257 .f32) (main_arg9 : FVec F S1 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x129 .f32 := Host.absf main_arg4
  let main_cst_6 : FVec F S_ .f32 := constant S_ .f32 0x7F800000#32
  let main_v20 : FVec F S128x129 .f32 := broadcastInDim S128x129 ![] bcast_S_S128x129 main_cst_6
  let main_v21 : IVec S128x129 1 := cmpf .olt main_v19 main_v20
  let main_c_7 : IVec S_ 1 := constantI S_ 1 1#1
  let main_v22 : IVec S_ 1 := (fun x v => Host.reduce IntOp.andi x v reducesTo_S128x129_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S2x512x128 .f32) (main_arg1 : FVec F S2x512x512 .f32) (main_arg2 : FVec F S128x128 .f32) (main_arg3 : FVec F S128 .f32) (main_arg4 : FVec F S128x129 .f32) (main_arg5 : FVec F S128 .f32) (main_arg6 : FVec F S128x128 .f32) (main_arg7 : FVec F S128 .f32) (main_arg8 : FVec F S1x257 .f32) (main_arg9 : FVec F S1 .f32) (main_arg10 : FVec F S128x128 .f32) (main_arg11 : FVec F S128 .f32) (main_arg12 : FVec F S128x128 .f32) (main_arg13 : FVec F S128 .f32) (main_arg14 : FVec F S128 .f32) (main_arg15 : FVec F S128 .f32) : IVec S_ 1 :=
  let main_v0 : FVec F S2x512x128 .f32 := Host.absf main_arg0
  let main_cst : FVec F S_ .f32 := constant S_ .f32 0x7F800000#32
  let main_v1 : FVec F S2x512x128 .f32 := broadcastInDim S2x512x128 ![] bcast_S_S2x512x128 main_cst
  let main_v2 : IVec S2x512x128 1 := cmpf .olt main_v0 main_v1
  let main_c : IVec S_ 1 := constantI S_ 1 1#1
  let main_v3 : IVec S_ 1 := (fun x v => Host.reduce IntOp.andi x v reducesTo_S2x512x128_S_d0_1_2 h_S_) main_v2 main_c
  let main_v4 : FVec F S2x512x512 .f32 := Host.absf main_arg1
  let main_cst_0 : FVec F S_ .f32 := constant S_ .f32 0x7F800000#32
  let main_v5 : FVec F S2x512x512 .f32 := broadcastInDim S2x512x512 ![] bcast_S_S2x512x512 main_cst_0
  let main_v6 : IVec S2x512x512 1 := cmpf .olt main_v4 main_v5
  let main_c_1 : IVec S_ 1 := constantI S_ 1 1#1
  let main_v7 : IVec S_ 1 := (fun x v => Host.reduce IntOp.andi x v reducesTo_S2x512x512_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S2x512x128 : Shape := ⟨3, ![2, 512, 128]⟩
abbrev S2x512x512 : Shape := ⟨3, ![2, 512, 512]⟩
abbrev S128x128 : Shape := ⟨2, ![128, 128]⟩
abbrev S128 : Shape := ⟨1, ![128]⟩
abbrev S128x129 : Shape := ⟨2, ![128, 129]⟩
abbrev S1x257 : Shape := ⟨2, ![1, 257]⟩
abbrev S1 : Shape := ⟨1, ![1]⟩
abbrev S1x128 : Shape := ⟨2, ![1, 128]⟩
abbrev S1x512x128 : Shape := ⟨3, ![1, 512, 128]⟩
abbrev S512x128 : Shape := ⟨2, ![512, 128]⟩
abbrev S128x1 : Shape := ⟨2, ![128, 1]⟩
abbrev S1x1 : Shape := ⟨2, ![1, 1]⟩
abbrev S_ : Shape := ⟨0, ![]⟩
abbrev S1x128x128 : Shape := ⟨3, ![1, 128, 128]⟩
abbrev S128x128x1 : Shape := ⟨3, ![128, 128, 1]⟩
abbrev S1x1x128 : Shape := ⟨3, ![1, 1, 128]⟩
abbrev S128x128x128 : Shape := ⟨3, ![128, 128, 128]⟩
abbrev S16384x128 : Shape := ⟨2, ![16384, 128]⟩

abbrev nBuf : Space → Nat
  | .hbm => 39
  | .vmem => 30
  | .smem => 0
  | _ => 0

abbrev bufTy : (tb : Table) → Fin (tcTables nBuf tb) → BufTy
  | .hbm, ⟨0, _⟩ => ⟨S2x512x128, .f32⟩
  | .hbm, ⟨1, _⟩ => ⟨S2x512x512, .f32⟩
  | .hbm, ⟨2, _⟩ => ⟨S128x128, .f32⟩
  | .hbm, ⟨3, _⟩ => ⟨S128, .f32⟩
  | .hbm, ⟨4, _⟩ => ⟨S128x129, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x257, .f32⟩
  | .hbm, ⟨9, _⟩ => ⟨S1, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S1x128, .f32⟩
  | .hbm, ⟨17, _⟩ => ⟨S2x512x128, .f32⟩
  | .hbm, ⟨18, _⟩ => ⟨S128x128, .f32⟩
  | .hbm, ⟨19, _⟩ => ⟨S128x1, .f32⟩
  | .hbm, ⟨20, _⟩ => ⟨S128, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S128, .f32⟩
  | .hbm, ⟨26, _⟩ => ⟨S1x128, .f32⟩
  | .hbm, ⟨27, _⟩ => ⟨S1x128, .f32⟩
  | .hbm, ⟨28, _⟩ => ⟨S128, .f32⟩
  | .hbm, ⟨29, _⟩ => ⟨S1x128, .f32⟩
  | .hbm, ⟨30, _⟩ => ⟨S1x1, .f32⟩
  | .hbm, ⟨31, _⟩ => ⟨S_, .f32⟩
  | .hbm, ⟨32, _⟩ => ⟨S1x1, .f32⟩
  | .hbm, ⟨33, _⟩ => ⟨S1x1, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S2x512x128, .f32⟩
  | .local _ .vmem, ⟨0, _⟩ => ⟨S1x512x128, .f32⟩
  | .local _ .vmem, ⟨1, _⟩ => ⟨S1x512x128, .f32⟩
  | .local _ .vmem, ⟨2, _⟩ => ⟨S128x128, .f32⟩
  | .local _ .vmem, ⟨3, _⟩ => ⟨S1x128, .f32⟩
  | .local _ .vmem, ⟨4, _⟩ => ⟨S1x512x128, .f32⟩
  | .local _ .vmem, ⟨5, _⟩ => ⟨S1x512x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S128x128, .f32⟩
  | .local _ .vmem, ⟨13, _⟩ => ⟨S1x128, .f32⟩
  | .local _ .vmem, ⟨14, _⟩ => ⟨S1x128, .f32⟩
  | .local _ .vmem, ⟨15, _⟩ => ⟨S128x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x1, .f32⟩
  | .local _ .vmem, ⟨20, _⟩ => ⟨S1x1, .f32⟩
  | .local _ .vmem, ⟨21, _⟩ => ⟨S128x128, .f32⟩
  | .local _ .vmem, ⟨22, _⟩ => ⟨S1x128, .f32⟩
  | .local _ .vmem, ⟨23, _⟩ => ⟨S128x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128x128, .f32⟩
  | .local _ .vmem, ⟨28, _⟩ => ⟨S1x128x128, .f32⟩
  | .local _ .vmem, ⟨29, _⟩ => ⟨S128x128, .f32⟩
  | _, _ => ⟨S2x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg11_0 : Ref sig .tc := ⟨.vmem, 20, rfl⟩
abbrev cc1_stg12_0 : Ref sig .tc := ⟨.vmem, 21, rfl⟩
abbrev cc1_stg13_0 : Ref sig .tc := ⟨.vmem, 22, rfl⟩
abbrev cc1_stg14_0 : Ref sig .tc := ⟨.vmem, 23, rfl⟩
abbrev cc1_stg15_0 : Ref sig .tc := ⟨.vmem, 24, rfl⟩
abbrev cc1_stg16_0 : Ref sig .tc := ⟨.vmem, 25, rfl⟩
abbrev cc1_stg17_0 : Ref sig .tc := ⟨.vmem, 26, rfl⟩
abbrev cc1_stg18_0 : Ref sig .tc := ⟨.vmem, 27, rfl⟩
abbrev cc1_stg18_1 : Ref sig .tc := ⟨.vmem, 28, rfl⟩
abbrev cc1_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem11_0 : DmaSem sig := 20
abbrev cc1_sem12_0 : DmaSem sig := 21
abbrev cc1_sem13_0 : DmaSem sig := 22
abbrev cc1_sem14_0 : DmaSem sig := 23
abbrev cc1_sem15_0 : DmaSem sig := 24
abbrev cc1_sem16_0 : DmaSem sig := 25
abbrev cc1_sem17_0 : DmaSem sig := 26
abbrev cc1_sem18_0 : DmaSem sig := 27
abbrev cc1_sem18_1 : DmaSem sig := 28

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![2, 4, 4], ![false, false, false]⟩

def k1_cond2 (i : grid1.Coords) : BitVec 1 :=
  let arg2 : BitVec 32 := BitVec.ofNat 32 (i 2).val
  let c3_i32 : BitVec 32 := 3#32
  let v76 : BitVec 1 := Scalar.cmpi .eq arg2 c3_i32
  let v77 : BitVec 32 := Scalar.extui v76
  let c0_i32_36 : BitVec 32 := 0#32
  let v78 : BitVec 1 := Scalar.cmpi .ne v77 c0_i32_36
  v78

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false, false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false, false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false, false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false, false]

abbrev stage1_10 : Fin 1 → Memref sig .tc .vmem S1x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false, false]

abbrev stage1_11 : Fin 1 → Memref sig .tc .vmem S1x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false, false]

abbrev stage1_12 : Fin 1 → Memref sig .tc .vmem S128x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false, false]

abbrev stage1_13 : Fin 1 → Memref sig .tc .vmem S1x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false, false]

abbrev stage1_14 : Fin 1 → Memref sig .tc .vmem S128x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false, false, false]

abbrev stage1_15 : Fin 1 → Memref sig .tc .vmem S1x128 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false, false, false]

abbrev stage1_16 : Fin 1 → Memref sig .tc .vmem S1x128 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false, false, false]

abbrev stage1_17 : Fin 1 → Memref sig .tc .vmem S1x128 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false, false, false]

abbrev stage1_18 : Fin 2 → Memref sig .tc .vmem S1x128x128 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true, true, false]

class Facts₀ : Prop where
  shapeCasts_S128_S1x128 : S128.ShapeCasts S1x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  transposes_S128x128_p1_0_S128x128 : S128x128.Transposes [1, 0] S128x128
  broadcasts_S1x128_S512x128 : S1x128.Broadcasts S512x128
  shapeCasts_S512x128_S1x512x128 : S512x128.ShapeCasts S1x512x128
  slices_S128x129_S128x128_0_0 : S128x129.Slices ![0, 0] S128x128
  slices_S128x129_S128x1_0_128 : S128x129.Slices ![0, 128] S128x1
  shapeCasts_S128x1_S128 : S128x1.ShapeCasts S128
  slices_S1x257_S1x128_0_0 : S1x257.Slices ![0, 0] S1x128
  shapeCasts_S1x128_S128 : S1x128.ShapeCasts S128
  slices_S1x257_S1x128_0_128 : S1x257.Slices ![0, 128] S1x128
  slices_S1x257_S1x1_0_256 : S1x257.Slices ![0, 256] S1x1
  shapeCasts_S1x1_S_ : S1x1.ShapeCasts S_
  shapeCasts_S_S1x1 : S_.ShapeCasts S1x1
  shapeCasts_S1_S1x1 : S1.ShapeCasts S1x1
  shapeCasts_S128x128_S128x128 : S128x128.ShapeCasts S128x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  broadcasts_S1x128_S128x128 : S1x128.Broadcasts S128x128
  shapeCasts_S128x128_S128x128x1 : S128x128.ShapeCasts S128x128x1
  shapeCasts_S128_S1x1x128 : S128.ShapeCasts S1x1x128
  broadcasts_S128x128x1_S128x128x128 : S128x128x1.Broadcasts S128x128x128
  broadcasts_S1x1x128_S128x128x128 : S1x1x128.Broadcasts S128x128x128
  shapeCasts_S128x128_S1x128x128 : S128x128.ShapeCasts S1x128x128
  broadcasts_S1x128x128_S128x128x128 : S1x128x128.Broadcasts S128x128x128
  shapeCasts_S128x128x128_S16384x128 : S128x128x128.ShapeCasts S16384x128
  bitsLt_bf16_f32 : FTy.bits .bf16 < FTy.bits .f32
  broadcasts_S1x128_S16384x128 : S1x128.Broadcasts S16384x128
  shapeCasts_S16384x128_S128x128x128 : S16384x128.ShapeCasts S128x128x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  reduces_S128x128_S128 : S128x128.Reduces [1] S128
  shapeCasts_S128_S128x1 : S128.ShapeCasts S128x1
  broadcasts_S128x1_S128x128 : S128x1.Broadcasts S128x128
  reduces_S128x128x128_S128x128 : S128x128x128.Reduces [1] S128x128
  dot_S512x128_S128x128_S512x128_1_0_0_1_n_n_wf : DotDims.WF S512x128 S128x128 S512x128 [1] [0] [0] [1] [] []
  dot_S128x128_S128x128_S128x128_1_0_0_1_n_n_wf : DotDims.WF S128x128 S128x128 S128x128 [1] [0] [0] [1] [] []
  dot_S16384x128_S128x128_S16384x128_1_0_0_1_n_n_wf : DotDims.WF S16384x128 S128x128 S16384x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S2x512x128.size a
  hwx0_0 : ∀ i : grid0.Coords, EltTy.bits .f32 = 32 ∨ (Rect.block (s := S2x512x128) S1x512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x128.size a ≤ S2x512x128.size a
  hwx0_3 : ∀ i : grid0.Coords, EltTy.bits .f32 = 32 ∨ (Rect.block (s := S2x512x128) S1x512x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x128.size a ≤ S2x512x128.size a
  hwx1_0 : ∀ i : grid1.Coords, EltTy.bits .f32 = 32 ∨ (Rect.block (s := S2x512x128) S1x128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x128.size a ≤ S2x512x128.size a
  hwx1_1 : ∀ i : grid1.Coords, EltTy.bits .f32 = 32 ∨ (Rect.block (s := S2x512x128) S1x128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x128.size a ≤ S2x512x512.size a
  hwx1_2 : ∀ i : grid1.Coords, EltTy.bits .f32 = 32 ∨ (Rect.block (s := S2x512x512) S1x128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x1.size a ≤ S1x1.size a
  hwx1_10 : ∀ i : grid1.Coords, EltTy.bits .f32 = 32 ∨ (Rect.block (s := S1x1) S1x1.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x1.size a ≤ S1x1.size a
  hwx1_11 : ∀ i : grid1.Coords, EltTy.bits .f32 = 32 ∨ (Rect.block (s := S1x1) S1x1.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S128x128.size a ≤ S128x128.size a
  hwx1_12 : ∀ i : grid1.Coords, EltTy.bits .f32 = 32 ∨ (Rect.block (s := S128x128) S128x128.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x128.size a ≤ S1x128.size a
  hwx1_13 : ∀ i : grid1.Coords, EltTy.bits .f32 = 32 ∨ (Rect.block (s := S1x128) S1x128.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S128x128.size a ≤ S128x128.size a
  hwx1_14 : ∀ i : grid1.Coords, EltTy.bits .f32 = 32 ∨ (Rect.block (s := S128x128) S128x128.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S1x128.size a ≤ S1x128.size a
  hwx1_15 : ∀ i : grid1.Coords, EltTy.bits .f32 = 32 ∨ (Rect.block (s := S1x128) S1x128.size (cc1_transform_15 i) (hinb1_15 i)).WholeWords (EltTy.packing .f32)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S1x128.size a ≤ S1x128.size a
  hwx1_16 : ∀ i : grid1.Coords, EltTy.bits .f32 = 32 ∨ (Rect.block (s := S1x128) S1x128.size (cc1_transform_16 i) (hinb1_16 i)).WholeWords (EltTy.packing .f32)
  hstage1_17 : ∀ j, (stage1_17 j).IsWhole
  nbuf1_17 : grid1.bufCount reads1_17 true = 1
  hreads1_17 : ∀ i i' : grid1.Coords, (∀ a, reads1_17 a = true → i a = i' a) → cc1_transform_17 i = cc1_transform_17 i'
  hinb1_17 : ∀ (i : grid1.Coords) a, (cc1_transform_17 i a + 1) * S1x128.size a ≤ S1x128.size a
  hwx1_17 : ∀ i : grid1.Coords, EltTy.bits .f32 = 32 ∨ (Rect.block (s := S1x128) S1x128.size (cc1_transform_17 i) (hinb1_17 i)).WholeWords (EltTy.packing .f32)
  hstage1_18 : ∀ j, (stage1_18 j).IsWhole
  nbuf1_18 : grid1.bufCount reads1_18 false = 2
  hreads1_18 : ∀ i i' : grid1.Coords, (∀ a, reads1_18 a = true → i a = i' a) → cc1_transform_18 i = cc1_transform_18 i'
  hinb1_18 : ∀ (i : grid1.Coords) a, (cc1_transform_18 i a + 1) * S1x128x128.size a ≤ S2x512x128.size a
  hwx1_18 : ∀ i : grid1.Coords, EltTy.bits .f32 = 32 ∨ (Rect.block (s := S2x512x128) S1x128x128.size (cc1_transform_18 i) (hinb1_18 i)).WholeWords (EltTy.packing .f32)

variable [Facts₀]

def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf

abbrev win0_0 : Pipeline.Window sig grid0 :=
  Pipeline.Window.ofSpec (Memref.whole main_arg0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1x128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1x128x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v7) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v10) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v13) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v16) S1x1.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v17) S1x1.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg10) S128x128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v18) S1x128.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_arg12) S128x128.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v19) S1x128.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v20) S1x128.size cc1_transform_16 reads1_16 false true 1 stage1_16 sem1_16
    hrank1 hreads1_16 hinb1_16 nbuf1_16 (Memref.isWhole_whole _) hwx1_16 hstage1_16

abbrev win1_17 : Pipeline.Window sig grid1 :=
  Pipeline.Window.ofSpec (Memref.whole main_v21) S1x128.size cc1_transform_17 reads1_17 false true 1 stage1_17 sem1_17
    hrank1 hreads1_17 hinb1_17 nbuf1_17 (Memref.isWhole_whole _) hwx1_17 hstage1_17

abbrev win1_18 : Pipeline.Window sig grid1 :=
  Pipeline.Window.ofSpec (Memref.whole main_v22) S1x128x128.size cc1_transform_18 reads1_18 true false 2 stage1_18 sem1_18
    hrank1 hreads1_18 hinb1_18 nbuf1_18 (Memref.isWhole_whole _) hwx1_18 hstage1_18

abbrev win1 : Fin 19 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | 18 => win1_18 | ⟨_ + 19, h⟩ => absurd h (Nat.not_lt.2 (Nat.le_add_left _ _))
abbrev spec1 : Fin 19 → Pipeline.WinSpec sig grid1.rank := fun w => (win1 w).toWinSpec

abbrev idle1 : Fin 19 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun _ => false | 17 => fun _ => false | 18 => fun i => !(k1_cond2 i == 1#1) | ⟨_ + 19, h⟩ => absurd h (Nat.not_lt.2 (Nat.le_add_left _ _))

class Facts : Prop extends Facts₀ where

variable [Facts]
-- ==== ReferenceIdeal.lean ====
abbrev S2x512x128 : Shape := ⟨3, ![2, 512, 128]⟩
abbrev S2x512x512 : Shape := ⟨3, ![2, 512, 512]⟩
abbrev S128x128 : Shape := ⟨2, ![128, 128]⟩
abbrev S128 : Shape := ⟨1, ![128]⟩
abbrev S128x129 : Shape := ⟨2, ![128, 129]⟩
abbrev S1x257 : Shape := ⟨2, ![1, 257]⟩
abbrev S1 : Shape := ⟨1, ![1]⟩
abbrev S1x1x128 : Shape := ⟨3, ![1, 1, 128]⟩
abbrev S2x512x512x1 : Shape := ⟨4, ![2, 512, 512, 1]⟩
abbrev S2x1x512x128 : Shape := ⟨4, ![2, 1, 512, 128]⟩
abbrev S2x512x512x128 : Shape := ⟨4, ![2, 512, 512, 128]⟩
abbrev S2x512x1x128 : Shape := ⟨4, ![2, 512, 1, 128]⟩
abbrev S2x512x512x129 : Shape := ⟨4, ![2, 512, 512, 129]⟩
abbrev S1x1x1x128 : Shape := ⟨4, ![1, 1, 1, 128]⟩
abbrev S_ : Shape := ⟨0, ![]⟩
abbrev S2x512x512x257 : Shape := ⟨4, ![2, 512, 512, 257]⟩
abbrev S1x1x1x1 : Shape := ⟨4, ![1, 1, 1, 1]⟩
abbrev S2x512 : Shape := ⟨2, ![2, 512]⟩
abbrev S2x512x1 : Shape := ⟨3, ![2, 512, 1]⟩

abbrev nBuf : Space → Nat
  | .hbm => 98
  | .vmem => 0
  | .smem => 0
  | _ => 0

abbrev bufTy : (tb : Table) → Fin (tcTables nBuf tb) → BufTy
  | .hbm, ⟨0, _⟩ => ⟨S2x512x128, .f32⟩
  | .hbm, ⟨1, _⟩ => ⟨S2x512x512, .f32⟩
  | .hbm, ⟨2, _⟩ => ⟨S128x128, .f32⟩
  | .hbm, ⟨3, _⟩ => ⟨S128, .f32⟩
  | .hbm, ⟨4, _⟩ => ⟨S128x129, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x257, .f32⟩
  | .hbm, ⟨9, _⟩ => ⟨S1, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S2x512x128, .f32⟩
  | .hbm, ⟨17, _⟩ => ⟨S1x1x128, .f32⟩
  | .hbm, ⟨18, _⟩ => ⟨S2x512x128, .f32⟩
  | .hbm, ⟨19, _⟩ => ⟨S2x512x128, .f32⟩
  | .hbm, ⟨20, _⟩ => ⟨S2x512x512x1, .f32⟩
  | .hbm, ⟨21, _⟩ => ⟨S2x1x512x128, .f32⟩
  | .hbm, ⟨22, _⟩ => ⟨S2x512x512x128, .f32⟩
  | .hbm, ⟨23, _⟩ => ⟨S2x512x1x128, .f32⟩
  | .hbm, ⟨24, _⟩ => ⟨S2x512x512x128, .f32⟩
  | .hbm, ⟨25, _⟩ => ⟨S2x512x512x129, .f32⟩
  | .hbm, ⟨26, _⟩ => ⟨S2x512x512x128, .f32⟩
  | .hbm, ⟨27, _⟩ => ⟨S1x1x1x128, .f32⟩
  | .hbm, ⟨28, _⟩ => ⟨S2x512x512x128, .f32⟩
  | .hbm, ⟨29, _⟩ => ⟨S2x512x512x128, .f32⟩
  | .hbm, ⟨30, _⟩ => ⟨S_, .f32⟩
  | .hbm, ⟨31, _⟩ => ⟨S2x512x512x128, .f32⟩
  | .hbm, ⟨32, _⟩ => ⟨S2x512x512x128, .f32⟩
  | .hbm, ⟨33, _⟩ => ⟨S2x512x512x128, .f32⟩
  | .hbm, ⟨34, _⟩ => ⟨S1x1x1x128, .f32⟩
  | .hbm, ⟨35, _⟩ => ⟨S2x512x512x128, .f32⟩
  | .hbm, ⟨36, _⟩ => ⟨S2x512x512x128, .f32⟩
  | .hbm, ⟨37, _⟩ => ⟨S2x512x512x257, .f32⟩
  | .hbm, ⟨38, _⟩ => ⟨S2x512x512x1, .f32⟩
  | .hbm, ⟨39, _⟩ => ⟨S1x1x1x1, .f32⟩
  | .hbm, ⟨40, _⟩ => ⟨S2x512x512x1, .f32⟩
  | .hbm, ⟨41, _⟩ => ⟨S2x512x512x1, .f32⟩
  | .hbm, ⟨42, _⟩ => ⟨S2x512x512x1, .f32⟩
  | .hbm, ⟨43, _⟩ => ⟨S2x512x512x1, .f32⟩
  | .hbm, ⟨44, _⟩ => ⟨S_, .f32⟩
  | .hbm, ⟨45, _⟩ => ⟨S2x512x512x1, .f32⟩
  | .hbm, ⟨46, _⟩ => ⟨S2x512x512x1, .f32⟩
  | .hbm, ⟨47, _⟩ => ⟨S_, .f32⟩
  | .hbm, ⟨48, _⟩ => ⟨S2x512x512x1, .f32⟩
  | .hbm, ⟨49, _⟩ => ⟨S2x512x512x1, .f32⟩
  | .hbm, ⟨50, _⟩ => ⟨S2x512x512x128, .f32⟩
  | .hbm, ⟨51, _⟩ => ⟨S2x512x512x128, .f32⟩
  | .hbm, ⟨52, _⟩ => ⟨S_, .f32⟩
  | .hbm, ⟨53, _⟩ => ⟨S2x512x128, .f32⟩
  | .hbm, ⟨54, _⟩ => ⟨S2x512x128, .f32⟩
  | .hbm, ⟨55, _⟩ => ⟨S1x1x128, .f32⟩
  | .hbm, ⟨56, _⟩ => ⟨S2x512x128, .f32⟩
  | .hbm, ⟨57, _⟩ => ⟨S2x512x128, .f32⟩
  | .hbm, ⟨58, _⟩ => ⟨S_, .f32⟩
  | .hbm, ⟨59, _⟩ => ⟨S2x512x128, .f32⟩
  | .hbm, ⟨60, _⟩ => ⟨S2x512x128, .f32⟩
  | .hbm, ⟨61, _⟩ => ⟨S2x512x128, .f32⟩
  | .hbm, ⟨62, _⟩ => ⟨S1x1x128, .f32⟩
  | .hbm, ⟨63, _⟩ => ⟨S2x512x128, .f32⟩
  | .hbm, ⟨64, _⟩ => ⟨S2x512x128, .f32⟩
  | .hbm, ⟨65, _⟩ => ⟨S2x512x128, .f32⟩
  | .hbm, ⟨66, _⟩ => ⟨S_, .f32⟩
  | .hbm, ⟨67, _⟩ => ⟨S2x512, .f32⟩
  | .hbm, ⟨68, _⟩ => ⟨S2x512x1, .f32⟩
  | .hbm, ⟨69, _⟩ => ⟨S_, .f32⟩
  | .hbm, ⟨70, _⟩ => ⟨S2x512x1, .f32⟩
  | .hbm, ⟨71, _⟩ => ⟨S2x512x1, .f32⟩
  | .hbm, ⟨72, _⟩ => ⟨S2x512x128, .f32⟩
  | .hbm, ⟨73, _⟩ => ⟨S2x512x128, .f32⟩
  | .hbm, ⟨74, _⟩ => ⟨S2x512x128, .f32⟩
  | .hbm, ⟨75, _⟩ => ⟨S_, .f32⟩
  | .hbm, ⟨76, _⟩ => ⟨S2x512, .f32⟩
  | .hbm, ⟨77, _⟩ => ⟨S2x512x1, .f32⟩
  | .hbm, ⟨78, _⟩ => ⟨S_, .f32⟩
  | .hbm, ⟨79, _⟩ => ⟨S2x512x1, .f32⟩
  | .hbm, ⟨80, _⟩ => ⟨S2x512x1, .f32⟩
  | .hbm, ⟨81, _⟩ => ⟨S2x512x128, .f32⟩
  | .hbm, ⟨82, _⟩ => ⟨S2x512x128, .f32⟩
  | .hbm, ⟨83, _⟩ => ⟨S_, .f32⟩
  | .hbm, ⟨84, _⟩ => ⟨S2x512x1, .f32⟩
  | .hbm, ⟨85, _⟩ => ⟨S2x512x1, .f32⟩
  | .hbm, ⟨86, _⟩ => ⟨S2x512x1, .f32⟩
  | .hbm, ⟨87, _⟩ => ⟨S2x512x128, .f32⟩
  | .hbm, ⟨88, _⟩ => ⟨S2x512x128, .f32⟩
  | .hbm, ⟨89, _⟩ => ⟨S1x1x128, .f32⟩
  | .hbm, ⟨90, _⟩ => ⟨S2x512x128, .f32⟩
  | .hbm, ⟨91, _⟩ => ⟨S2x512x128, .f32⟩
  | .hbm, ⟨92, _⟩ => ⟨S1x1x128, .f32⟩
  | .hbm, ⟨93, _⟩ => ⟨S2x512x128, .f32⟩
  | .hbm, ⟨94, _⟩ => ⟨S2x512x128, .f32⟩
  | .hbm, ⟨95, _⟩ => ⟨S_, .f32⟩
  | .hbm, ⟨96, _⟩ => ⟨S2x512x128, .f32⟩
  | .hbm, ⟨97, _⟩ => ⟨S2x512x128, .f32⟩
  | _, _ => ⟨S2x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_call0_cst : Ref sig .tc := ⟨.hbm, 30, rfl⟩
abbrev main_call0_v0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst : Ref sig .tc := ⟨.hbm, 44, rfl⟩
abbrev main_v26 : Ref sig .tc := ⟨.hbm, 45, rfl⟩
abbrev main_v27 : Ref sig .tc := ⟨.hbm, 46, rfl⟩
abbrev main_cst_0 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_1 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_call1_cst : Ref sig .tc := ⟨.hbm, 58, rfl⟩
abbrev main_call1_v0 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_2 : Ref sig .tc := ⟨.hbm, 66, rfl⟩
abbrev main_v43 : Ref sig .tc := ⟨.hbm, 67, rfl⟩
abbrev main_v44 : Ref sig .tc := ⟨.hbm, 68, rfl⟩
abbrev main_cst_3 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_4 : Ref sig .tc := ⟨.hbm, 75, rfl⟩
abbrev main_v50 : Ref sig .tc := ⟨.hbm, 76, rfl⟩
abbrev main_v51 : Ref sig .tc := ⟨.hbm, 77, rfl⟩
abbrev main_cst_5 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_6 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_call2_cst : Ref sig .tc := ⟨.hbm, 95, rfl⟩
abbrev main_call2_v0 : Ref sig .tc := ⟨.hbm, 96, rfl⟩
abbrev main_v67 : Ref sig .tc := ⟨.hbm, 97, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S2x512x128_0_1_2 : S1x1x128.BroadcastsInDim S2x512x128 (![0, 1, 2] : Fin 3 → Fin S2x512x128.rank)
  bcast_S2x512x512_S2x512x512x1_0_1_2 : S2x512x512.BroadcastsInDim S2x512x512x1 (![0, 1, 2] : Fin 3 → Fin S2x512x512x1.rank)
  bcast_S2x512x128_S2x1x512x128_0_2_3 : S2x512x128.BroadcastsInDim S2x1x512x128 (![0, 2, 3] : Fin 3 → Fin S2x1x512x128.rank)
  bcast_S2x1x512x128_S2x512x512x128_0_1_2_3 : S2x1x512x128.BroadcastsInDim S2x512x512x128 (![0, 1, 2, 3] : Fin 4 → Fin S2x512x512x128.rank)
  bcast_S2x512x128_S2x512x1x128_0_1_3 : S2x512x128.BroadcastsInDim S2x512x1x128 (![0, 1, 3] : Fin 3 → Fin S2x512x1x128.rank)
  bcast_S2x512x1x128_S2x512x512x128_0_1_2_3 : S2x512x1x128.BroadcastsInDim S2x512x512x128 (![0, 1, 2, 3] : Fin 4 → Fin S2x512x512x128.rank)
  concatenates_S2x512x512x128_S2x512x512x1_S2x512x512x129_d3 : Shape.Concatenates [S2x512x512x128, S2x512x512x1] S2x512x512x129 3
  bcast_S128_S1x1x1x128_3 : S128.BroadcastsInDim S1x1x1x128 (![3] : Fin 1 → Fin S1x1x1x128.rank)
  bcast_S1x1x1x128_S2x512x512x128_0_1_2_3 : S1x1x1x128.BroadcastsInDim S2x512x512x128 (![0, 1, 2, 3] : Fin 4 → Fin S2x512x512x128.rank)
  bcast_S_S2x512x512x128 : S_.BroadcastsInDim S2x512x512x128 (![] : Fin 0 → Fin S2x512x512x128.rank)
  concatenates_S2x512x512x128_S2x512x512x128_S2x512x512x1_S2x512x512x257_d3 : Shape.Concatenates [S2x512x512x128, S2x512x512x128, S2x512x512x1] S2x512x512x257 3
  bcast_S1_S1x1x1x1_3 : S1.BroadcastsInDim S1x1x1x1 (![3] : Fin 1 → Fin S1x1x1x1.rank)
  bcast_S1x1x1x1_S2x512x512x1_0_1_2_3 : S1x1x1x1.BroadcastsInDim S2x512x512x1 (![0, 1, 2, 3] : Fin 4 → Fin S2x512x512x1.rank)
  bcast_S_S2x512x512x1 : S_.BroadcastsInDim S2x512x512x1 (![] : Fin 0 → Fin S2x512x512x1.rank)
  bcast_S2x512x512x1_S2x512x512x128_0_1_2_3 : S2x512x512x1.BroadcastsInDim S2x512x512x128 (![0, 1, 2, 3] : Fin 4 → Fin S2x512x512x128.rank)
  reducesTo_S2x512x512x128_S2x512x128_d2 : S2x512x512x128.ReducesTo [2] S2x512x128
  h_S_ : 0 < S_.numel
  bcast_S_S2x512x128 : S_.BroadcastsInDim S2x512x128 (![] : Fin 0 → Fin S2x512x128.rank)
  reducesTo_S2x512x128_S2x512_d2 : S2x512x128.ReducesTo [2] S2x512
  bcast_S2x512_S2x512x1_0_1 : S2x512.BroadcastsInDim S2x512x1 (![0, 1] : Fin 2 → Fin S2x512x1.rank)
  bcast_S_S2x512x1 : S_.BroadcastsInDim S2x512x1 (![] : Fin 0 → Fin S2x512x1.rank)
  bcast_S2x512x1_S2x512x128_0_1_2 : S2x512x1.BroadcastsInDim S2x512x128 (![0, 1, 2] : Fin 3 → Fin S2x512x128.rank)
  dot_S2x512x128_S128x128_S2x512x128_2_1_01_0_n_n_wf : DotDims.WF S2x512x128 S128x128 S2x512x128 [2] [1] [0, 1] [0] [] []
  dot_S2x512x512x129_S128x129_S2x512x512x128_3_1_012_0_n_n_wf : DotDims.WF S2x512x512x129 S128x129 S2x512x512x128 [3] [1] [0, 1, 2] [0] [] []
  dot_S2x512x512x128_S128x128_S2x512x512x128_3_1_012_0_n_n_wf : DotDims.WF S2x512x512x128 S128x128 S2x512x512x128 [3] [1] [0, 1, 2] [0] [] []
  dot_S2x512x512x257_S1x257_S2x512x512x1_3_1_012_0_n_n_wf : DotDims.WF S2x512x512x257 S1x257 S2x512x512x1 [3] [1] [0, 1, 2] [0] [] []

variable [Facts₀]

def dot_S2x512x128_S128x128_S2x512x128_2_1_01_0_n_n : DotDims S2x512x128 S128x128 S2x512x128 where
  lhsContracting := [2]
  rhsContracting := [1]
  lhsNonContracting := [0, 1]
  rhsNonContracting := [0]
  lhsBatch := []
  rhsBatch := []
  wf := dot_S2x512x128_S128x128_S2x512x128_2_1_01_0_n_n_wf
def dot_S2x512x512x129_S128x129_S2x512x512x128_3_1_012_0_n_n : DotDims S2x512x512x129 S128x129 S2x512x512x128 where
  lhsContracting := [3]
  rhsContracting := [1]
  lhsNonContracting := [0, 1, 2]
  rhsNonContracting := [0]
  lhsBatch := []
  rhsBatch := []
  wf := dot_S2x512x512x129_S128x129_S2x512x512x128_3_1_012_0_n_n_wf
def dot_S2x512x512x128_S128x128_S2x512x512x128_3_1_012_0_n_n : DotDims S2x512x512x128 S128x128 S2x512x512x128 where
  lhsContracting := [3]
  rhsContracting := [1]
  lhsNonContracting := [0, 1, 2]
  rhsNonContracting := [0]
  lhsBatch := []
  rhsBatch := []
  wf := dot_S2x512x512x128_S128x128_S2x512x512x128_3_1_012_0_n_n_wf
def dot_S2x512x512x257_S1x257_S2x512x512x1_3_1_012_0_n_n : DotDims S2x512x512x257 S1x257 S2x512x512x1 where
  lhsContracting := [3]
  rhsContracting := [1]
  lhsNonContracting := [0, 1, 2]
  rhsNonContracting := [0]
  lhsBatch := []
  rhsBatch := []
  wf := dot_S2x512x512x257_S1x257_S2x512x512x1_3_1_012_0_n_n_wf

class Facts : Prop extends Facts₀ where

variable [Facts]
-- ==== Proof.K.D0.lean ====
/-
  The first kernel (the input linear layer, one grid point per batch entry): what each window's block is at a
  grid point, what the body's one store leaves in the output block, and the pipeline's proof data built from them.
  Stated at any contents `V` of the buffers on entry.
-/
import proofs.«135699_j28114855919650_1_alg».proof.Proof.Gen.Kernel.Launch
import proofs.«135699_j28114855919650_1_alg».proof.Proof.Gen.Kernel.Skeleton
import proofs.«135699_j28114855919650_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangles the body loads and stores through. -/
abbrev rX0 : Rect S1x512x128 := Rect.unit (s := S1x512x128) ![0, 0, 0] S1x512x128.size inb_S1x512x128_S1x512x128_0_0_0
abbrev rW0 : Rect S128x128 := Rect.unit (s := S128x128) ![0, 0] S128x128.size inb_S128x128_S128x128_0_0
abbrev rB0 : Rect S1x128 := Rect.unit (s := S1x128) ![0, 0] S1x128.size inb_S1x128_S1x128_0_0

/-- The output block after the body: its one store, of the payload of the three loaded blocks. -/
def out0_3 (x0 : Vec F S1x512x128 .f32) (x1 : Vec F S128x128 .f32) (x2 : Vec F S1x128 .f32) : Vec F S1x512x128 .f32 :=
  View.canon [⟨rX0, k0_pay1 (View.ld x0 rX0) (View.ld x1 rW0) (View.ld x2 rB0)⟩]

/-- The proof data of the first pipeline: arrays as found; inputs' buffers at their blocks, the output's at `out0_3`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

end Cert.Kernel.Hand

end
-- ==== Proof.K.D1.lean ====
/-
  The second kernel (messages, attention and aggregation over a 2 x 4 x 4 grid, the last axis accumulating into a
  scratch block): each window's block at a grid point, one accumulation step and the closing step as functions of the
  blocks, the scratch and the output block after every point by recursion on the point, and the proof data.
  Stated at any contents `V` of the buffers on entry.
-/
import proofs.«135699_j28114855919650_1_alg».proof.Proof.Gen.Kernel.Launch
import proofs.«135699_j28114855919650_1_alg».proof.Proof.Gen.Kernel.Skeleton
import proofs.«135699_j28114855919650_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One accumulation step: the scratch block after a grid point, from the centre block `x0`, the neighbour block `x1`,
    the adjacency tile `x2`, the message and attention weights `x3 … x11` and the scratch block before (`xs`). -/
def accStep (x0 x1 x2 : Vec F S1x128x128 .f32) (x3 : Vec F S128x128 .f32) (x4 x5 : Vec F S1x128 .f32)
    (x6 : Vec F S128x128 .f32) (x7 x8 x9 : Vec F S1x128 .f32) (x10 x11 : Vec F S1x1 .f32)
    (xs : Vec F S128x128 .f32) : Vec F S128x128 .f32 :=
  k1_pay14 (k1_pay9 x0) (k1_pay10 x1) (k1_pay11 x2) x6 (k1_pay12 x7) (k1_pay13 x1 x2 x3 x4 x5) x8 x9 x10 x11 xs

/-- The closing step: the output block from the centre block, the output network's and the layer norm's parameters
    `x12 … x17` and the finished aggregate `s`. -/
def outStep (x0 : Vec F S1x128x128 .f32) (x12 : Vec F S128x128 .f32) (x13 : Vec F S1x128 .f32) (x14 : Vec F S128x128 .f32)
    (x15 x16 x17 : Vec F S1x128 .f32) (s : Vec F S128x128 .f32) : Vec F S1x128x128 .f32 :=
  k1_pay1 (k1_pay4 x16) (k1_pay5 x17) (k1_pay6 (k1_pay9 x0) s x12 x13 x14 x15) (k1_pay7 (k1_pay9 x0) s x12 x13 x14 x15)

/-- The accumulation step at grid point `t`, over the scratch contents `xs`. -/
def acc1 (c : Dev nD) (t : Fin cfg1.N) (xs : Vec F S128x128 .f32) : Vec F S128x128 .f32 :=
  accStep (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) xs

/-- The closing step at grid point `t`, over the aggregate `s`. -/
def fin1 (c : Dev nD) (t : Fin cfg1.N) (s : Vec F S128x128 .f32) : Vec F S1x128x128 .f32 :=
  outStep (iblk1 V c 0 t) (iblk1 V c 12 t) (iblk1 V c 13 t) (iblk1 V c 14 t) (iblk1 V c 15 t) (iblk1 V c 16 t) (iblk1 V c 17 t) s

/-- The scratch block after the body at position `n`: a step over zeros at the first point of each group of four
    (the last grid axis at 0), over what the point before left otherwise. -/
def scr1 (c : Dev nD) : (n : ℕ) → n < cfg1.N → Vec F S128x128 .f32
  | 0, hn => acc1 V c ⟨0, hn⟩ (k1_pay8 (F := F))
  | n + 1, hn => acc1 V c ⟨n + 1, hn⟩ (if (n + 1) % 4 = 0 then k1_pay8 (F := F) else scr1 c n (Nat.lt_of_succ_lt hn))

theorem scr1_zero (c : Dev nD) (t : Fin cfg1.N) (h : t.val % 4 = 0) :
    scr1 V c t.val t.isLt = acc1 V c t (k1_pay8 (F := F)) := by
  obtain ⟨n, hn⟩ := t
  cases n with
  | zero => rfl
  | succ n => exact congrArg (acc1 V c ⟨n + 1, hn⟩) (if_pos h)

theorem scr1_succ (c : Dev nD) (t : Fin cfg1.N) (h : ¬ t.val % 4 = 0) :
    scr1 V c t.val t.isLt = acc1 V c t (scr1 V c (t.val - 1) (Nat.lt_of_le_of_lt (Nat.sub_le _ _) t.isLt)) := by
  obtain ⟨n, hn⟩ := t
  cases n with
  | zero => exact absurd (Nat.zero_mod _) h
  | succ n => exact congrArg (acc1 V c ⟨n + 1, hn⟩) (if_neg h)

/-- The scratch operand as a whole memref. -/
abbrev scM1_0 : Memref sig .tc .vmem S128x128 .f32 := Memref.whole cc1_scratch0

/-- The scoped buffers the second kernel neither stages through nor uses: the first kernel's staging buffers. -/
def rest1 (c : Dev nD) : sProp 𝕄 :=
  bigSepL [cc0_stg0_0, cc0_stg0_1, cc0_stg1_0, cc0_stg2_0, cc0_stg3_0, cc0_stg3_1]
    fun b => iprop(∃ f : Buf (Elt F) ((c : Thread nD τ).loc b), ((c : Thread nD τ).loc b) ↦{fullShare} f)

/-- The region invariant before position `n`: the class's before the first point; afterwards the scratch block at what
    the point before left, the other scoped buffers at anything, the generator register at some state. -/
def PhiS1 (c : Dev nD) : (n : ℕ) → n ≤ cfg1.N → sProp 𝕄
  | 0, _ => Pipeline.ΦA spec1 c
  | n + 1, hn => iprop((rest1 (F := F) c ∗ owns (c : Thread nD τ) scM1_0 fullShare (scr1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((rest1 (F := F) c ∗ owns (c : Thread nD τ) scM1_0 fullShare (scr1 V c n hn)) ∗ (∃ r, prngReg c r)) := rfl

theorem PhiS1_pos (c : Dev nD) (n : ℕ) (h : n ≤ cfg1.N) (hz : n ≠ 0) :
    PhiS1 V c n h = iprop((rest1 (F := F) c ∗ owns (c : Thread nD τ) scM1_0 fullShare (scr1 V c (n - 1) (by omega))) ∗ (∃ r, prngReg c r)) := by
  cases n with
  | zero => exact absurd rfl hz
  | succ n => rfl

/-- The share the pipeline holds each input array at: the two windows over the one array `h` take its halves. -/
def q1 (w : Fin cfg1.W) : PosShare TreeShare :=
  if w.val = 0 then fullShare.left else if w.val = 1 then fullShare.right else fullShare

/-- The proof data of the second pipeline: arrays as found; inputs' buffers at their blocks; the output's at the closing
    step over the scratch (consulted only where the block is written back, the last point of each group of four). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => iblk1 V c 17 t
    | ⟨18, _⟩ => fin1 V c t (scr1 V c t.val t.isLt)
    | ⟨_ + 19, h⟩ => absurd h (Nat.not_lt.2 (Nat.le_add_left _ _))
  Φ t := PhiS1 V c t.val (Nat.le_of_lt_succ t.isLt)
  q := q1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = iblk1 V c 16 t := by dsimp only [dat1]
theorem after1_17 (c : Dev nD) (t : Fin cfg1.N) : (dat1 V c).after 17 t = iblk1 V c 17 t := by dsimp only [dat1]
theorem after1_18 (c : Dev nD) (t : Fin cfg1.N) : (dat1 V c).after 18 t = fin1 V c t (scr1 V c t.val t.isLt) := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

end Cert.Kernel.Hand

end
-- ==== Proof.K.R0.lean ====
/-
  The first kernel's body obligation: at every grid point the body, called on the windows' current staging
  buffers, leaves the three input blocks as they were and the output block at the payload of those three blocks.
  Stated at any contents `V` of the buffers on entry and generic in the float family.
-/
import proofs.«135699_j28114855919650_1_alg».proof.Proof.Gen.Kernel.Launch
import proofs.«135699_j28114855919650_1_alg».proof.Proof.Gen.Kernel.Skeleton
import proofs.«135699_j28114855919650_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«135699_j28114855919650_1_alg».proof.Proof.K.D0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' current buffers -/

/-- An input window's current staging buffer holds its block at every point, whether the pipeline fetched it
    there or kept it from an earlier point (then its index has not moved): for any proof data whose array is the
    entry contents and whose body leaves the block in place. Window 0 (fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Window 1 (the weights: fetched at the first point only, the same block at every point). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Window 2 (the bias: fetched at the first point only, the same block at every point). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body's one store covers the output block -/

/-- The store's rectangle is the whole block, so every index of the block lies in it. -/
theorem cover0_3 (p0 : Vec F S1x512x128 .f32) (y : S1x512x128.Idx) :
    ∃ pc ∈ ([⟨rX0, p0⟩] : List (View.Piece (Elt F) S1x512x128 .f32)), y ∈ pc.1.set :=
  View.cover_of_tiled [⟨rX0, p0⟩] S1x512x128.size (by rfl) y

/-! ## The body's triple -/

set_option maxHeartbeats 1000000 in
/-- The kernel body on whole staging buffers, the three inputs' at contents `x0 x1 x2` and the output's at anything,
    runs to the continuation holding the inputs' as they were and the output's at `out0_3 x0 x1 x2`: three whole-block
    loads, a load of the output block whose value is not used, and one whole-block store of the payload. -/
theorem sound_kernel0 (c : Dev nD) (E : Set ℕ) (i : grid0.Coords)
    (arg1 : Memref sig .tc .vmem S1x512x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S1x512x128 .f32) (harg4 : arg4.IsWhole)
    (x0 : Vec F S1x512x128 .f32) (x1 : Vec F S128x128 .f32) (x2 : Vec F S1x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__lin_kernel i arg1 harg1 arg2 harg2 arg3 harg3 arg4 harg4) K := by
  simp only [cc0__lin_kernel_eq_skeleton]; unfold cc0__lin_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

/-- What the body is called with at point `t`: the invariant, what the core owes, and each window's current buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1S.lean ====
/-
  The second kernel's body obligation, what its three cases share: the body's two conditions on the last grid
  coordinate in closed form, where the output window is idle, the staging memrefs the body is called with, the
  class's invariant with the scratch block named, and every input's staging buffer holding its block at every point.
-/
import proofs.«135699_j28114855919650_1_alg».proof.Proof.K.D1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditions on the last grid coordinate -/

/-- The first condition (the reset of the scratch block): the last grid coordinate is 0. -/
abbrev cond1_0 (i : grid1.Coords) : Prop := (Scalar.cmpi .ne (Scalar.extui (Scalar.cmpi .eq (BitVec.ofNat 32 (i 2).val) 0#32)) 0#32) = 1#1
/-- It holds exactly at the first point of each group of four. -/
theorem hcond1_0 : ∀ t : Fin cfg1.N, cond1_0 (grid1.coords t) ↔ t.val % 4 = 0 :=
  (by decide +kernel : ∀ t : Fin grid1.N, cond1_0 (grid1.coords t) ↔ t.val % 4 = 0)

/-- The second condition (the output block is stored): the last grid coordinate is 3. -/
abbrev cond1_1 (i : grid1.Coords) : Prop := k1_cond2 i = 1#1
/-- It holds exactly at the last point of each group of four. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the output window is idle -/

/-- Away from the last point of a group the output window is idle: nothing is stored into it, -/
theorem idleAt1_18 : ∀ t : Fin cfg1.N, ¬cond1_1 (grid1.coords t) → cfg1.idle 18 (grid1.coords t) = true := by decide +kernel
/-- and its block is not written back there. -/
theorem noFlush1_18 : ∀ t : Fin cfg1.N, ¬cond1_1 (grid1.coords t) → (cfg1.win 18).flush t = false := by decide +kernel
/-- At the last point of a group it is live. -/
theorem liveAt1_18 : ∀ t : Fin cfg1.N, cond1_1 (grid1.coords t) → cfg1.idle 18 (grid1.coords t) = false := by decide +kernel

/-! ## The staging memrefs the body is called with -/

abbrev ms1_0 (t : Fin cfg1.N) : Memref sig .tc .vmem S1x128x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x128 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x128 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x1 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1x1 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S128x128 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S1x128 .f32 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S128x128 .f32 := win1_14.stage (cfg1.slots t 14)
abbrev hs1_14 (t : Fin cfg1.N) : (ms1_14 t).IsWhole := hstage1_14 ((cfg1.slots t 14).cast nbuf1_14)
abbrev ms1_15 (t : Fin cfg1.N) : Memref sig .tc .vmem S1x128 .f32 := win1_15.stage (cfg1.slots t 15)
abbrev hs1_15 (t : Fin cfg1.N) : (ms1_15 t).IsWhole := hstage1_15 ((cfg1.slots t 15).cast nbuf1_15)
abbrev ms1_16 (t : Fin cfg1.N) : Memref sig .tc .vmem S1x128 .f32 := win1_16.stage (cfg1.slots t 16)
abbrev hs1_16 (t : Fin cfg1.N) : (ms1_16 t).IsWhole := hstage1_16 ((cfg1.slots t 16).cast nbuf1_16)
abbrev ms1_17 (t : Fin cfg1.N) : Memref sig .tc .vmem S1x128 .f32 := win1_17.stage (cfg1.slots t 17)
abbrev hs1_17 (t : Fin cfg1.N) : (ms1_17 t).IsWhole := hstage1_17 ((cfg1.slots t 17).cast nbuf1_17)
abbrev ms1_18 (t : Fin cfg1.N) : Memref sig .tc .vmem S1x128x128 .f32 := win1_18.stage (cfg1.slots t 18)
abbrev hs1_18 (t : Fin cfg1.N) : (ms1_18 t).IsWhole := hstage1_18 ((cfg1.slots t 18).cast nbuf1_18)

/-! ## The class's invariant with the scratch block named -/

/-- The class's invariant holds the six staging buffers of the first kernel, the scratch block at some contents and the
    generator register at some state. -/
theorem PhiA1_eq (c : Dev nD) :
    (Pipeline.ΦA spec1 c : sProp 𝕄)
      = iprop((rest1 (F := F) c ∗ ∃ d, owns (c : Thread nD τ) scM1_0 fullShare d) ∗ ∃ r, prngReg c r) := by
  unfold Pipeline.ΦA; rw [scopedRest1_eq]; unfold rest1; simp only [scM1_0, owns_whole, bigSepL_cons_cons, bigSepL_singleton]
  -- the two sides differ only in how the seven buffers are bracketed: the scratch block last in a chain of seven on the
  -- left, beside the chain of the other six on the right
  refine BI.equiv_iff.mp ⟨BI.sep_mono_l ?_, BI.sep_mono_l ?_⟩
  · exact (BI.sep_mono_r ((BI.sep_mono_r ((BI.sep_mono_r ((BI.sep_mono_r BI.sep_assoc').trans BI.sep_assoc')).trans
      BI.sep_assoc')).trans BI.sep_assoc')).trans BI.sep_assoc'
  · exact BI.sep_assoc.trans (BI.sep_mono_r (BI.sep_assoc.trans (BI.sep_mono_r (BI.sep_assoc.trans (BI.sep_mono_r
      (BI.sep_assoc.trans (BI.sep_mono_r BI.sep_assoc)))))))

/-! ## The inputs' staging buffers hold their blocks at every point -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl) (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl) (fun t => by rw [after1_8]; unfold Dat.blockOf iblk1; rw [A_eq1]; try rfl) t d).trans
    (by unfold Dat.fetched Dat.blockOf iblk1; rw [A_eq1]; try rfl)
theorem before1_9 (c : Dev nD) (t : Fin cfg1.N) (d) : (dat1 V c).before 9 t d = iblk1 V c 9 t :=
  ((dat1 V c).before_in_eq_fetched 9 rfl (fun _ => rfl) (fun _ _ _ => rfl) (fun t => by rw [after1_9]; unfold Dat.blockOf iblk1; rw [A_eq1]; try rfl) t d).trans
    (by unfold Dat.fetched Dat.blockOf iblk1; rw [A_eq1]; try rfl)
theorem before1_10 (c : Dev nD) (t : Fin cfg1.N) (d) : (dat1 V c).before 10 t d = iblk1 V c 10 t :=
  ((dat1 V c).before_in_eq_fetched 10 rfl (fun _ => rfl) (fun _ _ _ => rfl) (fun t => by rw [after1_10]; unfold Dat.blockOf iblk1; rw [A_eq1]; try rfl) t d).trans
    (by unfold Dat.fetched Dat.blockOf iblk1; rw [A_eq1]; try rfl)
theorem before1_11 (c : Dev nD) (t : Fin cfg1.N) (d) : (dat1 V c).before 11 t d = iblk1 V c 11 t :=
  ((dat1 V c).before_in_eq_fetched 11 rfl (fun _ => rfl) (fun _ _ _ => rfl) (fun t => by rw [after1_11]; unfold Dat.blockOf iblk1; rw [A_eq1]; try rfl) t d).trans
    (by unfold Dat.fetched Dat.blockOf iblk1; rw [A_eq1]; try rfl)
theorem before1_12 (c : Dev nD) (t : Fin cfg1.N) (d) : (dat1 V c).before 12 t d = iblk1 V c 12 t :=
  ((dat1 V c).before_in_eq_fetched 12 rfl (fun _ => rfl) (fun _ _ _ => rfl) (fun t => by rw [after1_12]; unfold Dat.blockOf iblk1; rw [A_eq1]; try rfl) t d).trans
    (by unfold Dat.fetched Dat.blockOf iblk1; rw [A_eq1]; try rfl)
theorem before1_13 (c : Dev nD) (t : Fin cfg1.N) (d) : (dat1 V c).before 13 t d = iblk1 V c 13 t :=
  ((dat1 V c).before_in_eq_fetched 13 rfl (fun _ => rfl) (fun _ _ _ => rfl) (fun t => by rw [after1_13]; unfold Dat.blockOf iblk1; rw [A_eq1]; try rfl) t d).trans
    (by unfold Dat.fetched Dat.blockOf iblk1; rw [A_eq1]; try rfl)
theorem before1_14 (c : Dev nD) (t : Fin cfg1.N) (d) : (dat1 V c).before 14 t d = iblk1 V c 14 t :=
  ((dat1 V c).before_in_eq_fetched 14 rfl (fun _ => rfl) (fun _ _ _ => rfl) (fun t => by rw [after1_14]; unfold Dat.blockOf iblk1; rw [A_eq1]; try rfl) t d).trans
    (by unfold Dat.fetched Dat.blockOf iblk1; rw [A_eq1]; try rfl)
theorem before1_15 (c : Dev nD) (t : Fin cfg1.N) (d) : (dat1 V c).before 15 t d = iblk1 V c 15 t :=
  ((dat1 V c).before_in_eq_fetched 15 rfl (fun _ => rfl) (fun _ _ _ => rfl) (fun t => by rw [after1_15]; unfold Dat.blockOf iblk1; rw [A_eq1]; try rfl) t d).trans
    (by unfold Dat.fetched Dat.blockOf iblk1; rw [A_eq1]; try rfl)
theorem before1_16 (c : Dev nD) (t : Fin cfg1.N) (d) : (dat1 V c).before 16 t d = iblk1 V c 16 t :=
  ((dat1 V c).before_in_eq_fetched 16 rfl (fun _ => rfl) (fun _ _ _ => rfl) (fun t => by rw [after1_16]; unfold Dat.blockOf iblk1; rw [A_eq1]; try rfl) t d).trans
    (by unfold Dat.fetched Dat.blockOf iblk1; rw [A_eq1]; try rfl)
theorem before1_17 (c : Dev nD) (t : Fin cfg1.N) (d) : (dat1 V c).before 17 t d = iblk1 V c 17 t :=
  ((dat1 V c).before_in_eq_fetched 17 rfl (fun _ => rfl) (fun _ _ _ => rfl) (fun t => by rw [after1_17]; unfold Dat.blockOf iblk1; rw [A_eq1]; try rfl) t d).trans
    (by unfold Dat.fetched Dat.blockOf iblk1; rw [A_eq1]; try rfl)

end Cert.Kernel.Hand

end
-- ==== Proof.K.R1A.lean ====
/-
  The second kernel's body at the first point of a group of four (the last grid coordinate 0): the scratch block is
  reset to zeros, then one accumulation step runs over it; nothing is stored into the output's buffer.
-/
import proofs.«135699_j28114855919650_1_alg».proof.Proof.K.D1
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Zero offsets of rank 2 and 3, as the constant-zero function. -/
private theorem hz2 : (![0, 0] : Fin 2 → ℕ) = fun _ => 0 := funext fun a => by fin_cases a <;> rfl
private theorem hz3 : (![0, 0, 0] : Fin 3 → ℕ) = fun _ => 0 := funext fun a => by fin_cases a <;> rfl

/-- A store through the whole-block rectangle, last, covers the block. -/
private theorem cov2 (w : S128x128.Idx → Elt F .f32) (L : List (View.Piece (Elt F) S128x128 .f32)) :
    ∀ y, ∃ p ∈ ((⟨Rect.unit ![0, 0] S128x128.size inb_S128x128_S128x128_0_0, w⟩ : View.Piece (Elt F) S128x128 .f32) :: L), y ∈ p.1.set :=
  fun y => ⟨_, List.Mem.head _, View.mem_set_unit_zero (S := S128x128) hz2 inb_S128x128_S128x128_0_0 y⟩
private theorem cov3 (w : S1x128x128.Idx → Elt F .f32) (L : List (View.Piece (Elt F) S1x128x128 .f32)) :
    ∀ y, ∃ p ∈ ((⟨Rect.unit ![0, 0, 0] S1x128x128.size inb_S1x128x128_S1x128x128_0_0_0, w⟩ : View.Piece (Elt F) S1x128x128 .f32) :: L), y ∈ p.1.set :=
  fun y => ⟨_, List.Mem.head _, View.mem_set_unit_zero (S := S1x128x128) hz3 inb_S1x128x128_S1x128x128_0_0_0 y⟩

set_option maxHeartbeats 4000000 in
/-- The body at the first point of a group of four (the scratch block reset, no output): from the inputs' buffers at
    their blocks, the output's buffer at `xi` and the scratch block at anything, it leaves the inputs and the output's
    buffer as they were and the scratch block at one accumulation step over zeros. -/
theorem run1_A (c : Dev nD) (i : grid1.Coords) (arg3 : Memref sig .tc .vmem S1x128x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S128x128 .f32) (harg15 : arg15.IsWhole) (arg16 : Memref sig .tc .vmem S1x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128x128 .f32) (harg21 : arg21.IsWhole) (arg22 : Memref sig .tc .vmem S128x128 .f32) (harg22 : arg22.IsWhole)
    (hc0 : (Scalar.cmpi .ne (Scalar.extui (Scalar.cmpi .eq (BitVec.ofNat 32 (i 2).val) 0#32)) 0#32) = 1#1) (hc1 : ¬ k1_cond2 i = 1#1)
    (x0 : Vec F S1x128x128 .f32) (x1 : Vec F S1x128x128 .f32) (x2 : Vec F S1x128x128 .f32) (x3 : Vec F S128x128 .f32) (x4 : Vec F S1x128 .f32) (x5 : Vec F S1x128 .f32) (x6 : Vec F S128x128 .f32) (x7 : Vec F S1x128 .f32) (x8 : Vec F S1x128 .f32) (x9 : Vec F S1x128 .f32) (x10 : Vec F S1x1 .f32) (x11 : Vec F S1x1 .f32) (x12 : Vec F S128x128 .f32) (x13 : Vec F S1x128 .f32) (x14 : Vec F S128x128 .f32) (x15 : Vec F S1x128 .f32) (x16 : Vec F S1x128 .f32) (x17 : Vec F S1x128 .f32) (xi : Vec F S1x128x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare xi ∗ (∃ d, owns (c : Thread nD τ) arg22 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare xi ∗ owns (c : Thread nD τ) arg22 fullShare (accStep x0 x1 x2 x3 x4 x5 x6 x7 x8 x9 x10 x11 (k1_pay8 (F := F)))) -∗ K ⟨⟩))
      ⊢ wp frame (wpE (defs₀ (F := F)) Variants.none c none) E (cc1__gnn_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc1__gnn_kernel_eq_skeleton]; unfold cc1__gnn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%ds, %fs, -, HS⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _; isplitr; · ipureintro; exact harg16.read_unread _
    iexact H13
  isplitl [H14]
  · iexists _; isplitr; · ipureintro; exact harg17.read_unread _
    iexact H14
  isplitl [H15]
  · iexists _; isplitr; · ipureintro; exact harg18.read_unread _
    iexact H15
  isplitl [H16]
  · iexists _; isplitr; · ipureintro; exact harg19.read_unread _
    iexact H16
  isplitl [H17]
  · iexists _; isplitr; · ipureintro; exact harg20.read_unread _
    iexact H17
  isplitl [H18]
  · iexists _; isplitr; · ipureintro; exact harg21.read_unread _
    iexact H18
  iexists _; isplitr
  swap; · iexact HS
  ipureintro
  sl_unfold_run_names
  rw [View.read_writes_eq_canon _ _ _ (cov2 _ _)]
  rw [View.canon_cons_unit_zero (S := S128x128) hz2]
  simp only [View.readAt_eq_ld, Memref.IsWhole.read_unread, View.readCov_unit_zero (S := S128x128) _ hz2, View.ld_unit_zero (S := S1x128x128) hz3, View.ld_unit_zero (S := S128x128) hz2, View.ld_unit_zero (S := S1x128) hz2, View.ld_unit_zero (S := S1x1) hz2]
  rfl

end Cert.Kernel.Hand

end
-- ==== Proof.K.R1B.lean ====
/-
  The second kernel's body at a middle point of a group of four (the last grid coordinate 1 or 2): one accumulation
  step over the scratch block as the point before left it; nothing is stored into the output's buffer.
-/
import proofs.«135699_j28114855919650_1_alg».proof.Proof.K.R1A
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Zero offsets of rank 2 and 3, as the constant-zero function. -/
private theorem hz2 : (![0, 0] : Fin 2 → ℕ) = fun _ => 0 := funext fun a => by fin_cases a <;> rfl
private theorem hz3 : (![0, 0, 0] : Fin 3 → ℕ) = fun _ => 0 := funext fun a => by fin_cases a <;> rfl

/-- A store through the whole-block rectangle, last, covers the block. -/
private theorem cov2 (w : S128x128.Idx → Elt F .f32) (L : List (View.Piece (Elt F) S128x128 .f32)) :
    ∀ y, ∃ p ∈ ((⟨Rect.unit ![0, 0] S128x128.size inb_S128x128_S128x128_0_0, w⟩ : View.Piece (Elt F) S128x128 .f32) :: L), y ∈ p.1.set :=
  fun y => ⟨_, List.Mem.head _, View.mem_set_unit_zero (S := S128x128) hz2 inb_S128x128_S128x128_0_0 y⟩
private theorem cov3 (w : S1x128x128.Idx → Elt F .f32) (L : List (View.Piece (Elt F) S1x128x128 .f32)) :
    ∀ y, ∃ p ∈ ((⟨Rect.unit ![0, 0, 0] S1x128x128.size inb_S1x128x128_S1x128x128_0_0_0, w⟩ : View.Piece (Elt F) S1x128x128 .f32) :: L), y ∈ p.1.set :=
  fun y => ⟨_, List.Mem.head _, View.mem_set_unit_zero (S := S1x128x128) hz3 inb_S1x128x128_S1x128x128_0_0_0 y⟩

set_option maxHeartbeats 4000000 in
/-- The body at a middle point of a group of four (no reset, no output): from the inputs' buffers at their blocks,
    the output's buffer at `xi` and the scratch block at `xs`, it leaves the inputs and the output's buffer as they
    were and the scratch block one accumulation step further. -/
theorem run1_B (c : Dev nD) (i : grid1.Coords) (arg3 : Memref sig .tc .vmem S1x128x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S128x128 .f32) (harg15 : arg15.IsWhole) (arg16 : Memref sig .tc .vmem S1x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128x128 .f32) (harg21 : arg21.IsWhole) (arg22 : Memref sig .tc .vmem S128x128 .f32) (harg22 : arg22.IsWhole)
    (hc0 : ¬ (Scalar.cmpi .ne (Scalar.extui (Scalar.cmpi .eq (BitVec.ofNat 32 (i 2).val) 0#32)) 0#32) = 1#1) (hc1 : ¬ k1_cond2 i = 1#1)
    (x0 : Vec F S1x128x128 .f32) (x1 : Vec F S1x128x128 .f32) (x2 : Vec F S1x128x128 .f32) (x3 : Vec F S128x128 .f32) (x4 : Vec F S1x128 .f32) (x5 : Vec F S1x128 .f32) (x6 : Vec F S128x128 .f32) (x7 : Vec F S1x128 .f32) (x8 : Vec F S1x128 .f32) (x9 : Vec F S1x128 .f32) (x10 : Vec F S1x1 .f32) (x11 : Vec F S1x1 .f32) (x12 : Vec F S128x128 .f32) (x13 : Vec F S1x128 .f32) (x14 : Vec F S128x128 .f32) (x15 : Vec F S1x128 .f32) (x16 : Vec F S1x128 .f32) (x17 : Vec F S1x128 .f32) (xi : Vec F S1x128x128 .f32) (xs : Vec F S128x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare xi ∗ owns (c : Thread nD τ) arg22 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare xi ∗ owns (c : Thread nD τ) arg22 fullShare (accStep x0 x1 x2 x3 x4 x5 x6 x7 x8 x9 x10 x11 xs)) -∗ K ⟨⟩))
      ⊢ wp frame (wpE (defs₀ (F := F)) Variants.none c none) E (cc1__gnn_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc1__gnn_kernel_eq_skeleton]; unfold cc1__gnn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%fs, %hfs, HS⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _; isplitr; · ipureintro; exact harg16.read_unread _
    iexact H13
  isplitl [H14]
  · iexists _; isplitr; · ipureintro; exact harg17.read_unread _
    iexact H14
  isplitl [H15]
  · iexists _; isplitr; · ipureintro; exact harg18.read_unread _
    iexact H15
  isplitl [H16]
  · iexists _; isplitr; · ipureintro; exact harg19.read_unread _
    iexact H16
  isplitl [H17]
  · iexists _; isplitr; · ipureintro; exact harg20.read_unread _
    iexact H17
  isplitl [H18]
  · iexists _; isplitr; · ipureintro; exact harg21.read_unread _
    iexact H18
  iexists _; isplitr
  swap; · iexact HS
  ipureintro
  sl_unfold_run_names
  rw [View.read_writes_eq_canon _ _ _ (cov2 _ _)]
  rw [View.canon_unit_zero hz2]
  simp only [View.readAt_eq_ld, Memref.IsWhole.read_unread, View.readCov_unit_zero (S := S128x128) _ hz2, View.ld_unit_zero (S := S1x128x128) hz3, View.ld_unit_zero (S := S128x128) hz2, View.ld_unit_zero (S := S1x128) hz2, View.ld_unit_zero (S := S1x1) hz2]
  rfl

end Cert.Kernel.Hand

end
-- ==== Proof.K.R1C.lean ====
/-
  The second kernel's body at the last point of a group of four (the last grid coordinate 3): one accumulation step
  over the scratch block as the point before left it, then the closing step over the finished scratch block is stored
  into the output's buffer.
-/
import proofs.«135699_j28114855919650_1_alg».proof.Proof.K.R1B
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Zero offsets of rank 2 and 3, as the constant-zero function. -/
private theorem hz2 : (![0, 0] : Fin 2 → ℕ) = fun _ => 0 := funext fun a => by fin_cases a <;> rfl
private theorem hz3 : (![0, 0, 0] : Fin 3 → ℕ) = fun _ => 0 := funext fun a => by fin_cases a <;> rfl

/-- A store through the whole-block rectangle, last, covers the block. -/
private theorem cov2 (w : S128x128.Idx → Elt F .f32) (L : List (View.Piece (Elt F) S128x128 .f32)) :
    ∀ y, ∃ p ∈ ((⟨Rect.unit ![0, 0] S128x128.size inb_S128x128_S128x128_0_0, w⟩ : View.Piece (Elt F) S128x128 .f32) :: L), y ∈ p.1.set :=
  fun y => ⟨_, List.Mem.head _, View.mem_set_unit_zero (S := S128x128) hz2 inb_S128x128_S128x128_0_0 y⟩
private theorem cov3 (w : S1x128x128.Idx → Elt F .f32) (L : List (View.Piece (Elt F) S1x128x128 .f32)) :
    ∀ y, ∃ p ∈ ((⟨Rect.unit ![0, 0, 0] S1x128x128.size inb_S1x128x128_S1x128x128_0_0_0, w⟩ : View.Piece (Elt F) S1x128x128 .f32) :: L), y ∈ p.1.set :=
  fun y => ⟨_, List.Mem.head _, View.mem_set_unit_zero (S := S1x128x128) hz3 inb_S1x128x128_S1x128x128_0_0_0 y⟩

set_option maxHeartbeats 4000000 in
/-- The body at the last point of a group of four (no reset, the output stored): from the inputs' buffers at their
    blocks, the output's at anything and the scratch block at `xs`, it leaves the inputs as they were, the scratch
    block one accumulation step further and the output's buffer at the closing step over that. -/
theorem run1_C (c : Dev nD) (i : grid1.Coords) (arg3 : Memref sig .tc .vmem S1x128x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S128x128 .f32) (harg15 : arg15.IsWhole) (arg16 : Memref sig .tc .vmem S1x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128x128 .f32) (harg21 : arg21.IsWhole) (arg22 : Memref sig .tc .vmem S128x128 .f32) (harg22 : arg22.IsWhole)
    (hc0 : ¬ (Scalar.cmpi .ne (Scalar.extui (Scalar.cmpi .eq (BitVec.ofNat 32 (i 2).val) 0#32)) 0#32) = 1#1) (hc1 : k1_cond2 i = 1#1)
    (x0 : Vec F S1x128x128 .f32) (x1 : Vec F S1x128x128 .f32) (x2 : Vec F S1x128x128 .f32) (x3 : Vec F S128x128 .f32) (x4 : Vec F S1x128 .f32) (x5 : Vec F S1x128 .f32) (x6 : Vec F S128x128 .f32) (x7 : Vec F S1x128 .f32) (x8 : Vec F S1x128 .f32) (x9 : Vec F S1x128 .f32) (x10 : Vec F S1x1 .f32) (x11 : Vec F S1x1 .f32) (x12 : Vec F S128x128 .f32) (x13 : Vec F S1x128 .f32) (x14 : Vec F S128x128 .f32) (x15 : Vec F S1x128 .f32) (x16 : Vec F S1x128 .f32) (x17 : Vec F S1x128 .f32) (xs : Vec F S128x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ (∃ d, owns (c : Thread nD τ) arg21 fullShare d) ∗ owns (c : Thread nD τ) arg22 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare (outStep x0 x12 x13 x14 x15 x16 x17 (accStep x0 x1 x2 x3 x4 x5 x6 x7 x8 x9 x10 x11 xs)) ∗ owns (c : Thread nD τ) arg22 fullShare (accStep x0 x1 x2 x3 x4 x5 x6 x7 x8 x9 x10 x11 xs)) -∗ K ⟨⟩))
      ⊢ wp frame (wpE (defs₀ (F := F)) Variants.none c none) E (cc1__gnn_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc1__gnn_kernel_eq_skeleton]; unfold cc1__gnn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%fs, %hfs, HS⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg22.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _; isplitr; · ipureintro; exact harg16.read_unread _
    iexact H13
  isplitl [H14]
  · iexists _; isplitr; · ipureintro; exact harg17.read_unread _
    iexact H14
  isplitl [H15]
  · iexists _; isplitr; · ipureintro; exact harg18.read_unread _
    iexact H15
  isplitl [H16]
  · iexists _; isplitr; · ipureintro; exact harg19.read_unread _
    iexact H16
  isplitl [H17]
  · iexists _; isplitr; · ipureintro; exact harg20.read_unread _
    iexact H17
  isplitl [H18]
  · iexists _; isplitr
    swap; · iexact H18
    ipureintro
    sl_unfold_run_names
    rw [View.read_writes_eq_canon _ _ _ (cov3 _ _)]
    rw [View.canon_unit_zero hz3]
    simp only [View.readAt_eq_ld, Memref.IsWhole.read_unread, View.readCov_unit_zero (S := S128x128) _ hz2, View.ld_unit_zero (S := S1x128x128) hz3, View.ld_unit_zero (S := S128x128) hz2, View.ld_unit_zero (S := S1x128) hz2, View.ld_unit_zero (S := S1x1) hz2]
    rfl
  iexists _; isplitr
  swap; · iexact HS
  ipureintro
  sl_unfold_run_names
  rw [View.read_writes_eq_canon _ _ _ (cov2 _ _)]
  rw [View.canon_unit_zero hz2]
  simp only [View.readAt_eq_ld, Memref.IsWhole.read_unread, View.readCov_unit_zero (S := S128x128) _ hz2, View.ld_unit_zero (S := S1x128x128) hz3, View.ld_unit_zero (S := S128x128) hz2, View.ld_unit_zero (S := S1x128) hz2, View.ld_unit_zero (S := S1x1) hz2]
  rfl

end Cert.Kernel.Hand

end
-- ==== Proof.K.R1.lean ====
/-
  The body obligation of the second kernel for the proof data of D1, and the invariant's two ends: at every grid point
  the body, called with the inputs' buffers at their blocks and the scratch block at what the point before left (at
  anything before the first point of a group, where it is reset), leaves the scratch block one accumulation step
  further and, at the last point of a group, the output's buffer at the closing step over the finished scratch block.
-/
import proofs.«135699_j28114855919650_1_alg».proof.Proof.K.R1S
import proofs.«135699_j28114855919650_1_alg».proof.Proof.K.R1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The outputs and inputs the body leaves, window by window -/

theorem leaves1_0 (c : Dev nD) (t : Fin cfg1.N) :
    (dat1 V c).leavesExact 0 t = owns (c : Thread nD τ) (ms1_0 t) fullShare (iblk1 V c 0 t) := by
  unfold Dat.leavesExact; rw [after1_0]
theorem leaves1_1 (c : Dev nD) (t : Fin cfg1.N) :
    (dat1 V c).leavesExact 1 t = owns (c : Thread nD τ) (ms1_1 t) fullShare (iblk1 V c 1 t) := by
  unfold Dat.leavesExact; rw [after1_1]
theorem leaves1_2 (c : Dev nD) (t : Fin cfg1.N) :
    (dat1 V c).leavesExact 2 t = owns (c : Thread nD τ) (ms1_2 t) fullShare (iblk1 V c 2 t) := by
  unfold Dat.leavesExact; rw [after1_2]
theorem leaves1_3 (c : Dev nD) (t : Fin cfg1.N) :
    (dat1 V c).leavesExact 3 t = owns (c : Thread nD τ) (ms1_3 t) fullShare (iblk1 V c 3 t) := by
  unfold Dat.leavesExact; rw [after1_3]
theorem leaves1_4 (c : Dev nD) (t : Fin cfg1.N) :
    (dat1 V c).leavesExact 4 t = owns (c : Thread nD τ) (ms1_4 t) fullShare (iblk1 V c 4 t) := by
  unfold Dat.leavesExact; rw [after1_4]
theorem leaves1_5 (c : Dev nD) (t : Fin cfg1.N) :
    (dat1 V c).leavesExact 5 t = owns (c : Thread nD τ) (ms1_5 t) fullShare (iblk1 V c 5 t) := by
  unfold Dat.leavesExact; rw [after1_5]
theorem leaves1_6 (c : Dev nD) (t : Fin cfg1.N) :
    (dat1 V c).leavesExact 6 t = owns (c : Thread nD τ) (ms1_6 t) fullShare (iblk1 V c 6 t) := by
  unfold Dat.leavesExact; rw [after1_6]
theorem leaves1_7 (c : Dev nD) (t : Fin cfg1.N) :
    (dat1 V c).leavesExact 7 t = owns (c : Thread nD τ) (ms1_7 t) fullShare (iblk1 V c 7 t) := by
  unfold Dat.leavesExact; rw [after1_7]
theorem leaves1_8 (c : Dev nD) (t : Fin cfg1.N) :
    (dat1 V c).leavesExact 8 t = owns (c : Thread nD τ) (ms1_8 t) fullShare (iblk1 V c 8 t) := by
  unfold Dat.leavesExact; rw [after1_8]
theorem leaves1_9 (c : Dev nD) (t : Fin cfg1.N) :
    (dat1 V c).leavesExact 9 t = owns (c : Thread nD τ) (ms1_9 t) fullShare (iblk1 V c 9 t) := by
  unfold Dat.leavesExact; rw [after1_9]
theorem leaves1_10 (c : Dev nD) (t : Fin cfg1.N) :
    (dat1 V c).leavesExact 10 t = owns (c : Thread nD τ) (ms1_10 t) fullShare (iblk1 V c 10 t) := by
  unfold Dat.leavesExact; rw [after1_10]
theorem leaves1_11 (c : Dev nD) (t : Fin cfg1.N) :
    (dat1 V c).leavesExact 11 t = owns (c : Thread nD τ) (ms1_11 t) fullShare (iblk1 V c 11 t) := by
  unfold Dat.leavesExact; rw [after1_11]
theorem leaves1_12 (c : Dev nD) (t : Fin cfg1.N) :
    (dat1 V c).leavesExact 12 t = owns (c : Thread nD τ) (ms1_12 t) fullShare (iblk1 V c 12 t) := by
  unfold Dat.leavesExact; rw [after1_12]
theorem leaves1_13 (c : Dev nD) (t : Fin cfg1.N) :
    (dat1 V c).leavesExact 13 t = owns (c : Thread nD τ) (ms1_13 t) fullShare (iblk1 V c 13 t) := by
  unfold Dat.leavesExact; rw [after1_13]
theorem leaves1_14 (c : Dev nD) (t : Fin cfg1.N) :
    (dat1 V c).leavesExact 14 t = owns (c : Thread nD τ) (ms1_14 t) fullShare (iblk1 V c 14 t) := by
  unfold Dat.leavesExact; rw [after1_14]
theorem leaves1_15 (c : Dev nD) (t : Fin cfg1.N) :
    (dat1 V c).leavesExact 15 t = owns (c : Thread nD τ) (ms1_15 t) fullShare (iblk1 V c 15 t) := by
  unfold Dat.leavesExact; rw [after1_15]
theorem leaves1_16 (c : Dev nD) (t : Fin cfg1.N) :
    (dat1 V c).leavesExact 16 t = owns (c : Thread nD τ) (ms1_16 t) fullShare (iblk1 V c 16 t) := by
  unfold Dat.leavesExact; rw [after1_16]
theorem leaves1_17 (c : Dev nD) (t : Fin cfg1.N) :
    (dat1 V c).leavesExact 17 t = owns (c : Thread nD τ) (ms1_17 t) fullShare (iblk1 V c 17 t) := by
  unfold Dat.leavesExact; rw [after1_17]

/-! ## The body obligation at a point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d))
    ∗ (∃ d, owns (c : Thread nD τ) (ms1_15 t) fullShare ((dat1 V c).before 15 t d))
    ∗ (∃ d, owns (c : Thread nD τ) (ms1_16 t) fullShare ((dat1 V c).before 16 t d))
    ∗ (∃ d, owns (c : Thread nD τ) (ms1_17 t) fullShare ((dat1 V c).before 17 t d))
    ∗ (∃ d, owns (c : Thread nD τ) (ms1_18 t) fullShare ((dat1 V c).before 18 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t
    ∗ (dat1 V c).leavesExact 13 t
    ∗ (dat1 V c).leavesExact 14 t
    ∗ (dat1 V c).leavesExact 15 t
    ∗ (dat1 V c).leavesExact 16 t
    ∗ (dat1 V c).leavesExact 17 t
    ∗ (dat1 V c).leavesExact 18 t)

set_option maxHeartbeats 4800000 in
/-- The body at any point. The inputs' buffers hold their blocks; the last grid coordinate says which of the three
    cases the point is in. At the first point of a group the scratch block is reset, so it may be at anything
    (before the very first point it is; later it holds what the group before left); at the other points the
    invariant hands over the scratch block at what the point before left. The scratch block comes back one
    accumulation step further, which is the invariant at the next point. The output's buffer is handed back
    untouched except at the last point of a group, where it comes back at the closing step over the finished
    scratch block. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15, before1_16, before1_17]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4, leaves1_5, leaves1_6, leaves1_7, leaves1_8, leaves1_9, leaves1_10, leaves1_11, leaves1_12, leaves1_13, leaves1_14, leaves1_15, leaves1_16, leaves1_17]
  have hN : t.val < 32 := lt_of_lt_of_eq t.isLt (show cfg1.N = 32 from N_1)
  by_cases h0 : t.val % 4 = 0
  · have h1 : ¬ t.val % 4 = 3 := by omega
    rw [Dat.leavesExact_idle (dat1 V c) 18 t (idleAt1_18 t (fun h => h1 ((hcond1_1 t).mp h))) (noFlush1_18 t (fun h => h1 ((hcond1_1 t).mp h)))]
    rw [scr1_zero V c t h0]; unfold acc1
    by_cases hz : t.val = 0
    · rw [PhiS1_castSucc V c t, PhiS1_zero V c _ _ hz, PhiA1_eq]
      iintro ⟨⟨⟨Hr, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply (run1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [HS]; · iexact HS
      iintro ⟨H0, H1, H2, H3, H4, H5, H6, H7, H8, H9, H10, H11, H12, H13, H14, H15, H16, H17, H18, HS⟩
      isplitl [Hr HS Hg]
      · isplitr [Hg]
        · isplitl [Hr]; · iexact Hr
          iexact HS
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexists _; iexact H18
    · rw [PhiS1_castSucc V c t, PhiS1_pos V c _ _ hz]
      iintro ⟨⟨⟨Hr, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply (run1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [HS]; · iexists _; iexact HS
      iintro ⟨H0, H1, H2, H3, H4, H5, H6, H7, H8, H9, H10, H11, H12, H13, H14, H15, H16, H17, H18, HS⟩
      isplitl [Hr HS Hg]
      · isplitr [Hg]
        · isplitl [Hr]; · iexact Hr
          iexact HS
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexists _; iexact H18
  · have hz : t.val ≠ 0 := fun h => h0 (by rw [h])
    rw [PhiS1_castSucc V c t, PhiS1_pos V c _ _ hz]
    by_cases h1 : t.val % 4 = 3
    · rw [show (dat1 V c).leavesExact 18 t = owns (c : Thread nD τ) (ms1_18 t) fullShare ((dat1 V c).after 18 t) from by
        unfold Dat.leavesExact; rw [liveAt1_18 t ((hcond1_1 t).mpr h1)], after1_18]
      unfold fin1
      rw [scr1_succ V c t h0]; unfold acc1
      iintro ⟨⟨⟨Hr, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply (run1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexists _; iexact H18
      isplitl [HS]; · iexact HS
      iintro ⟨H0, H1, H2, H3, H4, H5, H6, H7, H8, H9, H10, H11, H12, H13, H14, H15, H16, H17, H18, HS⟩
      isplitl [Hr HS Hg]
      · isplitr [Hg]
        · isplitl [Hr]; · iexact Hr
          iexact HS
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    · rw [Dat.leavesExact_idle (dat1 V c) 18 t (idleAt1_18 t (fun h => h1 ((hcond1_1 t).mp h))) (noFlush1_18 t (fun h => h1 ((hcond1_1 t).mp h)))]
      rw [scr1_succ V c t h0]; unfold acc1
      iintro ⟨⟨⟨Hr, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply (run1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [HS]; · iexact HS
      iintro ⟨H0, H1, H2, H3, H4, H5, H6, H7, H8, H9, H10, H11, H12, H13, H14, H15, H16, H17, H18, HS⟩
      isplitl [Hr HS Hg]
      · isplitr [Hg]
        · isplitl [Hr]; · iexact Hr
          iexact HS
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexists _; iexact H18

/-- The library's body obligation for the second kernel, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 (F := F) V c).Φ 0 := by
  rw [show (dat1 V c).Φ 0 = PhiS1 V c 0 (Nat.zero_le _) from rfl, PhiS1_zero V c 0 _ rfl]

/-- After the last point the invariant gives the class's back: the scratch block's named contents are forgotten. -/
theorem hout1 (c : Dev nD) : (dat1 (F := F) V c).Φ (Fin.last cfg1.N) ⊢ Pipeline.ΦA spec1 c := by
  have ht : (Fin.last cfg1.N).val ≠ 0 := by rw [Fin.val_last]; have : cfg1.N = 32 := N_1; omega
  rw [show (dat1 V c).Φ (Fin.last cfg1.N) = PhiS1 V c (Fin.last cfg1.N).val (Nat.le_of_lt_succ (Fin.last cfg1.N).isLt) from rfl,
    PhiS1_pos V c _ _ ht, PhiA1_eq]
  iintro ⟨⟨Hr, HS⟩, Hg⟩
  isplitr [Hg]
  · isplitl [Hr]; · iexact Hr
    iexists _; iexact HS
  · iexact Hg

end Cert.Kernel.Hand

end
-- ==== Proof.K.Vals.lean ====
/-
  The contents of every unscoped buffer at the boundaries of @main's four items (host operations, the first kernel,
  host operations, the second kernel), as valuations folded from the launch memory.
-/
import proofs.«135699_j28114855919650_1_alg».proof.Proof.K.D0
import proofs.«135699_j28114855919650_1_alg».proof.Proof.K.D1
import Idealize.ShloMosaic.Lib.StableHlo.Run

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-- Core `c`'s buffers at launch. -/
abbrev Wa0 (c : Dev nD) : Valuation τ sig (Elt F) := fun b => m (c, b)
/-- After the first host stretch (the first kernel's entry). -/
abbrev Wa1 (c : Dev nD) : Valuation τ sig (Elt F) := StableHlo.after hostOps0 (Wa0 m c)
/-- The same read at a TensorCore reference. -/
abbrev Va1 (c : Dev nD) (b : Ref sig .tc) : Buf (Elt F) ((c : Thread nD τ).loc b) := Wa1 m c (Proc.devRef .tc b)
/-- At the first kernel's exit: its result array `main_v1` at what the pipeline leaves, everything else as entered. -/
def Wa2 (c : Dev nD) : Valuation τ sig (Elt F) :=
  Function.update (Wa1 m c) (Proc.devRef .tc main_v1) ((dat0 (Va1 m) c).arrAt 3 cfg0.N)
abbrev Va2 (c : Dev nD) (b : Ref sig .tc) : Buf (Elt F) ((c : Thread nD τ).loc b) := Wa2 m c (Proc.devRef .tc b)
/-- After the second host stretch (the second kernel's entry). -/
abbrev Wa3 (c : Dev nD) : Valuation τ sig (Elt F) := StableHlo.after hostOps1 (Wa2 m c)
abbrev Va3 (c : Dev nD) (b : Ref sig .tc) : Buf (Elt F) ((c : Thread nD τ).loc b) := Wa3 m c (Proc.devRef .tc b)
/-- At the second kernel's exit: its result array `main_v22` at what the pipeline leaves, everything else as entered. -/
def Wa4 (c : Dev nD) : Valuation τ sig (Elt F) :=
  Function.update (Wa3 m c) (Proc.devRef .tc main_v22) ((dat1 (Va3 m) c).arrAt 18 cfg1.N)
abbrev Va4 (c : Dev nD) (b : Ref sig .tc) : Buf (Elt F) ((c : Thread nD τ).loc b) := Wa4 m c (Proc.devRef .tc b)

theorem Va2_v1 (c : Dev nD) : Va2 m c main_v1 = (dat0 (Va1 m) c).arrAt 3 cfg0.N := by
  unfold Va2 Wa2; exact Function.update_self ..
theorem Va2_of_ne (c : Dev nD) (b : Ref sig .tc) (h : b ≠ main_v1) : Va2 m c b = Va1 m c b := by
  unfold Va2 Wa2 Va1; exact Function.update_of_ne (StableHlo.devRef_ne_of_ne h) ..
theorem Va4_v22 (c : Dev nD) : Va4 m c main_v22 = (dat1 (Va3 m) c).arrAt 18 cfg1.N := by
  unfold Va4 Wa4; exact Function.update_self ..
theorem Va4_of_ne (c : Dev nD) (b : Ref sig .tc) (h : b ≠ main_v22) : Va4 m c b = Va3 m c b := by
  unfold Va4 Wa4 Va3; exact Function.update_of_ne (StableHlo.devRef_ne_of_ne h) ..

end Cert.Kernel.Hand

end
-- ==== Proof.K.Share1.lean ====
/-
  The second kernel receives the array `h` through two windows. Its pipeline therefore holds that array twice, at the
  two halves of the full share, and every other array once at the full share. Here: a core's unscoped buffers at
  contents `V` split into that holding and the rest, and the holding after the run, beside the same rest, is the
  unscoped buffers at `V` updated at the result array.
-/
import proofs.«135699_j28114855919650_1_alg».proof.Proof.K.D1
import proofs.«135699_j28114855919650_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The eighteen distinct arrays behind the nineteen windows. -/
abbrev arrs1 : List (Ref sig .tc) := [main_v1, main_arg1, main_v2, main_v5, main_v6, main_arg6, main_v7, main_v10, main_v13, main_v16, main_v17, main_arg10, main_v18, main_arg12, main_v19, main_v20, main_v21, main_v22]

/-- Only the last window is an output. -/
theorem isOut1 : ∀ w : Fin 19, (win1 w).isOut = true → 2 ≤ w.val := by decide

/-- Every window's share is `q1`'s: the output's full share is what `q1` gives it too. -/
theorem share1_eq (c : Dev nD) (w : Fin 19) : (dat1 (F := F) V c).share w = q1 w := by
  unfold Dat.share
  by_cases ho : (cfg1.win w).isOut = true
  · rw [if_pos ho]
    have h2 : 2 ≤ w.val := isOut1 w ho
    unfold q1; rw [if_neg (by omega), if_neg (by omega)]
  · rw [if_neg ho]; rfl

/-- The pipeline's holding of its arrays at contents `G`, window by window, each array a whole buffer. -/
theorem arrays1_eq (c : Dev nD) (G : (w : Fin cfg1.W) → Buf (Elt F) ((cfg1.win w).arr.view.loc (c : Thread nD τ))) :
    ((dat1 (F := F) V c).arrays G : sProp 𝕄)
      = bigSep Finset.univ fun w : Fin 19 => (((c : Thread nD τ).loc (Pipeline.arrRef spec1 w)) ↦{q1 w} G w : sProp 𝕄) := by
  unfold Dat.arrays
  exact bigSep_congr fun w _ => by rw [(arr_whole1 w).set_eq_univ, share1_eq]

/-- The distinct buffers behind the arrays, one by one. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v1) ↦{fullShare} W main_v1) ∗ (((c : Thread nD τ).loc main_arg1) ↦{fullShare} W main_arg1) ∗ (((c : Thread nD τ).loc main_v2) ↦{fullShare} W main_v2) ∗ (((c : Thread nD τ).loc main_v5) ↦{fullShare} W main_v5) ∗ (((c : Thread nD τ).loc main_v6) ↦{fullShare} W main_v6) ∗ (((c : Thread nD τ).loc main_arg6) ↦{fullShare} W main_arg6) ∗ (((c : Thread nD τ).loc main_v7) ↦{fullShare} W main_v7) ∗ (((c : Thread nD τ).loc main_v10) ↦{fullShare} W main_v10) ∗ (((c : Thread nD τ).loc main_v13) ↦{fullShare} W main_v13) ∗ (((c : Thread nD τ).loc main_v16) ↦{fullShare} W main_v16) ∗ (((c : Thread nD τ).loc main_v17) ↦{fullShare} W main_v17) ∗ (((c : Thread nD τ).loc main_arg10) ↦{fullShare} W main_arg10) ∗ (((c : Thread nD τ).loc main_v18) ↦{fullShare} W main_v18) ∗ (((c : Thread nD τ).loc main_arg12) ↦{fullShare} W main_arg12) ∗ (((c : Thread nD τ).loc main_v19) ↦{fullShare} W main_v19) ∗ (((c : Thread nD τ).loc main_v20) ↦{fullShare} W main_v20) ∗ (((c : Thread nD τ).loc main_v21) ↦{fullShare} W main_v21) ∗ (((c : Thread nD τ).loc main_v22) ↦{fullShare} W main_v22)) := by
  unfold Pipeline.arrBufs; exact bigSep_eq_bigSepL_of_eq arrs1 (by decide) (by decide) _

/-- ENTRY. The unscoped buffers at `V` are the pipeline's holding at the entry contents and the rest: the array `h`
    is cut along the share into the halves its two windows take. -/
theorem split1 (c : Dev nD) :
    (unscopedBufs c (V c) : sProp 𝕄)
      ⊢ iprop((dat1 (F := F) V c).arrays ((dat1 (F := F) V c).arrAt · 0) ∗ Pipeline.unscopedRest spec1 c (V c)) := by
  rw [Pipeline.unscopedBufs_split₀ cfgs 1 winFacts₀1.arr_unscoped c (V c)]
  refine sep_mono ?_ .rfl
  rw [arrays1_eq, bigSep_W1]
  refine (Entails.of_eq (arrBufs1_eq c (V c))).trans ?_
  simp only [show ∀ w, (dat1 (F := F) V c).arrAt w 0 = V c (Pipeline.arrRef spec1 w) from fun w => rfl]
  iintro ⟨H1, H2, H3, H4, H5, H6, H7, H8, H9, H10, H11, H12, H13, H14, H15, H16, H17, H18⟩
  ihave H1 := (pointsTo_share (PosShare.mem_left_op_right fullShare)).1 $$ H1
  icases H1 with ⟨Ha, Hb⟩
  isplitl [Ha]; · iexact Ha
  isplitl [Hb]; · iexact Hb
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The only output window is the last, whose array is the result array; no input window's array is. -/
theorem out1_last : ∀ w : Fin 19, (win1 w).isOut = true → w = 18 := by decide
theorem in1_ne : ∀ w : Fin 19, (win1 w).isOut = false → Pipeline.arrRef spec1 w ≠ main_v22 := by decide

/-- EXIT. The pipeline's holding after the run (the inputs as entered, the halves of `h` alike, the result array at what
    the write-backs leave) beside the rest is the unscoped buffers at any contents `V'` that has the result array at
    the pipeline's and agrees with `V` elsewhere: the two halves of `h` are put together again. -/
theorem join1 (c : Dev nD) (V' : (b : Ref sig .tc) → Buf (Elt F) ((c : Thread nD τ).loc b))
    (h22 : V' main_v22 = (dat1 (F := F) V c).arrAt 18 cfg1.N) (hne : ∀ b, b ≠ main_v22 → V' b = V c b) :
    iprop((dat1 (F := F) V c).arrays ((dat1 (F := F) V c).arrAt · cfg1.N) ∗ Pipeline.unscopedRest spec1 c (V c))
      ⊢ (unscopedBufs c V' : sProp 𝕄) := by
  have hG : ∀ w : Fin 19, (dat1 (F := F) V c).arrAt w cfg1.N = V' (Pipeline.arrRef spec1 w) := fun w => by
    by_cases ho : (win1 w).isOut = true
    · obtain rfl := out1_last w ho; exact h22.symm
    · have hin : (win1 w).isOut = false := by simpa using ho
      exact (((dat1 (F := F) V c).arrAt_in w hin _).trans (A_eq1 V c w)).trans (hne _ (in1_ne w hin)).symm
  rw [Pipeline.unscopedBufs_split₀ cfgs 1 winFacts₀1.arr_unscoped c V']
  refine sep_mono ?_ (Entails.of_eq ?_)
  · rw [arrays1_eq]
    simp only [hG]
    rw [bigSep_W1]
    show _ ⊢ (Pipeline.arrBufs (Ix := Unit) (Name := ℕ) (U := UR sig nD τ) (Lvl := ℕ) spec1 c V' : sProp 𝕄)
    rw [arrBufs1_eq]
    iintro ⟨Ha, Hb, H2, H3, H4, H5, H6, H7, H8, H9, H10, H11, H12, H13, H14, H15, H16, H17, H18⟩
    ihave H1 := (pointsTo_share (ℓ := (c : Thread nD τ).loc main_v1) (f := V' main_v1) (PosShare.mem_left_op_right fullShare)).2 $$ [Ha Hb]
    · isplitl [Ha]; · iexact Ha
      iexact Hb
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  · unfold Pipeline.unscopedRest
    exact bigSep_congr fun b hb => by
      rw [hne b (fun h => (Finset.mem_sdiff.mp hb).2 (h ▸ Finset.mem_image.mpr ⟨18, Finset.mem_univ _, rfl⟩))]

end Cert.Kernel.Hand

end
-- ==== Proof.K.Run.lean ====
/-
  The run of the kernel program: @main as four items (host operations, the first kernel, host operations, the second
  kernel), each kernel a region of the pipeline library over its proof data, the thread state between items "every
  unscoped buffer at the boundary's contents, the generator register at some state, nothing owed". Its conclusion:
  every weakly fair execution terminates and every unscoped buffer ends at the last boundary's contents.
-/
import proofs.«135699_j28114855919650_1_alg».proof.Proof.K.D0
import proofs.«135699_j28114855919650_1_alg».proof.Proof.K.D1
import proofs.«135699_j28114855919650_1_alg».proof.Proof.K.R0
import proofs.«135699_j28114855919650_1_alg».proof.Proof.K.R1
import proofs.«135699_j28114855919650_1_alg».proof.Proof.Gen.Kernel.Regions
import proofs.«135699_j28114855919650_1_alg».proof.Proof.K.Vals
import proofs.«135699_j28114855919650_1_alg».proof.Proof.K.Share1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Va1 m) c
  | ⟨1, _⟩ => fun c => dat1 (Va3 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)

/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (Wa4 m c) ∗ ∃ r, prngReg c r)

/-- At the first kernel's exit each of its arrays holds what the pipeline leaves, -/
theorem hF0 (c : Dev nD) (w : Fin cfg0.W) : (dat0 (Va1 m) c).arrAt w cfg0.N = Va2 m c (Pipeline.arrRef spec0 w) :=
  match w with
  | ⟨0, _⟩ => (((dat0 (Va1 m) c).arrAt_in 0 rfl _).trans (A_eq0 (Va1 m) c 0)).trans (Va2_of_ne m c main_arg0 (by decide)).symm
  | ⟨1, _⟩ => (((dat0 (Va1 m) c).arrAt_in 1 rfl _).trans (A_eq0 (Va1 m) c 1)).trans (Va2_of_ne m c main_arg2 (by decide)).symm
  | ⟨2, _⟩ => (((dat0 (Va1 m) c).arrAt_in 2 rfl _).trans (A_eq0 (Va1 m) c 2)).trans (Va2_of_ne m c main_v0 (by decide)).symm
  | ⟨3, _⟩ => (Va2_v1 m c).symm
/-- and every other buffer what it held at entry. -/
theorem hrest0 (c : Dev nD) : ∀ b, b ∉ Finset.univ.image (Pipeline.arrRef spec0) → Va2 m c b = Va1 m c b :=
  fun b hb => Va2_of_ne m c b fun h => hb (h ▸ Finset.mem_image.mpr ⟨3, Finset.mem_univ _, rfl⟩)

set_option backward.isDefEq.respectTransparency.types false in
/-- THE FIRST KERNEL over the thread state: entered from every unscoped buffer at `Wa1`, left at `Wa2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va1 m) c).loose
  hwaits := Pipeline.hwaits_of_owed_zero _ _ _ _ L lv 0 fun _ _ => rfl
  pre c := iprop(StableHlo.held (c : Thread nD τ) (Pipeline.ucRefs τ sig) (Wa1 m c) ∗ R c)
  post c := iprop(StableHlo.held (c : Thread nD τ) (Pipeline.ucRefs τ sig) (Wa2 m c) ∗ R c)
  X c := iprop(∃ r, prngReg c r)
  Y c := iprop(∃ r, prngReg c r)
  Z c := Pipeline.unscopedRest (Ix := Unit) (Name := ℕ) (U := UR sig nD τ) (Lvl := ℕ) spec0 c (Va1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Va1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Va1 m c) (Va2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND KERNEL over the thread state: entered from every unscoped buffer at `Wa3`, left at `Wa4`; the array it
    receives through two windows is cut along the share at entry and put together at exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Va3 m) c).loose
  hwaits := Pipeline.hwaits_of_owed_zero _ _ _ _ L lv 1 fun _ _ => rfl
  pre c := iprop(StableHlo.held (c : Thread nD τ) (Pipeline.ucRefs τ sig) (Wa3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Va3 m c)
  hentry c := by
    rw [Pipeline.ownSems0_none]
    have hsplit := split1 (F := F) (Va3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA (U := UR sig nD τ) spec1 c : sProp 𝕄) from ?_).trans (hin1 (Va3 m) c)
    unfold Pipeline.ΦA
    iintro ⟨Hp, -, Hr⟩
    isplitl [Hr]; · iexact Hr
    iexact Hp
  hout c := by
    rw [Pipeline.ownSems0_none]
    refine (hout1 (Va3 m) c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (Va3 m c))
        ⊢ (unscopedBufs c (Va4 m c) : sProp 𝕄) :=
      join1 (F := F) (Va3 m) c (Va4 m c) (Va4_v22 m c) (fun b h => Va4_of_ne m c b h)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-- @main's four items in order. -/
abbrev segs : List (Pipeline.Seg (pcfgs (F := F)) adm (pdats m) () defs₀ 𝒱₀ L lv) :=
  [ .host (hseg hostOps0 hostOps0_sub hostOps0_fresh (Wa0 m)),
    .region (reg0 m),
    .host (hseg hostOps1 hostOps1_sub hostOps1_fresh (Wa2 m)),
    .region (reg1 m) ]

/-- @main IS the run of the items. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every unscoped buffer of every core ends at the last boundary's contents `Wa4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wa4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wa0 m c)
        from Pipeline.unscopedBufs_held c (Wa0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wa4 m c b)
    (hfin := fun c s' => by
      iintro ⟨⟨Hh, -⟩, HSI⟩
      unfold StableHlo.held
      imodintro
      iapply (pointsTo_read_all (Pipeline.ucRefs τ sig) (fun b => (((c : Thread nD τ)).1, b)) (Wa4 m c) s')
      isplitl [Hh] <;> iassumption)
    (hQ := fun s h => h)

/-- A buffer neither kernel writes and no host stretch writes ends as launched. -/
theorem Va4_kept (c : Dev nD) (b : Ref sig .tc) (h1 : b ≠ main_v22) (h2 : b ∉ hostOps1_W) (h3 : b ≠ main_v1) (h4 : b ∉ hostOps0_W) :
    Va4 m c b = m ((c : Thread nD τ).loc b) :=
  (Va4_of_ne m c b h1).trans <| (StableHlo.after_of_writes_sub hostOps1 _ hostOps1_writes h2).trans <|
    (Va2_of_ne m c b h3).trans <| (StableHlo.after_of_writes_sub hostOps0 _ hostOps0_writes h4).trans rfl

end Cert.Kernel.Hand

end
-- ==== Proof.KI.D0.lean ====
/-
  The first kernel (the input linear layer, one grid point per batch entry): what each window's block is at a
  grid point, what the body's one store leaves in the output block, and the pipeline's proof data built from them.
  Stated at any contents `V` of the buffers on entry.
-/
import proofs.«135699_j28114855919650_1_alg».proof.Proof.Gen.KernelIdeal.Launch
import proofs.«135699_j28114855919650_1_alg».proof.Proof.Gen.KernelIdeal.Skeleton
import proofs.«135699_j28114855919650_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangles the body loads and stores through. -/
abbrev rX0 : Rect S1x512x128 := Rect.unit (s := S1x512x128) ![0, 0, 0] S1x512x128.size inb_S1x512x128_S1x512x128_0_0_0
abbrev rW0 : Rect S128x128 := Rect.unit (s := S128x128) ![0, 0] S128x128.size inb_S128x128_S128x128_0_0
abbrev rB0 : Rect S1x128 := Rect.unit (s := S1x128) ![0, 0] S1x128.size inb_S1x128_S1x128_0_0

/-- The output block after the body: its one store, of the payload of the three loaded blocks. -/
def out0_3 (x0 : Vec F S1x512x128 .f32) (x1 : Vec F S128x128 .f32) (x2 : Vec F S1x128 .f32) : Vec F S1x512x128 .f32 :=
  View.canon [⟨rX0, k0_pay1 (View.ld x0 rX0) (View.ld x1 rW0) (View.ld x2 rB0)⟩]

/-- The proof data of the first pipeline: arrays as found; inputs' buffers at their blocks, the output's at `out0_3`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

end Cert.KernelIdeal.Hand

end
-- ==== Proof.KI.D1.lean ====
/-
  The second kernel (messages, attention and aggregation over a 2 x 4 x 4 grid, the last axis accumulating into a
  scratch block): each window's block at a grid point, one accumulation step and the closing step as functions of the
  blocks, the scratch and the output block after every point by recursion on the point, and the proof data.
  Stated at any contents `V` of the buffers on entry.
-/
import proofs.«135699_j28114855919650_1_alg».proof.Proof.Gen.KernelIdeal.Launch
import proofs.«135699_j28114855919650_1_alg».proof.Proof.Gen.KernelIdeal.Skeleton
import proofs.«135699_j28114855919650_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One accumulation step: the scratch block after a grid point, from the centre block `x0`, the neighbour block `x1`,
    the adjacency tile `x2`, the message and attention weights `x3 … x11` and the scratch block before (`xs`). -/
def accStep (x0 x1 x2 : Vec F S1x128x128 .f32) (x3 : Vec F S128x128 .f32) (x4 x5 : Vec F S1x128 .f32)
    (x6 : Vec F S128x128 .f32) (x7 x8 x9 : Vec F S1x128 .f32) (x10 x11 : Vec F S1x1 .f32)
    (xs : Vec F S128x128 .f32) : Vec F S128x128 .f32 :=
  k1_pay14 (k1_pay9 x0) (k1_pay10 x1) (k1_pay11 x2) x6 (k1_pay12 x7) (k1_pay13 x1 x2 x3 x4 x5) x8 x9 x10 x11 xs

/-- The closing step: the output block from the centre block, the output network's and the layer norm's parameters
    `x12 … x17` and the finished aggregate `s`. -/
def outStep (x0 : Vec F S1x128x128 .f32) (x12 : Vec F S128x128 .f32) (x13 : Vec F S1x128 .f32) (x14 : Vec F S128x128 .f32)
    (x15 x16 x17 : Vec F S1x128 .f32) (s : Vec F S128x128 .f32) : Vec F S1x128x128 .f32 :=
  k1_pay1 (k1_pay4 x16) (k1_pay5 x17) (k1_pay6 (k1_pay9 x0) s x12 x13 x14 x15) (k1_pay7 (k1_pay9 x0) s x12 x13 x14 x15)

/-- The accumulation step at grid point `t`, over the scratch contents `xs`. -/
def acc1 (c : Dev nD) (t : Fin cfg1.N) (xs : Vec F S128x128 .f32) : Vec F S128x128 .f32 :=
  accStep (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) xs

/-- The closing step at grid point `t`, over the aggregate `s`. -/
def fin1 (c : Dev nD) (t : Fin cfg1.N) (s : Vec F S128x128 .f32) : Vec F S1x128x128 .f32 :=
  outStep (iblk1 V c 0 t) (iblk1 V c 12 t) (iblk1 V c 13 t) (iblk1 V c 14 t) (iblk1 V c 15 t) (iblk1 V c 16 t) (iblk1 V c 17 t) s

/-- The scratch block after the body at position `n`: a step over zeros at the first point of each group of four
    (the last grid axis at 0), over what the point before left otherwise. -/
def scr1 (c : Dev nD) : (n : ℕ) → n < cfg1.N → Vec F S128x128 .f32
  | 0, hn => acc1 V c ⟨0, hn⟩ (k1_pay8 (F := F))
  | n + 1, hn => acc1 V c ⟨n + 1, hn⟩ (if (n + 1) % 4 = 0 then k1_pay8 (F := F) else scr1 c n (Nat.lt_of_succ_lt hn))

theorem scr1_zero (c : Dev nD) (t : Fin cfg1.N) (h : t.val % 4 = 0) :
    scr1 V c t.val t.isLt = acc1 V c t (k1_pay8 (F := F)) := by
  obtain ⟨n, hn⟩ := t
  cases n with
  | zero => rfl
  | succ n => exact congrArg (acc1 V c ⟨n + 1, hn⟩) (if_pos h)

theorem scr1_succ (c : Dev nD) (t : Fin cfg1.N) (h : ¬ t.val % 4 = 0) :
    scr1 V c t.val t.isLt = acc1 V c t (scr1 V c (t.val - 1) (Nat.lt_of_le_of_lt (Nat.sub_le _ _) t.isLt)) := by
  obtain ⟨n, hn⟩ := t
  cases n with
  | zero => exact absurd (Nat.zero_mod _) h
  | succ n => exact congrArg (acc1 V c ⟨n + 1, hn⟩) (if_neg h)

/-- The scratch operand as a whole memref. -/
abbrev scM1_0 : Memref sig .tc .vmem S128x128 .f32 := Memref.whole cc1_scratch0

/-- The scoped buffers the second kernel neither stages through nor uses: the first kernel's staging buffers. -/
def rest1 (c : Dev nD) : sProp 𝕄 :=
  bigSepL [cc0_stg0_0, cc0_stg0_1, cc0_stg1_0, cc0_stg2_0, cc0_stg3_0, cc0_stg3_1]
    fun b => iprop(∃ f : Buf (Elt F) ((c : Thread nD τ).loc b), ((c : Thread nD τ).loc b) ↦{fullShare} f)

/-- The region invariant before position `n`: the class's before the first point; afterwards the scratch block at what
    the point before left, the other scoped buffers at anything, the generator register at some state. -/
def PhiS1 (c : Dev nD) : (n : ℕ) → n ≤ cfg1.N → sProp 𝕄
  | 0, _ => Pipeline.ΦA spec1 c
  | n + 1, hn => iprop((rest1 (F := F) c ∗ owns (c : Thread nD τ) scM1_0 fullShare (scr1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((rest1 (F := F) c ∗ owns (c : Thread nD τ) scM1_0 fullShare (scr1 V c n hn)) ∗ (∃ r, prngReg c r)) := rfl

theorem PhiS1_pos (c : Dev nD) (n : ℕ) (h : n ≤ cfg1.N) (hz : n ≠ 0) :
    PhiS1 V c n h = iprop((rest1 (F := F) c ∗ owns (c : Thread nD τ) scM1_0 fullShare (scr1 V c (n - 1) (by omega))) ∗ (∃ r, prngReg c r)) := by
  cases n with
  | zero => exact absurd rfl hz
  | succ n => rfl

/-- The share the pipeline holds each input array at: the two windows over the one array `h` take its halves. -/
def q1 (w : Fin cfg1.W) : PosShare TreeShare :=
  if w.val = 0 then fullShare.left else if w.val = 1 then fullShare.right else fullShare

/-- The proof data of the second pipeline: arrays as found; inputs' buffers at their blocks; the output's at the closing
    step over the scratch (consulted only where the block is written back, the last point of each group of four). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => iblk1 V c 17 t
    | ⟨18, _⟩ => fin1 V c t (scr1 V c t.val t.isLt)
    | ⟨_ + 19, h⟩ => absurd h (Nat.not_lt.2 (Nat.le_add_left _ _))
  Φ t := PhiS1 V c t.val (Nat.le_of_lt_succ t.isLt)
  q := q1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = iblk1 V c 16 t := by dsimp only [dat1]
theorem after1_17 (c : Dev nD) (t : Fin cfg1.N) : (dat1 V c).after 17 t = iblk1 V c 17 t := by dsimp only [dat1]
theorem after1_18 (c : Dev nD) (t : Fin cfg1.N) : (dat1 V c).after 18 t = fin1 V c t (scr1 V c t.val t.isLt) := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

end Cert.KernelIdeal.Hand

end
-- ==== Proof.KI.R0.lean ====
/-
  The first kernel's body obligation: at every grid point the body, called on the windows' current staging
  buffers, leaves the three input blocks as they were and the output block at the payload of those three blocks.
  Stated at any contents `V` of the buffers on entry and generic in the float family.
-/
import proofs.«135699_j28114855919650_1_alg».proof.Proof.Gen.KernelIdeal.Launch
import proofs.«135699_j28114855919650_1_alg».proof.Proof.Gen.KernelIdeal.Skeleton
import proofs.«135699_j28114855919650_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«135699_j28114855919650_1_alg».proof.Proof.KI.D0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' current buffers -/

/-- An input window's current staging buffer holds its block at every point, whether the pipeline fetched it
    there or kept it from an earlier point (then its index has not moved): for any proof data whose array is the
    entry contents and whose body leaves the block in place. Window 0 (fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Window 1 (the weights: fetched at the first point only, the same block at every point). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Window 2 (the bias: fetched at the first point only, the same block at every point). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body's one store covers the output block -/

/-- The store's rectangle is the whole block, so every index of the block lies in it. -/
theorem cover0_3 (p0 : Vec F S1x512x128 .f32) (y : S1x512x128.Idx) :
    ∃ pc ∈ ([⟨rX0, p0⟩] : List (View.Piece (Elt F) S1x512x128 .f32)), y ∈ pc.1.set :=
  View.cover_of_tiled [⟨rX0, p0⟩] S1x512x128.size (by rfl) y

/-! ## The body's triple -/

set_option maxHeartbeats 1000000 in
/-- The kernel body on whole staging buffers, the three inputs' at contents `x0 x1 x2` and the output's at anything,
    runs to the continuation holding the inputs' as they were and the output's at `out0_3 x0 x1 x2`: three whole-block
    loads, a load of the output block whose value is not used, and one whole-block store of the payload. -/
theorem sound_kernel0 (c : Dev nD) (E : Set ℕ) (i : grid0.Coords)
    (arg1 : Memref sig .tc .vmem S1x512x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S1x512x128 .f32) (harg4 : arg4.IsWhole)
    (x0 : Vec F S1x512x128 .f32) (x1 : Vec F S128x128 .f32) (x2 : Vec F S1x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__lin_kernel i arg1 harg1 arg2 harg2 arg3 harg3 arg4 harg4) K := by
  simp only [cc0__lin_kernel_eq_skeleton]; unfold cc0__lin_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

/-- What the body is called with at point `t`: the invariant, what the core owes, and each window's current buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1S.lean ====
/-
  The second kernel's body obligation, what its three cases share: the body's two conditions on the last grid
  coordinate in closed form, where the output window is idle, the staging memrefs the body is called with, the
  class's invariant with the scratch block named, and every input's staging buffer holding its block at every point.
-/
import proofs.«135699_j28114855919650_1_alg».proof.Proof.KI.D1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditions on the last grid coordinate -/

/-- The first condition (the reset of the scratch block): the last grid coordinate is 0. -/
abbrev cond1_0 (i : grid1.Coords) : Prop := (Scalar.cmpi .ne (Scalar.extui (Scalar.cmpi .eq (BitVec.ofNat 32 (i 2).val) 0#32)) 0#32) = 1#1
/-- It holds exactly at the first point of each group of four. -/
theorem hcond1_0 : ∀ t : Fin cfg1.N, cond1_0 (grid1.coords t) ↔ t.val % 4 = 0 :=
  (by decide +kernel : ∀ t : Fin grid1.N, cond1_0 (grid1.coords t) ↔ t.val % 4 = 0)

/-- The second condition (the output block is stored): the last grid coordinate is 3. -/
abbrev cond1_1 (i : grid1.Coords) : Prop := k1_cond2 i = 1#1
/-- It holds exactly at the last point of each group of four. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the output window is idle -/

/-- Away from the last point of a group the output window is idle: nothing is stored into it, -/
theorem idleAt1_18 : ∀ t : Fin cfg1.N, ¬cond1_1 (grid1.coords t) → cfg1.idle 18 (grid1.coords t) = true := by decide +kernel
/-- and its block is not written back there. -/
theorem noFlush1_18 : ∀ t : Fin cfg1.N, ¬cond1_1 (grid1.coords t) → (cfg1.win 18).flush t = false := by decide +kernel
/-- At the last point of a group it is live. -/
theorem liveAt1_18 : ∀ t : Fin cfg1.N, cond1_1 (grid1.coords t) → cfg1.idle 18 (grid1.coords t) = false := by decide +kernel

/-! ## The staging memrefs the body is called with -/

abbrev ms1_0 (t : Fin cfg1.N) : Memref sig .tc .vmem S1x128x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x128 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x128 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x1 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1x1 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S128x128 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S1x128 .f32 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S128x128 .f32 := win1_14.stage (cfg1.slots t 14)
abbrev hs1_14 (t : Fin cfg1.N) : (ms1_14 t).IsWhole := hstage1_14 ((cfg1.slots t 14).cast nbuf1_14)
abbrev ms1_15 (t : Fin cfg1.N) : Memref sig .tc .vmem S1x128 .f32 := win1_15.stage (cfg1.slots t 15)
abbrev hs1_15 (t : Fin cfg1.N) : (ms1_15 t).IsWhole := hstage1_15 ((cfg1.slots t 15).cast nbuf1_15)
abbrev ms1_16 (t : Fin cfg1.N) : Memref sig .tc .vmem S1x128 .f32 := win1_16.stage (cfg1.slots t 16)
abbrev hs1_16 (t : Fin cfg1.N) : (ms1_16 t).IsWhole := hstage1_16 ((cfg1.slots t 16).cast nbuf1_16)
abbrev ms1_17 (t : Fin cfg1.N) : Memref sig .tc .vmem S1x128 .f32 := win1_17.stage (cfg1.slots t 17)
abbrev hs1_17 (t : Fin cfg1.N) : (ms1_17 t).IsWhole := hstage1_17 ((cfg1.slots t 17).cast nbuf1_17)
abbrev ms1_18 (t : Fin cfg1.N) : Memref sig .tc .vmem S1x128x128 .f32 := win1_18.stage (cfg1.slots t 18)
abbrev hs1_18 (t : Fin cfg1.N) : (ms1_18 t).IsWhole := hstage1_18 ((cfg1.slots t 18).cast nbuf1_18)

/-! ## The class's invariant with the scratch block named -/

/-- The class's invariant holds the six staging buffers of the first kernel, the scratch block at some contents and the
    generator register at some state. -/
theorem PhiA1_eq (c : Dev nD) :
    (Pipeline.ΦA spec1 c : sProp 𝕄)
      = iprop((rest1 (F := F) c ∗ ∃ d, owns (c : Thread nD τ) scM1_0 fullShare d) ∗ ∃ r, prngReg c r) := by
  unfold Pipeline.ΦA; rw [scopedRest1_eq]; unfold rest1; simp only [scM1_0, owns_whole, bigSepL_cons_cons, bigSepL_singleton]
  -- the two sides differ only in how the seven buffers are bracketed: the scratch block last in a chain of seven on the
  -- left, beside the chain of the other six on the right
  refine BI.equiv_iff.mp ⟨BI.sep_mono_l ?_, BI.sep_mono_l ?_⟩
  · exact (BI.sep_mono_r ((BI.sep_mono_r ((BI.sep_mono_r ((BI.sep_mono_r BI.sep_assoc').trans BI.sep_assoc')).trans
      BI.sep_assoc')).trans BI.sep_assoc')).trans BI.sep_assoc'
  · exact BI.sep_assoc.trans (BI.sep_mono_r (BI.sep_assoc.trans (BI.sep_mono_r (BI.sep_assoc.trans (BI.sep_mono_r
      (BI.sep_assoc.trans (BI.sep_mono_r BI.sep_assoc)))))))

/-! ## The inputs' staging buffers hold their blocks at every point -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl) (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl) (fun t => by rw [after1_8]; unfold Dat.blockOf iblk1; rw [A_eq1]; try rfl) t d).trans
    (by unfold Dat.fetched Dat.blockOf iblk1; rw [A_eq1]; try rfl)
theorem before1_9 (c : Dev nD) (t : Fin cfg1.N) (d) : (dat1 V c).before 9 t d = iblk1 V c 9 t :=
  ((dat1 V c).before_in_eq_fetched 9 rfl (fun _ => rfl) (fun _ _ _ => rfl) (fun t => by rw [after1_9]; unfold Dat.blockOf iblk1; rw [A_eq1]; try rfl) t d).trans
    (by unfold Dat.fetched Dat.blockOf iblk1; rw [A_eq1]; try rfl)
theorem before1_10 (c : Dev nD) (t : Fin cfg1.N) (d) : (dat1 V c).before 10 t d = iblk1 V c 10 t :=
  ((dat1 V c).before_in_eq_fetched 10 rfl (fun _ => rfl) (fun _ _ _ => rfl) (fun t => by rw [after1_10]; unfold Dat.blockOf iblk1; rw [A_eq1]; try rfl) t d).trans
    (by unfold Dat.fetched Dat.blockOf iblk1; rw [A_eq1]; try rfl)
theorem before1_11 (c : Dev nD) (t : Fin cfg1.N) (d) : (dat1 V c).before 11 t d = iblk1 V c 11 t :=
  ((dat1 V c).before_in_eq_fetched 11 rfl (fun _ => rfl) (fun _ _ _ => rfl) (fun t => by rw [after1_11]; unfold Dat.blockOf iblk1; rw [A_eq1]; try rfl) t d).trans
    (by unfold Dat.fetched Dat.blockOf iblk1; rw [A_eq1]; try rfl)
theorem before1_12 (c : Dev nD) (t : Fin cfg1.N) (d) : (dat1 V c).before 12 t d = iblk1 V c 12 t :=
  ((dat1 V c).before_in_eq_fetched 12 rfl (fun _ => rfl) (fun _ _ _ => rfl) (fun t => by rw [after1_12]; unfold Dat.blockOf iblk1; rw [A_eq1]; try rfl) t d).trans
    (by unfold Dat.fetched Dat.blockOf iblk1; rw [A_eq1]; try rfl)
theorem before1_13 (c : Dev nD) (t : Fin cfg1.N) (d) : (dat1 V c).before 13 t d = iblk1 V c 13 t :=
  ((dat1 V c).before_in_eq_fetched 13 rfl (fun _ => rfl) (fun _ _ _ => rfl) (fun t => by rw [after1_13]; unfold Dat.blockOf iblk1; rw [A_eq1]; try rfl) t d).trans
    (by unfold Dat.fetched Dat.blockOf iblk1; rw [A_eq1]; try rfl)
theorem before1_14 (c : Dev nD) (t : Fin cfg1.N) (d) : (dat1 V c).before 14 t d = iblk1 V c 14 t :=
  ((dat1 V c).before_in_eq_fetched 14 rfl (fun _ => rfl) (fun _ _ _ => rfl) (fun t => by rw [after1_14]; unfold Dat.blockOf iblk1; rw [A_eq1]; try rfl) t d).trans
    (by unfold Dat.fetched Dat.blockOf iblk1; rw [A_eq1]; try rfl)
theorem before1_15 (c : Dev nD) (t : Fin cfg1.N) (d) : (dat1 V c).before 15 t d = iblk1 V c 15 t :=
  ((dat1 V c).before_in_eq_fetched 15 rfl (fun _ => rfl) (fun _ _ _ => rfl) (fun t => by rw [after1_15]; unfold Dat.blockOf iblk1; rw [A_eq1]; try rfl) t d).trans
    (by unfold Dat.fetched Dat.blockOf iblk1; rw [A_eq1]; try rfl)
theorem before1_16 (c : Dev nD) (t : Fin cfg1.N) (d) : (dat1 V c).before 16 t d = iblk1 V c 16 t :=
  ((dat1 V c).before_in_eq_fetched 16 rfl (fun _ => rfl) (fun _ _ _ => rfl) (fun t => by rw [after1_16]; unfold Dat.blockOf iblk1; rw [A_eq1]; try rfl) t d).trans
    (by unfold Dat.fetched Dat.blockOf iblk1; rw [A_eq1]; try rfl)
theorem before1_17 (c : Dev nD) (t : Fin cfg1.N) (d) : (dat1 V c).before 17 t d = iblk1 V c 17 t :=
  ((dat1 V c).before_in_eq_fetched 17 rfl (fun _ => rfl) (fun _ _ _ => rfl) (fun t => by rw [after1_17]; unfold Dat.blockOf iblk1; rw [A_eq1]; try rfl) t d).trans
    (by unfold Dat.fetched Dat.blockOf iblk1; rw [A_eq1]; try rfl)

end Cert.KernelIdeal.Hand

end
-- ==== Proof.KI.R1A.lean ====
/-
  The second kernel's body at the first point of a group of four (the last grid coordinate 0): the scratch block is
  reset to zeros, then one accumulation step runs over it; nothing is stored into the output's buffer.
-/
import proofs.«135699_j28114855919650_1_alg».proof.Proof.KI.D1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Zero offsets of rank 2 and 3, as the constant-zero function. -/
private theorem hz2 : (![0, 0] : Fin 2 → ℕ) = fun _ => 0 := funext fun a => by fin_cases a <;> rfl
private theorem hz3 : (![0, 0, 0] : Fin 3 → ℕ) = fun _ => 0 := funext fun a => by fin_cases a <;> rfl

/-- A store through the whole-block rectangle, last, covers the block. -/
private theorem cov2 (w : S128x128.Idx → Elt F .f32) (L : List (View.Piece (Elt F) S128x128 .f32)) :
    ∀ y, ∃ p ∈ ((⟨Rect.unit ![0, 0] S128x128.size inb_S128x128_S128x128_0_0, w⟩ : View.Piece (Elt F) S128x128 .f32) :: L), y ∈ p.1.set :=
  fun y => ⟨_, List.Mem.head _, View.mem_set_unit_zero (S := S128x128) hz2 inb_S128x128_S128x128_0_0 y⟩
private theorem cov3 (w : S1x128x128.Idx → Elt F .f32) (L : List (View.Piece (Elt F) S1x128x128 .f32)) :
    ∀ y, ∃ p ∈ ((⟨Rect.unit ![0, 0, 0] S1x128x128.size inb_S1x128x128_S1x128x128_0_0_0, w⟩ : View.Piece (Elt F) S1x128x128 .f32) :: L), y ∈ p.1.set :=
  fun y => ⟨_, List.Mem.head _, View.mem_set_unit_zero (S := S1x128x128) hz3 inb_S1x128x128_S1x128x128_0_0_0 y⟩

set_option maxHeartbeats 4000000 in
/-- The body at the first point of a group of four (the scratch block reset, no output): from the inputs' buffers at
    their blocks, the output's buffer at `xi` and the scratch block at anything, it leaves the inputs and the output's
    buffer as they were and the scratch block at one accumulation step over zeros. -/
theorem run1_A (c : Dev nD) (i : grid1.Coords) (arg3 : Memref sig .tc .vmem S1x128x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S128x128 .f32) (harg15 : arg15.IsWhole) (arg16 : Memref sig .tc .vmem S1x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128x128 .f32) (harg21 : arg21.IsWhole) (arg22 : Memref sig .tc .vmem S128x128 .f32) (harg22 : arg22.IsWhole)
    (hc0 : (Scalar.cmpi .ne (Scalar.extui (Scalar.cmpi .eq (BitVec.ofNat 32 (i 2).val) 0#32)) 0#32) = 1#1) (hc1 : ¬ k1_cond2 i = 1#1)
    (x0 : Vec F S1x128x128 .f32) (x1 : Vec F S1x128x128 .f32) (x2 : Vec F S1x128x128 .f32) (x3 : Vec F S128x128 .f32) (x4 : Vec F S1x128 .f32) (x5 : Vec F S1x128 .f32) (x6 : Vec F S128x128 .f32) (x7 : Vec F S1x128 .f32) (x8 : Vec F S1x128 .f32) (x9 : Vec F S1x128 .f32) (x10 : Vec F S1x1 .f32) (x11 : Vec F S1x1 .f32) (x12 : Vec F S128x128 .f32) (x13 : Vec F S1x128 .f32) (x14 : Vec F S128x128 .f32) (x15 : Vec F S1x128 .f32) (x16 : Vec F S1x128 .f32) (x17 : Vec F S1x128 .f32) (xi : Vec F S1x128x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare xi ∗ (∃ d, owns (c : Thread nD τ) arg22 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare xi ∗ owns (c : Thread nD τ) arg22 fullShare (accStep x0 x1 x2 x3 x4 x5 x6 x7 x8 x9 x10 x11 (k1_pay8 (F := F)))) -∗ K ⟨⟩))
      ⊢ wp frame (wpE (defs₀ (F := F)) Variants.none c none) E (cc1__gnn_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc1__gnn_kernel_eq_skeleton]; unfold cc1__gnn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%ds, %fs, -, HS⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _; isplitr; · ipureintro; exact harg16.read_unread _
    iexact H13
  isplitl [H14]
  · iexists _; isplitr; · ipureintro; exact harg17.read_unread _
    iexact H14
  isplitl [H15]
  · iexists _; isplitr; · ipureintro; exact harg18.read_unread _
    iexact H15
  isplitl [H16]
  · iexists _; isplitr; · ipureintro; exact harg19.read_unread _
    iexact H16
  isplitl [H17]
  · iexists _; isplitr; · ipureintro; exact harg20.read_unread _
    iexact H17
  isplitl [H18]
  · iexists _; isplitr; · ipureintro; exact harg21.read_unread _
    iexact H18
  iexists _; isplitr
  swap; · iexact HS
  ipureintro
  sl_unfold_run_names
  rw [View.read_writes_eq_canon _ _ _ (cov2 _ _)]
  rw [View.canon_cons_unit_zero (S := S128x128) hz2]
  simp only [View.readAt_eq_ld, Memref.IsWhole.read_unread, View.readCov_unit_zero (S := S128x128) _ hz2, View.ld_unit_zero (S := S1x128x128) hz3, View.ld_unit_zero (S := S128x128) hz2, View.ld_unit_zero (S := S1x128) hz2, View.ld_unit_zero (S := S1x1) hz2]
  rfl

end Cert.KernelIdeal.Hand

end
-- ==== Proof.KI.R1B.lean ====
/-
  The second kernel's body at a middle point of a group of four (the last grid coordinate 1 or 2): one accumulation
  step over the scratch block as the point before left it; nothing is stored into the output's buffer.
-/
import proofs.«135699_j28114855919650_1_alg».proof.Proof.KI.R1A
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Zero offsets of rank 2 and 3, as the constant-zero function. -/
private theorem hz2 : (![0, 0] : Fin 2 → ℕ) = fun _ => 0 := funext fun a => by fin_cases a <;> rfl
private theorem hz3 : (![0, 0, 0] : Fin 3 → ℕ) = fun _ => 0 := funext fun a => by fin_cases a <;> rfl

/-- A store through the whole-block rectangle, last, covers the block. -/
private theorem cov2 (w : S128x128.Idx → Elt F .f32) (L : List (View.Piece (Elt F) S128x128 .f32)) :
    ∀ y, ∃ p ∈ ((⟨Rect.unit ![0, 0] S128x128.size inb_S128x128_S128x128_0_0, w⟩ : View.Piece (Elt F) S128x128 .f32) :: L), y ∈ p.1.set :=
  fun y => ⟨_, List.Mem.head _, View.mem_set_unit_zero (S := S128x128) hz2 inb_S128x128_S128x128_0_0 y⟩
private theorem cov3 (w : S1x128x128.Idx → Elt F .f32) (L : List (View.Piece (Elt F) S1x128x128 .f32)) :
    ∀ y, ∃ p ∈ ((⟨Rect.unit ![0, 0, 0] S1x128x128.size inb_S1x128x128_S1x128x128_0_0_0, w⟩ : View.Piece (Elt F) S1x128x128 .f32) :: L), y ∈ p.1.set :=
  fun y => ⟨_, List.Mem.head _, View.mem_set_unit_zero (S := S1x128x128) hz3 inb_S1x128x128_S1x128x128_0_0_0 y⟩

set_option maxHeartbeats 4000000 in
/-- The body at a middle point of a group of four (no reset, no output): from the inputs' buffers at their blocks,
    the output's buffer at `xi` and the scratch block at `xs`, it leaves the inputs and the output's buffer as they
    were and the scratch block one accumulation step further. -/
theorem run1_B (c : Dev nD) (i : grid1.Coords) (arg3 : Memref sig .tc .vmem S1x128x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S128x128 .f32) (harg15 : arg15.IsWhole) (arg16 : Memref sig .tc .vmem S1x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128x128 .f32) (harg21 : arg21.IsWhole) (arg22 : Memref sig .tc .vmem S128x128 .f32) (harg22 : arg22.IsWhole)
    (hc0 : ¬ (Scalar.cmpi .ne (Scalar.extui (Scalar.cmpi .eq (BitVec.ofNat 32 (i 2).val) 0#32)) 0#32) = 1#1) (hc1 : ¬ k1_cond2 i = 1#1)
    (x0 : Vec F S1x128x128 .f32) (x1 : Vec F S1x128x128 .f32) (x2 : Vec F S1x128x128 .f32) (x3 : Vec F S128x128 .f32) (x4 : Vec F S1x128 .f32) (x5 : Vec F S1x128 .f32) (x6 : Vec F S128x128 .f32) (x7 : Vec F S1x128 .f32) (x8 : Vec F S1x128 .f32) (x9 : Vec F S1x128 .f32) (x10 : Vec F S1x1 .f32) (x11 : Vec F S1x1 .f32) (x12 : Vec F S128x128 .f32) (x13 : Vec F S1x128 .f32) (x14 : Vec F S128x128 .f32) (x15 : Vec F S1x128 .f32) (x16 : Vec F S1x128 .f32) (x17 : Vec F S1x128 .f32) (xi : Vec F S1x128x128 .f32) (xs : Vec F S128x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare xi ∗ owns (c : Thread nD τ) arg22 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare xi ∗ owns (c : Thread nD τ) arg22 fullShare (accStep x0 x1 x2 x3 x4 x5 x6 x7 x8 x9 x10 x11 xs)) -∗ K ⟨⟩))
      ⊢ wp frame (wpE (defs₀ (F := F)) Variants.none c none) E (cc1__gnn_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc1__gnn_kernel_eq_skeleton]; unfold cc1__gnn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%fs, %hfs, HS⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _; isplitr; · ipureintro; exact harg16.read_unread _
    iexact H13
  isplitl [H14]
  · iexists _; isplitr; · ipureintro; exact harg17.read_unread _
    iexact H14
  isplitl [H15]
  · iexists _; isplitr; · ipureintro; exact harg18.read_unread _
    iexact H15
  isplitl [H16]
  · iexists _; isplitr; · ipureintro; exact harg19.read_unread _
    iexact H16
  isplitl [H17]
  · iexists _; isplitr; · ipureintro; exact harg20.read_unread _
    iexact H17
  isplitl [H18]
  · iexists _; isplitr; · ipureintro; exact harg21.read_unread _
    iexact H18
  iexists _; isplitr
  swap; · iexact HS
  ipureintro
  sl_unfold_run_names
  rw [View.read_writes_eq_canon _ _ _ (cov2 _ _)]
  rw [View.canon_unit_zero hz2]
  simp only [View.readAt_eq_ld, Memref.IsWhole.read_unread, View.readCov_unit_zero (S := S128x128) _ hz2, View.ld_unit_zero (S := S1x128x128) hz3, View.ld_unit_zero (S := S128x128) hz2, View.ld_unit_zero (S := S1x128) hz2, View.ld_unit_zero (S := S1x1) hz2]
  rfl

end Cert.KernelIdeal.Hand

end
-- ==== Proof.KI.R1C.lean ====
/-
  The second kernel's body at the last point of a group of four (the last grid coordinate 3): one accumulation step
  over the scratch block as the point before left it, then the closing step over the finished scratch block is stored
  into the output's buffer.
-/
import proofs.«135699_j28114855919650_1_alg».proof.Proof.KI.R1B
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Zero offsets of rank 2 and 3, as the constant-zero function. -/
private theorem hz2 : (![0, 0] : Fin 2 → ℕ) = fun _ => 0 := funext fun a => by fin_cases a <;> rfl
private theorem hz3 : (![0, 0, 0] : Fin 3 → ℕ) = fun _ => 0 := funext fun a => by fin_cases a <;> rfl

/-- A store through the whole-block rectangle, last, covers the block. -/
private theorem cov2 (w : S128x128.Idx → Elt F .f32) (L : List (View.Piece (Elt F) S128x128 .f32)) :
    ∀ y, ∃ p ∈ ((⟨Rect.unit ![0, 0] S128x128.size inb_S128x128_S128x128_0_0, w⟩ : View.Piece (Elt F) S128x128 .f32) :: L), y ∈ p.1.set :=
  fun y => ⟨_, List.Mem.head _, View.mem_set_unit_zero (S := S128x128) hz2 inb_S128x128_S128x128_0_0 y⟩
private theorem cov3 (w : S1x128x128.Idx → Elt F .f32) (L : List (View.Piece (Elt F) S1x128x128 .f32)) :
    ∀ y, ∃ p ∈ ((⟨Rect.unit ![0, 0, 0] S1x128x128.size inb_S1x128x128_S1x128x128_0_0_0, w⟩ : View.Piece (Elt F) S1x128x128 .f32) :: L), y ∈ p.1.set :=
  fun y => ⟨_, List.Mem.head _, View.mem_set_unit_zero (S := S1x128x128) hz3 inb_S1x128x128_S1x128x128_0_0_0 y⟩

set_option maxHeartbeats 4000000 in
/-- The body at the last point of a group of four (no reset, the output stored): from the inputs' buffers at their
    blocks, the output's at anything and the scratch block at `xs`, it leaves the inputs as they were, the scratch
    block one accumulation step further and the output's buffer at the closing step over that. -/
theorem run1_C (c : Dev nD) (i : grid1.Coords) (arg3 : Memref sig .tc .vmem S1x128x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S128x128 .f32) (harg15 : arg15.IsWhole) (arg16 : Memref sig .tc .vmem S1x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128x128 .f32) (harg21 : arg21.IsWhole) (arg22 : Memref sig .tc .vmem S128x128 .f32) (harg22 : arg22.IsWhole)
    (hc0 : ¬ (Scalar.cmpi .ne (Scalar.extui (Scalar.cmpi .eq (BitVec.ofNat 32 (i 2).val) 0#32)) 0#32) = 1#1) (hc1 : k1_cond2 i = 1#1)
    (x0 : Vec F S1x128x128 .f32) (x1 : Vec F S1x128x128 .f32) (x2 : Vec F S1x128x128 .f32) (x3 : Vec F S128x128 .f32) (x4 : Vec F S1x128 .f32) (x5 : Vec F S1x128 .f32) (x6 : Vec F S128x128 .f32) (x7 : Vec F S1x128 .f32) (x8 : Vec F S1x128 .f32) (x9 : Vec F S1x128 .f32) (x10 : Vec F S1x1 .f32) (x11 : Vec F S1x1 .f32) (x12 : Vec F S128x128 .f32) (x13 : Vec F S1x128 .f32) (x14 : Vec F S128x128 .f32) (x15 : Vec F S1x128 .f32) (x16 : Vec F S1x128 .f32) (x17 : Vec F S1x128 .f32) (xs : Vec F S128x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ (∃ d, owns (c : Thread nD τ) arg21 fullShare d) ∗ owns (c : Thread nD τ) arg22 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare (outStep x0 x12 x13 x14 x15 x16 x17 (accStep x0 x1 x2 x3 x4 x5 x6 x7 x8 x9 x10 x11 xs)) ∗ owns (c : Thread nD τ) arg22 fullShare (accStep x0 x1 x2 x3 x4 x5 x6 x7 x8 x9 x10 x11 xs)) -∗ K ⟨⟩))
      ⊢ wp frame (wpE (defs₀ (F := F)) Variants.none c none) E (cc1__gnn_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc1__gnn_kernel_eq_skeleton]; unfold cc1__gnn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%fs, %hfs, HS⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg22.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _; isplitr; · ipureintro; exact harg16.read_unread _
    iexact H13
  isplitl [H14]
  · iexists _; isplitr; · ipureintro; exact harg17.read_unread _
    iexact H14
  isplitl [H15]
  · iexists _; isplitr; · ipureintro; exact harg18.read_unread _
    iexact H15
  isplitl [H16]
  · iexists _; isplitr; · ipureintro; exact harg19.read_unread _
    iexact H16
  isplitl [H17]
  · iexists _; isplitr; · ipureintro; exact harg20.read_unread _
    iexact H17
  isplitl [H18]
  · iexists _; isplitr
    swap; · iexact H18
    ipureintro
    sl_unfold_run_names
    rw [View.read_writes_eq_canon _ _ _ (cov3 _ _)]
    rw [View.canon_unit_zero hz3]
    simp only [View.readAt_eq_ld, Memref.IsWhole.read_unread, View.readCov_unit_zero (S := S128x128) _ hz2, View.ld_unit_zero (S := S1x128x128) hz3, View.ld_unit_zero (S := S128x128) hz2, View.ld_unit_zero (S := S1x128) hz2, View.ld_unit_zero (S := S1x1) hz2]
    rfl
  iexists _; isplitr
  swap; · iexact HS
  ipureintro
  sl_unfold_run_names
  rw [View.read_writes_eq_canon _ _ _ (cov2 _ _)]
  rw [View.canon_unit_zero hz2]
  simp only [View.readAt_eq_ld, Memref.IsWhole.read_unread, View.readCov_unit_zero (S := S128x128) _ hz2, View.ld_unit_zero (S := S1x128x128) hz3, View.ld_unit_zero (S := S128x128) hz2, View.ld_unit_zero (S := S1x128) hz2, View.ld_unit_zero (S := S1x1) hz2]
  rfl

end Cert.KernelIdeal.Hand

end
-- ==== Proof.KI.R1.lean ====
/-
  The body obligation of the second kernel for the proof data of D1, and the invariant's two ends: at every grid point
  the body, called with the inputs' buffers at their blocks and the scratch block at what the point before left (at
  anything before the first point of a group, where it is reset), leaves the scratch block one accumulation step
  further and, at the last point of a group, the output's buffer at the closing step over the finished scratch block.
-/
import proofs.«135699_j28114855919650_1_alg».proof.Proof.KI.R1S
import proofs.«135699_j28114855919650_1_alg».proof.Proof.KI.R1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The outputs and inputs the body leaves, window by window -/

theorem leaves1_0 (c : Dev nD) (t : Fin cfg1.N) :
    (dat1 V c).leavesExact 0 t = owns (c : Thread nD τ) (ms1_0 t) fullShare (iblk1 V c 0 t) := by
  unfold Dat.leavesExact; rw [after1_0]
theorem leaves1_1 (c : Dev nD) (t : Fin cfg1.N) :
    (dat1 V c).leavesExact 1 t = owns (c : Thread nD τ) (ms1_1 t) fullShare (iblk1 V c 1 t) := by
  unfold Dat.leavesExact; rw [after1_1]
theorem leaves1_2 (c : Dev nD) (t : Fin cfg1.N) :
    (dat1 V c).leavesExact 2 t = owns (c : Thread nD τ) (ms1_2 t) fullShare (iblk1 V c 2 t) := by
  unfold Dat.leavesExact; rw [after1_2]
theorem leaves1_3 (c : Dev nD) (t : Fin cfg1.N) :
    (dat1 V c).leavesExact 3 t = owns (c : Thread nD τ) (ms1_3 t) fullShare (iblk1 V c 3 t) := by
  unfold Dat.leavesExact; rw [after1_3]
theorem leaves1_4 (c : Dev nD) (t : Fin cfg1.N) :
    (dat1 V c).leavesExact 4 t = owns (c : Thread nD τ) (ms1_4 t) fullShare (iblk1 V c 4 t) := by
  unfold Dat.leavesExact; rw [after1_4]
theorem leaves1_5 (c : Dev nD) (t : Fin cfg1.N) :
    (dat1 V c).leavesExact 5 t = owns (c : Thread nD τ) (ms1_5 t) fullShare (iblk1 V c 5 t) := by
  unfold Dat.leavesExact; rw [after1_5]
theorem leaves1_6 (c : Dev nD) (t : Fin cfg1.N) :
    (dat1 V c).leavesExact 6 t = owns (c : Thread nD τ) (ms1_6 t) fullShare (iblk1 V c 6 t) := by
  unfold Dat.leavesExact; rw [after1_6]
theorem leaves1_7 (c : Dev nD) (t : Fin cfg1.N) :
    (dat1 V c).leavesExact 7 t = owns (c : Thread nD τ) (ms1_7 t) fullShare (iblk1 V c 7 t) := by
  unfold Dat.leavesExact; rw [after1_7]
theorem leaves1_8 (c : Dev nD) (t : Fin cfg1.N) :
    (dat1 V c).leavesExact 8 t = owns (c : Thread nD τ) (ms1_8 t) fullShare (iblk1 V c 8 t) := by
  unfold Dat.leavesExact; rw [after1_8]
theorem leaves1_9 (c : Dev nD) (t : Fin cfg1.N) :
    (dat1 V c).leavesExact 9 t = owns (c : Thread nD τ) (ms1_9 t) fullShare (iblk1 V c 9 t) := by
  unfold Dat.leavesExact; rw [after1_9]
theorem leaves1_10 (c : Dev nD) (t : Fin cfg1.N) :
    (dat1 V c).leavesExact 10 t = owns (c : Thread nD τ) (ms1_10 t) fullShare (iblk1 V c 10 t) := by
  unfold Dat.leavesExact; rw [after1_10]
theorem leaves1_11 (c : Dev nD) (t : Fin cfg1.N) :
    (dat1 V c).leavesExact 11 t = owns (c : Thread nD τ) (ms1_11 t) fullShare (iblk1 V c 11 t) := by
  unfold Dat.leavesExact; rw [after1_11]
theorem leaves1_12 (c : Dev nD) (t : Fin cfg1.N) :
    (dat1 V c).leavesExact 12 t = owns (c : Thread nD τ) (ms1_12 t) fullShare (iblk1 V c 12 t) := by
  unfold Dat.leavesExact; rw [after1_12]
theorem leaves1_13 (c : Dev nD) (t : Fin cfg1.N) :
    (dat1 V c).leavesExact 13 t = owns (c : Thread nD τ) (ms1_13 t) fullShare (iblk1 V c 13 t) := by
  unfold Dat.leavesExact; rw [after1_13]
theorem leaves1_14 (c : Dev nD) (t : Fin cfg1.N) :
    (dat1 V c).leavesExact 14 t = owns (c : Thread nD τ) (ms1_14 t) fullShare (iblk1 V c 14 t) := by
  unfold Dat.leavesExact; rw [after1_14]
theorem leaves1_15 (c : Dev nD) (t : Fin cfg1.N) :
    (dat1 V c).leavesExact 15 t = owns (c : Thread nD τ) (ms1_15 t) fullShare (iblk1 V c 15 t) := by
  unfold Dat.leavesExact; rw [after1_15]
theorem leaves1_16 (c : Dev nD) (t : Fin cfg1.N) :
    (dat1 V c).leavesExact 16 t = owns (c : Thread nD τ) (ms1_16 t) fullShare (iblk1 V c 16 t) := by
  unfold Dat.leavesExact; rw [after1_16]
theorem leaves1_17 (c : Dev nD) (t : Fin cfg1.N) :
    (dat1 V c).leavesExact 17 t = owns (c : Thread nD τ) (ms1_17 t) fullShare (iblk1 V c 17 t) := by
  unfold Dat.leavesExact; rw [after1_17]

/-! ## The body obligation at a point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d))
    ∗ (∃ d, owns (c : Thread nD τ) (ms1_15 t) fullShare ((dat1 V c).before 15 t d))
    ∗ (∃ d, owns (c : Thread nD τ) (ms1_16 t) fullShare ((dat1 V c).before 16 t d))
    ∗ (∃ d, owns (c : Thread nD τ) (ms1_17 t) fullShare ((dat1 V c).before 17 t d))
    ∗ (∃ d, owns (c : Thread nD τ) (ms1_18 t) fullShare ((dat1 V c).before 18 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t
    ∗ (dat1 V c).leavesExact 13 t
    ∗ (dat1 V c).leavesExact 14 t
    ∗ (dat1 V c).leavesExact 15 t
    ∗ (dat1 V c).leavesExact 16 t
    ∗ (dat1 V c).leavesExact 17 t
    ∗ (dat1 V c).leavesExact 18 t)

set_option maxHeartbeats 4800000 in
/-- The body at any point. The inputs' buffers hold their blocks; the last grid coordinate says which of the three
    cases the point is in. At the first point of a group the scratch block is reset, so it may be at anything
    (before the very first point it is; later it holds what the group before left); at the other points the
    invariant hands over the scratch block at what the point before left. The scratch block comes back one
    accumulation step further, which is the invariant at the next point. The output's buffer is handed back
    untouched except at the last point of a group, where it comes back at the closing step over the finished
    scratch block. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15, before1_16, before1_17]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4, leaves1_5, leaves1_6, leaves1_7, leaves1_8, leaves1_9, leaves1_10, leaves1_11, leaves1_12, leaves1_13, leaves1_14, leaves1_15, leaves1_16, leaves1_17]
  have hN : t.val < 32 := lt_of_lt_of_eq t.isLt (show cfg1.N = 32 from N_1)
  by_cases h0 : t.val % 4 = 0
  · have h1 : ¬ t.val % 4 = 3 := by omega
    rw [Dat.leavesExact_idle (dat1 V c) 18 t (idleAt1_18 t (fun h => h1 ((hcond1_1 t).mp h))) (noFlush1_18 t (fun h => h1 ((hcond1_1 t).mp h)))]
    rw [scr1_zero V c t h0]; unfold acc1
    by_cases hz : t.val = 0
    · rw [PhiS1_castSucc V c t, PhiS1_zero V c _ _ hz, PhiA1_eq]
      iintro ⟨⟨⟨Hr, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply (run1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [HS]; · iexact HS
      iintro ⟨H0, H1, H2, H3, H4, H5, H6, H7, H8, H9, H10, H11, H12, H13, H14, H15, H16, H17, H18, HS⟩
      isplitl [Hr HS Hg]
      · isplitr [Hg]
        · isplitl [Hr]; · iexact Hr
          iexact HS
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexists _; iexact H18
    · rw [PhiS1_castSucc V c t, PhiS1_pos V c _ _ hz]
      iintro ⟨⟨⟨Hr, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply (run1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [HS]; · iexists _; iexact HS
      iintro ⟨H0, H1, H2, H3, H4, H5, H6, H7, H8, H9, H10, H11, H12, H13, H14, H15, H16, H17, H18, HS⟩
      isplitl [Hr HS Hg]
      · isplitr [Hg]
        · isplitl [Hr]; · iexact Hr
          iexact HS
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexists _; iexact H18
  · have hz : t.val ≠ 0 := fun h => h0 (by rw [h])
    rw [PhiS1_castSucc V c t, PhiS1_pos V c _ _ hz]
    by_cases h1 : t.val % 4 = 3
    · rw [show (dat1 V c).leavesExact 18 t = owns (c : Thread nD τ) (ms1_18 t) fullShare ((dat1 V c).after 18 t) from by
        unfold Dat.leavesExact; rw [liveAt1_18 t ((hcond1_1 t).mpr h1)], after1_18]
      unfold fin1
      rw [scr1_succ V c t h0]; unfold acc1
      iintro ⟨⟨⟨Hr, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply (run1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexists _; iexact H18
      isplitl [HS]; · iexact HS
      iintro ⟨H0, H1, H2, H3, H4, H5, H6, H7, H8, H9, H10, H11, H12, H13, H14, H15, H16, H17, H18, HS⟩
      isplitl [Hr HS Hg]
      · isplitr [Hg]
        · isplitl [Hr]; · iexact Hr
          iexact HS
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    · rw [Dat.leavesExact_idle (dat1 V c) 18 t (idleAt1_18 t (fun h => h1 ((hcond1_1 t).mp h))) (noFlush1_18 t (fun h => h1 ((hcond1_1 t).mp h)))]
      rw [scr1_succ V c t h0]; unfold acc1
      iintro ⟨⟨⟨Hr, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply (run1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [HS]; · iexact HS
      iintro ⟨H0, H1, H2, H3, H4, H5, H6, H7, H8, H9, H10, H11, H12, H13, H14, H15, H16, H17, H18, HS⟩
      isplitl [Hr HS Hg]
      · isplitr [Hg]
        · isplitl [Hr]; · iexact Hr
          iexact HS
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexists _; iexact H18

/-- The library's body obligation for the second kernel, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 (F := F) V c).Φ 0 := by
  rw [show (dat1 V c).Φ 0 = PhiS1 V c 0 (Nat.zero_le _) from rfl, PhiS1_zero V c 0 _ rfl]

/-- After the last point the invariant gives the class's back: the scratch block's named contents are forgotten. -/
theorem hout1 (c : Dev nD) : (dat1 (F := F) V c).Φ (Fin.last cfg1.N) ⊢ Pipeline.ΦA spec1 c := by
  have ht : (Fin.last cfg1.N).val ≠ 0 := by rw [Fin.val_last]; have : cfg1.N = 32 := N_1; omega
  rw [show (dat1 V c).Φ (Fin.last cfg1.N) = PhiS1 V c (Fin.last cfg1.N).val (Nat.le_of_lt_succ (Fin.last cfg1.N).isLt) from rfl,
    PhiS1_pos V c _ _ ht, PhiA1_eq]
  iintro ⟨⟨Hr, HS⟩, Hg⟩
  isplitr [Hg]
  · isplitl [Hr]; · iexact Hr
    iexists _; iexact HS
  · iexact Hg

end Cert.KernelIdeal.Hand

end
-- ==== Proof.KI.Vals.lean ====
/-
  The contents of every unscoped buffer at the boundaries of @main's four items (host operations, the first kernel,
  host operations, the second kernel), as valuations folded from the launch memory.
-/
import proofs.«135699_j28114855919650_1_alg».proof.Proof.KI.D0
import proofs.«135699_j28114855919650_1_alg».proof.Proof.KI.D1
import Idealize.ShloMosaic.Lib.StableHlo.Run

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-- Core `c`'s buffers at launch. -/
abbrev Wa0 (c : Dev nD) : Valuation τ sig (Elt F) := fun b => m (c, b)
/-- After the first host stretch (the first kernel's entry). -/
abbrev Wa1 (c : Dev nD) : Valuation τ sig (Elt F) := StableHlo.after hostOps0 (Wa0 m c)
/-- The same read at a TensorCore reference. -/
abbrev Va1 (c : Dev nD) (b : Ref sig .tc) : Buf (Elt F) ((c : Thread nD τ).loc b) := Wa1 m c (Proc.devRef .tc b)
/-- At the first kernel's exit: its result array `main_v1` at what the pipeline leaves, everything else as entered. -/
def Wa2 (c : Dev nD) : Valuation τ sig (Elt F) :=
  Function.update (Wa1 m c) (Proc.devRef .tc main_v1) ((dat0 (Va1 m) c).arrAt 3 cfg0.N)
abbrev Va2 (c : Dev nD) (b : Ref sig .tc) : Buf (Elt F) ((c : Thread nD τ).loc b) := Wa2 m c (Proc.devRef .tc b)
/-- After the second host stretch (the second kernel's entry). -/
abbrev Wa3 (c : Dev nD) : Valuation τ sig (Elt F) := StableHlo.after hostOps1 (Wa2 m c)
abbrev Va3 (c : Dev nD) (b : Ref sig .tc) : Buf (Elt F) ((c : Thread nD τ).loc b) := Wa3 m c (Proc.devRef .tc b)
/-- At the second kernel's exit: its result array `main_v22` at what the pipeline leaves, everything else as entered. -/
def Wa4 (c : Dev nD) : Valuation τ sig (Elt F) :=
  Function.update (Wa3 m c) (Proc.devRef .tc main_v22) ((dat1 (Va3 m) c).arrAt 18 cfg1.N)
abbrev Va4 (c : Dev nD) (b : Ref sig .tc) : Buf (Elt F) ((c : Thread nD τ).loc b) := Wa4 m c (Proc.devRef .tc b)

theorem Va2_v1 (c : Dev nD) : Va2 m c main_v1 = (dat0 (Va1 m) c).arrAt 3 cfg0.N := by
  unfold Va2 Wa2; exact Function.update_self ..
theorem Va2_of_ne (c : Dev nD) (b : Ref sig .tc) (h : b ≠ main_v1) : Va2 m c b = Va1 m c b := by
  unfold Va2 Wa2 Va1; exact Function.update_of_ne (StableHlo.devRef_ne_of_ne h) ..
theorem Va4_v22 (c : Dev nD) : Va4 m c main_v22 = (dat1 (Va3 m) c).arrAt 18 cfg1.N := by
  unfold Va4 Wa4; exact Function.update_self ..
theorem Va4_of_ne (c : Dev nD) (b : Ref sig .tc) (h : b ≠ main_v22) : Va4 m c b = Va3 m c b := by
  unfold Va4 Wa4 Va3; exact Function.update_of_ne (StableHlo.devRef_ne_of_ne h) ..

end Cert.KernelIdeal.Hand

end
-- ==== Proof.KI.Share1.lean ====
/-
  The second kernel receives the array `h` through two windows. Its pipeline therefore holds that array twice, at the
  two halves of the full share, and every other array once at the full share. Here: a core's unscoped buffers at
  contents `V` split into that holding and the rest, and the holding after the run, beside the same rest, is the
  unscoped buffers at `V` updated at the result array.
-/
import proofs.«135699_j28114855919650_1_alg».proof.Proof.KI.D1
import proofs.«135699_j28114855919650_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The eighteen distinct arrays behind the nineteen windows. -/
abbrev arrs1 : List (Ref sig .tc) := [main_v1, main_arg1, main_v2, main_v5, main_v6, main_arg6, main_v7, main_v10, main_v13, main_v16, main_v17, main_arg10, main_v18, main_arg12, main_v19, main_v20, main_v21, main_v22]

/-- Only the last window is an output. -/
theorem isOut1 : ∀ w : Fin 19, (win1 w).isOut = true → 2 ≤ w.val := by decide

/-- Every window's share is `q1`'s: the output's full share is what `q1` gives it too. -/
theorem share1_eq (c : Dev nD) (w : Fin 19) : (dat1 (F := F) V c).share w = q1 w := by
  unfold Dat.share
  by_cases ho : (cfg1.win w).isOut = true
  · rw [if_pos ho]
    have h2 : 2 ≤ w.val := isOut1 w ho
    unfold q1; rw [if_neg (by omega), if_neg (by omega)]
  · rw [if_neg ho]; rfl

/-- The pipeline's holding of its arrays at contents `G`, window by window, each array a whole buffer. -/
theorem arrays1_eq (c : Dev nD) (G : (w : Fin cfg1.W) → Buf (Elt F) ((cfg1.win w).arr.view.loc (c : Thread nD τ))) :
    ((dat1 (F := F) V c).arrays G : sProp 𝕄)
      = bigSep Finset.univ fun w : Fin 19 => (((c : Thread nD τ).loc (Pipeline.arrRef spec1 w)) ↦{q1 w} G w : sProp 𝕄) := by
  unfold Dat.arrays
  exact bigSep_congr fun w _ => by rw [(arr_whole1 w).set_eq_univ, share1_eq]

/-- The distinct buffers behind the arrays, one by one. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v1) ↦{fullShare} W main_v1) ∗ (((c : Thread nD τ).loc main_arg1) ↦{fullShare} W main_arg1) ∗ (((c : Thread nD τ).loc main_v2) ↦{fullShare} W main_v2) ∗ (((c : Thread nD τ).loc main_v5) ↦{fullShare} W main_v5) ∗ (((c : Thread nD τ).loc main_v6) ↦{fullShare} W main_v6) ∗ (((c : Thread nD τ).loc main_arg6) ↦{fullShare} W main_arg6) ∗ (((c : Thread nD τ).loc main_v7) ↦{fullShare} W main_v7) ∗ (((c : Thread nD τ).loc main_v10) ↦{fullShare} W main_v10) ∗ (((c : Thread nD τ).loc main_v13) ↦{fullShare} W main_v13) ∗ (((c : Thread nD τ).loc main_v16) ↦{fullShare} W main_v16) ∗ (((c : Thread nD τ).loc main_v17) ↦{fullShare} W main_v17) ∗ (((c : Thread nD τ).loc main_arg10) ↦{fullShare} W main_arg10) ∗ (((c : Thread nD τ).loc main_v18) ↦{fullShare} W main_v18) ∗ (((c : Thread nD τ).loc main_arg12) ↦{fullShare} W main_arg12) ∗ (((c : Thread nD τ).loc main_v19) ↦{fullShare} W main_v19) ∗ (((c : Thread nD τ).loc main_v20) ↦{fullShare} W main_v20) ∗ (((c : Thread nD τ).loc main_v21) ↦{fullShare} W main_v21) ∗ (((c : Thread nD τ).loc main_v22) ↦{fullShare} W main_v22)) := by
  unfold Pipeline.arrBufs; exact bigSep_eq_bigSepL_of_eq arrs1 (by decide) (by decide) _

/-- ENTRY. The unscoped buffers at `V` are the pipeline's holding at the entry contents and the rest: the array `h`
    is cut along the share into the halves its two windows take. -/
theorem split1 (c : Dev nD) :
    (unscopedBufs c (V c) : sProp 𝕄)
      ⊢ iprop((dat1 (F := F) V c).arrays ((dat1 (F := F) V c).arrAt · 0) ∗ Pipeline.unscopedRest spec1 c (V c)) := by
  rw [Pipeline.unscopedBufs_split₀ cfgs 1 winFacts₀1.arr_unscoped c (V c)]
  refine sep_mono ?_ .rfl
  rw [arrays1_eq, bigSep_W1]
  refine (Entails.of_eq (arrBufs1_eq c (V c))).trans ?_
  simp only [show ∀ w, (dat1 (F := F) V c).arrAt w 0 = V c (Pipeline.arrRef spec1 w) from fun w => rfl]
  iintro ⟨H1, H2, H3, H4, H5, H6, H7, H8, H9, H10, H11, H12, H13, H14, H15, H16, H17, H18⟩
  ihave H1 := (pointsTo_share (PosShare.mem_left_op_right fullShare)).1 $$ H1
  icases H1 with ⟨Ha, Hb⟩
  isplitl [Ha]; · iexact Ha
  isplitl [Hb]; · iexact Hb
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The only output window is the last, whose array is the result array; no input window's array is. -/
theorem out1_last : ∀ w : Fin 19, (win1 w).isOut = true → w = 18 := by decide
theorem in1_ne : ∀ w : Fin 19, (win1 w).isOut = false → Pipeline.arrRef spec1 w ≠ main_v22 := by decide

/-- EXIT. The pipeline's holding after the run (the inputs as entered, the halves of `h` alike, the result array at what
    the write-backs leave) beside the rest is the unscoped buffers at any contents `V'` that has the result array at
    the pipeline's and agrees with `V` elsewhere: the two halves of `h` are put together again. -/
theorem join1 (c : Dev nD) (V' : (b : Ref sig .tc) → Buf (Elt F) ((c : Thread nD τ).loc b))
    (h22 : V' main_v22 = (dat1 (F := F) V c).arrAt 18 cfg1.N) (hne : ∀ b, b ≠ main_v22 → V' b = V c b) :
    iprop((dat1 (F := F) V c).arrays ((dat1 (F := F) V c).arrAt · cfg1.N) ∗ Pipeline.unscopedRest spec1 c (V c))
      ⊢ (unscopedBufs c V' : sProp 𝕄) := by
  have hG : ∀ w : Fin 19, (dat1 (F := F) V c).arrAt w cfg1.N = V' (Pipeline.arrRef spec1 w) := fun w => by
    by_cases ho : (win1 w).isOut = true
    · obtain rfl := out1_last w ho; exact h22.symm
    · have hin : (win1 w).isOut = false := by simpa using ho
      exact (((dat1 (F := F) V c).arrAt_in w hin _).trans (A_eq1 V c w)).trans (hne _ (in1_ne w hin)).symm
  rw [Pipeline.unscopedBufs_split₀ cfgs 1 winFacts₀1.arr_unscoped c V']
  refine sep_mono ?_ (Entails.of_eq ?_)
  · rw [arrays1_eq]
    simp only [hG]
    rw [bigSep_W1]
    show _ ⊢ (Pipeline.arrBufs (Ix := Unit) (Name := ℕ) (U := UR sig nD τ) (Lvl := ℕ) spec1 c V' : sProp 𝕄)
    rw [arrBufs1_eq]
    iintro ⟨Ha, Hb, H2, H3, H4, H5, H6, H7, H8, H9, H10, H11, H12, H13, H14, H15, H16, H17, H18⟩
    ihave H1 := (pointsTo_share (ℓ := (c : Thread nD τ).loc main_v1) (f := V' main_v1) (PosShare.mem_left_op_right fullShare)).2 $$ [Ha Hb]
    · isplitl [Ha]; · iexact Ha
      iexact Hb
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  · unfold Pipeline.unscopedRest
    exact bigSep_congr fun b hb => by
      rw [hne b (fun h => (Finset.mem_sdiff.mp hb).2 (h ▸ Finset.mem_image.mpr ⟨18, Finset.mem_univ _, rfl⟩))]

end Cert.KernelIdeal.Hand

end
-- ==== Proof.KI.Run.lean ====
/-
  The run of the kernel program: @main as four items (host operations, the first kernel, host operations, the second
  kernel), each kernel a region of the pipeline library over its proof data, the thread state between items "every
  unscoped buffer at the boundary's contents, the generator register at some state, nothing owed". Its conclusion:
  every weakly fair execution terminates and every unscoped buffer ends at the last boundary's contents.
-/
import proofs.«135699_j28114855919650_1_alg».proof.Proof.KI.D0
import proofs.«135699_j28114855919650_1_alg».proof.Proof.KI.D1
import proofs.«135699_j28114855919650_1_alg».proof.Proof.KI.R0
import proofs.«135699_j28114855919650_1_alg».proof.Proof.KI.R1
import proofs.«135699_j28114855919650_1_alg».proof.Proof.Gen.KernelIdeal.Regions
import proofs.«135699_j28114855919650_1_alg».proof.Proof.KI.Vals
import proofs.«135699_j28114855919650_1_alg».proof.Proof.KI.Share1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Va1 m) c
  | ⟨1, _⟩ => fun c => dat1 (Va3 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)

/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (Wa4 m c) ∗ ∃ r, prngReg c r)

/-- At the first kernel's exit each of its arrays holds what the pipeline leaves, -/
theorem hF0 (c : Dev nD) (w : Fin cfg0.W) : (dat0 (Va1 m) c).arrAt w cfg0.N = Va2 m c (Pipeline.arrRef spec0 w) :=
  match w with
  | ⟨0, _⟩ => (((dat0 (Va1 m) c).arrAt_in 0 rfl _).trans (A_eq0 (Va1 m) c 0)).trans (Va2_of_ne m c main_arg0 (by decide)).symm
  | ⟨1, _⟩ => (((dat0 (Va1 m) c).arrAt_in 1 rfl _).trans (A_eq0 (Va1 m) c 1)).trans (Va2_of_ne m c main_arg2 (by decide)).symm
  | ⟨2, _⟩ => (((dat0 (Va1 m) c).arrAt_in 2 rfl _).trans (A_eq0 (Va1 m) c 2)).trans (Va2_of_ne m c main_v0 (by decide)).symm
  | ⟨3, _⟩ => (Va2_v1 m c).symm
/-- and every other buffer what it held at entry. -/
theorem hrest0 (c : Dev nD) : ∀ b, b ∉ Finset.univ.image (Pipeline.arrRef spec0) → Va2 m c b = Va1 m c b :=
  fun b hb => Va2_of_ne m c b fun h => hb (h ▸ Finset.mem_image.mpr ⟨3, Finset.mem_univ _, rfl⟩)

set_option backward.isDefEq.respectTransparency.types false in
/-- THE FIRST KERNEL over the thread state: entered from every unscoped buffer at `Wa1`, left at `Wa2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va1 m) c).loose
  hwaits := Pipeline.hwaits_of_owed_zero _ _ _ _ L lv 0 fun _ _ => rfl
  pre c := iprop(StableHlo.held (c : Thread nD τ) (Pipeline.ucRefs τ sig) (Wa1 m c) ∗ R c)
  post c := iprop(StableHlo.held (c : Thread nD τ) (Pipeline.ucRefs τ sig) (Wa2 m c) ∗ R c)
  X c := iprop(∃ r, prngReg c r)
  Y c := iprop(∃ r, prngReg c r)
  Z c := Pipeline.unscopedRest (Ix := Unit) (Name := ℕ) (U := UR sig nD τ) (Lvl := ℕ) spec0 c (Va1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Va1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Va1 m c) (Va2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND KERNEL over the thread state: entered from every unscoped buffer at `Wa3`, left at `Wa4`; the array it
    receives through two windows is cut along the share at entry and put together at exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Va3 m) c).loose
  hwaits := Pipeline.hwaits_of_owed_zero _ _ _ _ L lv 1 fun _ _ => rfl
  pre c := iprop(StableHlo.held (c : Thread nD τ) (Pipeline.ucRefs τ sig) (Wa3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Va3 m c)
  hentry c := by
    rw [Pipeline.ownSems0_none]
    have hsplit := split1 (F := F) (Va3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA (U := UR sig nD τ) spec1 c : sProp 𝕄) from ?_).trans (hin1 (Va3 m) c)
    unfold Pipeline.ΦA
    iintro ⟨Hp, -, Hr⟩
    isplitl [Hr]; · iexact Hr
    iexact Hp
  hout c := by
    rw [Pipeline.ownSems0_none]
    refine (hout1 (Va3 m) c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (Va3 m c))
        ⊢ (unscopedBufs c (Va4 m c) : sProp 𝕄) :=
      join1 (F := F) (Va3 m) c (Va4 m c) (Va4_v22 m c) (fun b h => Va4_of_ne m c b h)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-- @main's four items in order. -/
abbrev segs : List (Pipeline.Seg (pcfgs (F := F)) adm (pdats m) () defs₀ 𝒱₀ L lv) :=
  [ .host (hseg hostOps0 hostOps0_sub hostOps0_fresh (Wa0 m)),
    .region (reg0 m),
    .host (hseg hostOps1 hostOps1_sub hostOps1_fresh (Wa2 m)),
    .region (reg1 m) ]

/-- @main IS the run of the items. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every unscoped buffer of every core ends at the last boundary's contents `Wa4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wa4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wa0 m c)
        from Pipeline.unscopedBufs_held c (Wa0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wa4 m c b)
    (hfin := fun c s' => by
      iintro ⟨⟨Hh, -⟩, HSI⟩
      unfold StableHlo.held
      imodintro
      iapply (pointsTo_read_all (Pipeline.ucRefs τ sig) (fun b => (((c : Thread nD τ)).1, b)) (Wa4 m c) s')
      isplitl [Hh] <;> iassumption)
    (hQ := fun s h => h)

/-- A buffer neither kernel writes and no host stretch writes ends as launched. -/
theorem Va4_kept (c : Dev nD) (b : Ref sig .tc) (h1 : b ≠ main_v22) (h2 : b ∉ hostOps1_W) (h3 : b ≠ main_v1) (h4 : b ∉ hostOps0_W) :
    Va4 m c b = m ((c : Thread nD τ).loc b) :=
  (Va4_of_ne m c b h1).trans <| (StableHlo.after_of_writes_sub hostOps1 _ hostOps1_writes h2).trans <|
    (Va2_of_ne m c b h3).trans <| (StableHlo.after_of_writes_sub hostOps0 _ hostOps0_writes h4).trans rfl

end Cert.KernelIdeal.Hand

end
-- ==== Proof.Spec.lean ====
/-
  The mathematics of the graph layer, over the extended reals, with every array a curried function of its
  coordinates. Both programs are shown to compute `out`; the tiled forms (`t…`) are what one grid point of
  the second kernel contributes, and the laws at the end regroup the reference's long sums into them.
-/
import Idealize.ShloMosaic.PureOps.Ideal
import Mathlib.Algebra.BigOperators.Fin
import Idealize.ShloMosaic.Lib.ValueIdx

noncomputable section

open scoped BigOperators

namespace Cert.Spec

open Idealize.ShloMosaic

/-- The zero word, the word of 128, the word of the layer norm's epsilon: kept as words, read the same on both sides. -/
abbrev zeroW : EReal := Ideal.ofBits .f32 0x00000000#32
abbrev c128W : EReal := Ideal.ofBits .f32 0x43000000#32
abbrev epsW : EReal := Ideal.ofBits .f32 0x3727C5AC#32

/-- The sixteen argument arrays by coordinates. -/
structure Args where
  x : Fin 2 → Fin 512 → Fin 128 → EReal
  adj : Fin 2 → Fin 512 → Fin 512 → EReal
  Wl : Fin 128 → Fin 128 → EReal
  bl : Fin 128 → EReal
  Wm1 : Fin 128 → Fin 129 → EReal
  bm1 : Fin 128 → EReal
  Wm2 : Fin 128 → Fin 128 → EReal
  bm2 : Fin 128 → EReal
  Watt : Fin 1 → Fin 257 → EReal
  batt : Fin 1 → EReal
  Wo1 : Fin 128 → Fin 128 → EReal
  bo1 : Fin 128 → EReal
  Wo2 : Fin 128 → Fin 128 → EReal
  bo2 : Fin 128 → EReal
  g : Fin 128 → EReal
  be : Fin 128 → EReal

/-- The argument arrays, given as functions of indices of the literal shapes, by coordinates. -/
def ofArrays (x0 : (⟨3, ![2, 512, 128]⟩ : Shape).Idx → EReal) (x1 : (⟨3, ![2, 512, 512]⟩ : Shape).Idx → EReal)
    (x2 : (⟨2, ![128, 128]⟩ : Shape).Idx → EReal) (x3 : (⟨1, ![128]⟩ : Shape).Idx → EReal)
    (x4 : (⟨2, ![128, 129]⟩ : Shape).Idx → EReal) (x5 : (⟨1, ![128]⟩ : Shape).Idx → EReal)
    (x6 : (⟨2, ![128, 128]⟩ : Shape).Idx → EReal) (x7 : (⟨1, ![128]⟩ : Shape).Idx → EReal)
    (x8 : (⟨2, ![1, 257]⟩ : Shape).Idx → EReal) (x9 : (⟨1, ![1]⟩ : Shape).Idx → EReal)
    (x10 : (⟨2, ![128, 128]⟩ : Shape).Idx → EReal) (x11 : (⟨1, ![128]⟩ : Shape).Idx → EReal)
    (x12 : (⟨2, ![128, 128]⟩ : Shape).Idx → EReal) (x13 x14 x15 : (⟨1, ![128]⟩ : Shape).Idx → EReal) : Args where
  x b n d := x0 (ValueIdx.ix3 b n d)
  adj b n m := x1 (ValueIdx.ix3 b n m)
  Wl o d := x2 (ValueIdx.ix2 o d)
  bl o := x3 (ValueIdx.ix1 o)
  Wm1 o e := x4 (ValueIdx.ix2 o e)
  bm1 o := x5 (ValueIdx.ix1 o)
  Wm2 o d := x6 (ValueIdx.ix2 o d)
  bm2 o := x7 (ValueIdx.ix1 o)
  Watt a e := x8 (ValueIdx.ix2 a e)
  batt a := x9 (ValueIdx.ix1 a)
  Wo1 o d := x10 (ValueIdx.ix2 o d)
  bo1 o := x11 (ValueIdx.ix1 o)
  Wo2 o d := x12 (ValueIdx.ix2 o d)
  bo2 o := x13 (ValueIdx.ix1 o)
  g o := x14 (ValueIdx.ix1 o)
  be o := x15 (ValueIdx.ix1 o)

/-! ## One tile: a block of 128 centre rows against a block of 128 neighbour rows -/

/-- First message layer before the relu: the neighbour's features through the first 128 columns, the bias, then the
    edge weight times the last column. -/
def tM1 (hm adjt Wm1hd : Fin 128 → Fin 128 → EReal) (wlast bm1 : Fin 128 → EReal) (r s o : Fin 128) : EReal :=
  ((∑ e : Fin 128, hm s e * Wm1hd o e) + bm1 o) + adjt r s * wlast o

/-- Second message layer. -/
def tM2 (hm adjt Wm1hd : Fin 128 → Fin 128 → EReal) (wlast bm1 : Fin 128 → EReal) (Wm2 : Fin 128 → Fin 128 → EReal)
    (bm2 : Fin 128 → EReal) (r s o : Fin 128) : EReal :=
  (∑ d : Fin 128, max (tM1 hm adjt Wm1hd wlast bm1 r s d) zeroW * Wm2 o d) + bm2 o

/-- The attention logit of the pair (centre r, neighbour s). -/
def tAttPre (hn hm adjt : Fin 128 → Fin 128 → EReal) (wn wm : Fin 128 → EReal) (wadj batt : EReal) (r s : Fin 128) : EReal :=
  (((∑ e : Fin 128, hn r e * wn e) + (∑ e : Fin 128, hm s e * wm e)) + adjt r s * wadj) + batt

/-- What one tile adds to the aggregate of centre row r, feature o. -/
def tContrib (hn hm adjt Wm1hd : Fin 128 → Fin 128 → EReal) (wlast bm1 : Fin 128 → EReal) (Wm2 : Fin 128 → Fin 128 → EReal)
    (bm2 wn wm : Fin 128 → EReal) (wadj batt : EReal) (r o : Fin 128) : EReal :=
  ∑ s : Fin 128, tM2 hm adjt Wm1hd wlast bm1 Wm2 bm2 r s o * Ideal.logistic (tAttPre hn hm adjt wn wm wadj batt r s)

/-! ## One row after the aggregate: output network, residual, layer norm, relu -/

def rA1 (agg : Fin 128 → EReal) (Wo1 : Fin 128 → Fin 128 → EReal) (bo1 : Fin 128 → EReal) (o : Fin 128) : EReal :=
  max ((∑ d : Fin 128, agg d * Wo1 o d) + bo1 o) zeroW

def rU (hrow agg : Fin 128 → EReal) (Wo1 : Fin 128 → Fin 128 → EReal) (bo1 : Fin 128 → EReal)
    (Wo2 : Fin 128 → Fin 128 → EReal) (bo2 : Fin 128 → EReal) (o : Fin 128) : EReal :=
  hrow o + ((∑ d : Fin 128, rA1 agg Wo1 bo1 d * Wo2 o d) + bo2 o)

def rMu (u : Fin 128 → EReal) : EReal := Ideal.div (∑ o : Fin 128, u o) c128W

def rVar (u : Fin 128 → EReal) : EReal := Ideal.div (∑ o : Fin 128, (u o - rMu u) * (u o - rMu u)) c128W

def rOut (u : Fin 128 → EReal) (g be : Fin 128 → EReal) (o : Fin 128) : EReal :=
  max ((((u o - rMu u) * Ideal.rsqrt (rVar u + epsW)) * g o) + be o) zeroW

/-! ## The whole arrays -/

/-- The input linear layer. -/
def h (A : Args) (b : Fin 2) (n : Fin 512) (o : Fin 128) : EReal := (∑ d : Fin 128, A.x b n d * A.Wl o d) + A.bl o

def m1pre (A : Args) (b : Fin 2) (n m : Fin 512) (o : Fin 128) : EReal :=
  ((∑ e : Fin 128, h A b m e * A.Wm1 o (Fin.castSucc e)) + A.bm1 o) + A.adj b n m * A.Wm1 o (Fin.last 128)

def m2 (A : Args) (b : Fin 2) (n m : Fin 512) (o : Fin 128) : EReal :=
  (∑ d : Fin 128, max (m1pre A b n m d) zeroW * A.Wm2 o d) + A.bm2 o

def attPre (A : Args) (b : Fin 2) (n m : Fin 512) : EReal :=
  (((∑ e : Fin 128, h A b n e * A.Watt 0 ⟨e.val, by omega⟩) + (∑ e : Fin 128, h A b m e * A.Watt 0 ⟨128 + e.val, by omega⟩))
    + A.adj b n m * A.Watt 0 ⟨256, by omega⟩) + A.batt 0

def agg (A : Args) (b : Fin 2) (n : Fin 512) (o : Fin 128) : EReal :=
  ∑ m : Fin 512, m2 A b n m o * Ideal.logistic (attPre A b n m)

def u (A : Args) (b : Fin 2) (n : Fin 512) (o : Fin 128) : EReal :=
  rU (h A b n) (agg A b n) A.Wo1 A.bo1 A.Wo2 A.bo2 o

/-- The layer's output. -/
def out (A : Args) (b : Fin 2) (n : Fin 512) (o : Fin 128) : EReal := rOut (u A b n) A.g A.be o

end Cert.Spec

end
-- ==== Proof.Spec2.lean ====
/-
  The second kernel's view of the layer: the input linear layer's result `hh` is an array it is handed, the weights
  come pre-sliced. Its result `out2`, and that at the slices of the original arguments it is the layer's `out`.
-/
import proofs.«135699_j28114855919650_1_alg».proof.Proof.Spec

noncomputable section

open scoped BigOperators

namespace Cert.Spec

open Idealize.ShloMosaic

/-- What the second kernel is handed, by coordinates. -/
structure Args2 where
  hh : Fin 2 → Fin 512 → Fin 128 → EReal
  adj : Fin 2 → Fin 512 → Fin 512 → EReal
  Wm1hd : Fin 128 → Fin 128 → EReal
  wlast : Fin 128 → EReal
  bm1 : Fin 128 → EReal
  Wm2 : Fin 128 → Fin 128 → EReal
  bm2 : Fin 128 → EReal
  wn : Fin 128 → EReal
  wm : Fin 128 → EReal
  wadj : EReal
  batt : EReal
  Wo1 : Fin 128 → Fin 128 → EReal
  bo1 : Fin 128 → EReal
  Wo2 : Fin 128 → Fin 128 → EReal
  bo2 : Fin 128 → EReal
  g : Fin 128 → EReal
  be : Fin 128 → EReal

def m1pre2 (B : Args2) (b : Fin 2) (n m : Fin 512) (o : Fin 128) : EReal :=
  ((∑ e : Fin 128, B.hh b m e * B.Wm1hd o e) + B.bm1 o) + B.adj b n m * B.wlast o

def m22 (B : Args2) (b : Fin 2) (n m : Fin 512) (o : Fin 128) : EReal :=
  (∑ d : Fin 128, max (m1pre2 B b n m d) zeroW * B.Wm2 o d) + B.bm2 o

def attPre2 (B : Args2) (b : Fin 2) (n m : Fin 512) : EReal :=
  (((∑ e : Fin 128, B.hh b n e * B.wn e) + (∑ e : Fin 128, B.hh b m e * B.wm e)) + B.adj b n m * B.wadj) + B.batt

def agg2 (B : Args2) (b : Fin 2) (n : Fin 512) (o : Fin 128) : EReal :=
  ∑ m : Fin 512, m22 B b n m o * Ideal.logistic (attPre2 B b n m)

def out2 (B : Args2) (b : Fin 2) (n : Fin 512) (o : Fin 128) : EReal :=
  rOut (rU (B.hh b n) (agg2 B b n) B.Wo1 B.bo1 B.Wo2 B.bo2) B.g B.be o

/-- The second kernel's arguments as slices of the layer's. -/
def args2Of (A : Args) : Args2 where
  hh := h A
  adj := A.adj
  Wm1hd o e := A.Wm1 o (Fin.castSucc e)
  wlast o := A.Wm1 o (Fin.last 128)
  bm1 := A.bm1
  Wm2 := A.Wm2
  bm2 := A.bm2
  wn e := A.Watt 0 ⟨e.val, by omega⟩
  wm e := A.Watt 0 ⟨128 + e.val, by omega⟩
  wadj := A.Watt 0 ⟨256, by omega⟩
  batt := A.batt 0
  Wo1 := A.Wo1
  bo1 := A.bo1
  Wo2 := A.Wo2
  bo2 := A.bo2
  g := A.g
  be := A.be

/-- At those slices the second kernel's result is the layer's. -/
theorem out2_args2Of (A : Args) (b : Fin 2) (n : Fin 512) (o : Fin 128) : out2 (args2Of A) b n o = out A b n o := rfl

end Cert.Spec

end
-- ==== Proof.Val.Args2V.lean ====
/-
  What the second kernel is handed, read off the contents of the buffers by coordinates.
-/
import proofs.«135699_j28114855919650_1_alg».proof.Proof.KI.D1
import proofs.«135699_j28114855919650_1_alg».proof.Proof.Spec
import proofs.«135699_j28114855919650_1_alg».proof.Proof.Spec2
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Val

open Cert.KernelIdeal Cert.KernelIdeal.Gen Cert.KernelIdeal.Hand
open Idealize.ShloMosaic Idealize.ShloMosaic.ValueIdx Idealize.ShloMosaic.TcCoe

/-- What the second kernel is handed, read off the buffers' contents `V`. -/
def args2V (V : (c : Dev nD) → (b : Ref sig .tc) → Buf (Elt Ideal) ((c : Thread nD τ).loc b)) (c : Dev nD) : Cert.Spec.Args2 where
  hh b n e := (V c main_v1 : S2x512x128.Idx → EReal) (ix3 b n e)
  adj b n m := (V c main_arg1 : S2x512x512.Idx → EReal) (ix3 b n m)
  Wm1hd o e := (V c main_v2 : S128x128.Idx → EReal) (ix2 o e)
  wlast o := (V c main_v5 : S1x128.Idx → EReal) (ix2 0 o)
  bm1 o := (V c main_v6 : S1x128.Idx → EReal) (ix2 0 o)
  Wm2 o d := (V c main_arg6 : S128x128.Idx → EReal) (ix2 o d)
  bm2 o := (V c main_v7 : S1x128.Idx → EReal) (ix2 0 o)
  wn e := (V c main_v10 : S1x128.Idx → EReal) (ix2 0 e)
  wm e := (V c main_v13 : S1x128.Idx → EReal) (ix2 0 e)
  wadj := (V c main_v16 : S1x1.Idx → EReal) (ix2 0 0)
  batt := (V c main_v17 : S1x1.Idx → EReal) (ix2 0 0)
  Wo1 o d := (V c main_arg10 : S128x128.Idx → EReal) (ix2 o d)
  bo1 o := (V c main_v18 : S1x128.Idx → EReal) (ix2 0 o)
  Wo2 o d := (V c main_arg12 : S128x128.Idx → EReal) (ix2 o d)
  bo2 o := (V c main_v19 : S1x128.Idx → EReal) (ix2 0 o)
  g o := (V c main_v20 : S1x128.Idx → EReal) (ix2 0 o)
  be o := (V c main_v21 : S1x128.Idx → EReal) (ix2 0 o)

end Cert.KernelIdeal.Val

end
-- ==== Proof.Val.H.lean ====
/-
  The first kernel (the input linear layer) on the value side. Its output block at a grid point is row by row the
  input block against the rows of the weight, plus the bias; and the array it leaves after both grid points is, entry
  (b, n, o), row n of batch entry b of the input against row o of the weight, plus the bias at o.
-/
import proofs.«135699_j28114855919650_1_alg».proof.Proof.KI.D0
import proofs.«135699_j28114855919650_1_alg».proof.Proof.KI.D1
import proofs.«135699_j28114855919650_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Val

open Cert.KernelIdeal Cert.KernelIdeal.Gen Cert.KernelIdeal.Hand
open Idealize.ShloMosaic Idealize.ShloMosaic.ValueIdx
open Idealize.ShloMosaic.TcCoe Idealize.SL.Sem
open Idealize.ShloMosaic.Pipeline (Dat)

/-! ## The first kernel's output block -/

theorem zeros3 : (![0, 0, 0] : Fin 3 → Nat) = fun _ => 0 :=
  funext fun a => match a with | ⟨0, _⟩ => rfl | ⟨1, _⟩ => rfl | ⟨2, _⟩ => rfl

theorem zeros2 : (![0, 0] : Fin 2 → Nat) = fun _ => 0 :=
  funext fun a => match a with | ⟨0, _⟩ => rfl | ⟨1, _⟩ => rfl

/-- The body loads its three whole blocks and stores one whole block: the output block is the payload of the blocks. -/
theorem out0_3_eq (x0 : Vec Ideal S1x512x128 .f32) (x1 : Vec Ideal S128x128 .f32) (x2 : Vec Ideal S1x128 .f32) :
    out0_3 (F := Ideal) x0 x1 x2 = k0_pay1 (F := Ideal) x0 x1 x2 := by
  unfold out0_3
  rw [View.canon_unit_zero zeros3]
  simp only [View.ld_unit_zero (S := S1x512x128) zeros3, View.ld_unit_zero (S := S128x128) zeros2,
    View.ld_unit_zero (S := S1x128) zeros2]

/-! ## The matmul's index maps: rows of the left operand against columns of the right -/

theorem lhs_lin_0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem lhs_lin_1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q
theorem rhs_lin_0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q
theorem rhs_lin_1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

/-- The product of a [512,128] matrix and a [128,128] matrix into zeros: entry (n, o) is row n against column o. -/
theorem lin_matmul_apply (a : FVec Ideal S512x128 .f32) (w : FVec Ideal S128x128 .f32) (n : Fin 512) (o : Fin 128) :
    matmul dot_S512x128_S128x128_S512x128_1_0_0_1_n_n none a w (constant S512x128 .f32 0x00000000#32) (ix2 n o)
      = ∑ d : Fin 128, a (ix2 n d) * w (ix2 d o) := by
  refine (Ideal.matmul_constant_zero_apply dot_S512x128_S128x128_S512x128_1_0_0_1_n_n none a w (ix2 n o)).trans ?_
  rw [← Equiv.sum_comp (ValueIdx.contrEquiv1 dot_S512x128_S128x128_S512x128_1_0_0_1_n_n 128 rfl rfl).symm]
  refine Finset.sum_congr rfl fun k _ => ?_
  have hk := ValueIdx.contrEquiv1_symm_val dot_S512x128_S128x128_S512x128_1_0_0_1_n_n 128 rfl rfl k
  have el : dot_S512x128_S128x128_S512x128_1_0_0_1_n_n.lhsIdx (ix2 n o) ((ValueIdx.contrEquiv1 dot_S512x128_S128x128_S512x128_1_0_0_1_n_n 128 rfl rfl).symm k) = ix2 n k := funext fun ax => Fin.ext (by
    match ax with
    | ⟨0, _⟩ => exact lhs_lin_0 _ _
    | ⟨1, _⟩ => exact (lhs_lin_1 _ _).trans hk)
  have er : dot_S512x128_S128x128_S512x128_1_0_0_1_n_n.rhsIdx (ix2 n o) ((ValueIdx.contrEquiv1 dot_S512x128_S128x128_S512x128_1_0_0_1_n_n 128 rfl rfl).symm k) = ix2 k o := funext fun ax => Fin.ext (by
    match ax with
    | ⟨0, _⟩ => exact (rhs_lin_0 _ _).trans hk
    | ⟨1, _⟩ => exact rhs_lin_1 _ _)
  rw [el, er]

/-- The payload at (0, n, o): row n of the input block against row o of the weight, plus the bias at o. -/
theorem lin_pay1_apply (x0 : Vec Ideal S1x512x128 .f32) (x1 : Vec Ideal S128x128 .f32) (x2 : Vec Ideal S1x128 .f32) (n : Fin 512) (o : Fin 128) :
    k0_pay1 (F := Ideal) x0 x1 x2 (ix3 0 n o) = (∑ d : Fin 128, x0 (ix3 0 n d) * x1 (ix2 o d)) + x2 (ix2 0 o) := by
  unfold k0_pay1
  refine (shapeCast_ab_1ab_apply _ _ 0 n o).trans ?_
  refine (addf_apply _ _ _).trans ?_
  refine congrArg₂ (· + ·) ?_ ?_
  · refine (lin_matmul_apply _ _ n o).trans ?_
    refine Finset.sum_congr rfl fun d _ => ?_
    refine congrArg₂ (· * ·) ?_ ?_
    · exact shapeCast_1ab_ab_apply x0 _ n d
    · exact transpose_ix2_apply x1 _ d o
  · refine (broadcastTo_1b_ab_apply _ _ n o).trans ?_
    rw [shapeCast_self]

/-- Entry (0, n, o) of the first kernel's output block. -/
theorem out0_3_apply (x0 : Vec Ideal S1x512x128 .f32) (x1 : Vec Ideal S128x128 .f32) (x2 : Vec Ideal S1x128 .f32) (n : Fin 512) (o : Fin 128) :
    out0_3 (F := Ideal) x0 x1 x2 (ix3 0 n o) = (∑ d : Fin 128, x0 (ix3 0 n d) * x1 (ix2 o d)) + x2 (ix2 0 o) :=
  (congrFun (out0_3_eq x0 x1 x2) (ix3 0 n o)).trans (lin_pay1_apply x0 x1 x2 n o)

/-! ## From the blocks to the array -/

variable (V : (c : Dev nD) → (b : Ref sig .tc) → Buf (Elt Ideal) ((c : Thread nD τ).loc b))

/-- The three arrays the first kernel reads, as the kernel finds them, at their literal types. -/
abbrev xArr (c : Dev nD) : S2x512x128.Idx → EReal := V c main_arg0
abbrev wArr (c : Dev nD) : S128x128.Idx → EReal := V c main_arg2
abbrev bArr (c : Dev nD) : S1x128.Idx → EReal := V c main_v0

/-- The linear layer over whole arrays: entry (b, n, o) is row n of batch entry b of `a0` against row o of `a2`, plus
    the bias `b0` at o. -/
def linFun (a0 : S2x512x128.Idx → EReal) (a2 : S128x128.Idx → EReal) (b0 : S1x128.Idx → EReal) : S2x512x128.Idx → EReal :=
  fun i => (∑ d : Fin 128, a0 (ix3 (⟨(i 0).val, (i 0).isLt⟩ : Fin 2) (⟨(i 1).val, (i 1).isLt⟩ : Fin 512) d)
      * a2 (ix2 (⟨(i 2).val, (i 2).isLt⟩ : Fin 128) d)) + b0 (ix2 (0 : Fin 1) (⟨(i 2).val, (i 2).isLt⟩ : Fin 128))

theorem linFun_apply (a0 : S2x512x128.Idx → EReal) (a2 : S128x128.Idx → EReal) (b0 : S1x128.Idx → EReal)
    (b : Fin 2) (n : Fin 512) (o : Fin 128) :
    linFun a0 a2 b0 (ix3 b n o) = (∑ d : Fin 128, a0 (ix3 b n d) * a2 (ix2 o d)) + b0 (ix2 0 o) := rfl

/-- The index maps over the two grid points: the input block and the output block move with the batch entry, the
    weight and the bias stay. -/
theorem idx0 : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

theorem pt0_lt (t : Fin cfg0.N) : t.val < 2 := by
  have h : cfg0.N = 2 := N_0
  have := t.isLt
  omega

/-- Entry (0, n, d) of the input block at point `t` is entry (t, n, d) of the input. -/
theorem blk0_0 (c : Dev nD) (t : Fin cfg0.N) (n : Fin 512) (d : Fin 128) :
    iblk0 (F := Ideal) V c 0 t (ix3 0 n d) = (V c main_arg0 : S2x512x128.Idx → EReal) (ix3 ⟨t.val, pt0_lt t⟩ n d) := by
  obtain ⟨e0, e1, e2, -⟩ := idx0 t
  show (V c main_arg0 : S2x512x128.Idx → EReal) (((cfg0.win 0).blk t).view.emb (ix3 (0 : Fin 1) n d)) = _
  refine congrArg (V c main_arg0 : S2x512x128.Idx → EReal) (funext fun a => Fin.ext ?_)
  match a with
  | ⟨0, _⟩ => show win0_0.index t (0 : Fin 3) * 1 + 1 * (0 : ℕ) = t.val; omega
  | ⟨1, _⟩ => show win0_0.index t (1 : Fin 3) * 512 + 1 * n.val = n.val; omega
  | ⟨2, _⟩ => show win0_0.index t (2 : Fin 3) * 128 + 1 * d.val = d.val; omega

/-- The weight's block is the weight. -/
theorem blk0_1 (c : Dev nD) (t : Fin cfg0.N) (j : S128x128.Idx) :
    iblk0 (F := Ideal) V c 1 t j = (V c main_arg2 : S128x128.Idx → EReal) j := by
  obtain ⟨-, -, -, e0, e1, -⟩ := idx0 t
  show (V c main_arg2 : S128x128.Idx → EReal) (((cfg0.win 1).blk t).view.emb j) = _
  refine congrArg (V c main_arg2 : S128x128.Idx → EReal) (funext fun a => Fin.ext ?_)
  match a with
  | ⟨0, _⟩ => show win0_1.index t (0 : Fin 2) * 128 + 1 * (j 0).val = (j 0).val; omega
  | ⟨1, _⟩ => show win0_1.index t (1 : Fin 2) * 128 + 1 * (j 1).val = (j 1).val; omega

/-- The bias's block is the bias. -/
theorem blk0_2 (c : Dev nD) (t : Fin cfg0.N) (j : S1x128.Idx) :
    iblk0 (F := Ideal) V c 2 t j = (V c main_v0 : S1x128.Idx → EReal) j := by
  obtain ⟨-, -, -, -, -, e0, e1, -⟩ := idx0 t
  show (V c main_v0 : S1x128.Idx → EReal) (((cfg0.win 2).blk t).view.emb j) = _
  refine congrArg (V c main_v0 : S1x128.Idx → EReal) (funext fun a => Fin.ext ?_)
  match a with
  | ⟨0, _⟩ => show win0_2.index t (0 : Fin 2) * 1 + 1 * (j 0).val = (j 0).val; omega
  | ⟨1, _⟩ => show win0_2.index t (1 : Fin 2) * 128 + 1 * (j 1).val = (j 1).val; omega

/-- Entry (0, n, o) of the output's block at point `t` sits at (t, n, o) of the output array. -/
theorem emb0_3 (t : Fin cfg0.N) (n : Fin 512) (o : Fin 128) :
    (((cfg0.win 3).blk t).view.emb (ix3 (0 : Fin 1) n o) : S2x512x128.Idx) = ix3 ⟨t.val, pt0_lt t⟩ n o := by
  obtain ⟨-, -, -, -, -, -, -, e0, e1, e2⟩ := idx0 t
  refine funext fun a => Fin.ext ?_
  match a with
  | ⟨0, _⟩ => show win0_3.index t (0 : Fin 3) * 1 + 1 * (0 : ℕ) = t.val; omega
  | ⟨1, _⟩ => show win0_3.index t (1 : Fin 3) * 512 + 1 * n.val = n.val; omega
  | ⟨2, _⟩ => show win0_3.index t (2 : Fin 3) * 128 + 1 * o.val = o.val; omega

/-- What point `t` writes back is block `t` of the linear layer of the arrays as the kernel finds them. -/
theorem flushed0_eq (c : Dev nD) (t : Fin cfg0.N) :
    (dat0 (F := Ideal) V c).flushed 3 t
      = ((cfg0.win 3).blk t).view.read (Elt Ideal) (linFun (V c main_arg0) (V c main_arg2) (V c main_v0)) := by
  show (cfg0.win 3).cut (grid0.coords t) ((dat0 (F := Ideal) V c).after 3 t) = _
  rw [after0_3]
  refine funext fun (j : S1x512x128.Idx) => ?_
  obtain ⟨u, n, o, rfl⟩ : ∃ (u : Fin 1) (n : Fin 512) (o : Fin 128), j = ix3 u n o := ⟨j 0, j 1, j 2, eq_ix3 j⟩
  obtain rfl : u = 0 := Subsingleton.elim _ _
  show out0_3 (F := Ideal) (iblk0 (F := Ideal) V c 0 t) (iblk0 (F := Ideal) V c 1 t) (iblk0 (F := Ideal) V c 2 t) (ix3 (0 : Fin 1) n o)
    = linFun (V c main_arg0) (V c main_arg2) (V c main_v0) (((cfg0.win 3).blk t).view.emb (ix3 (0 : Fin 1) n o))
  refine (out0_3_apply (iblk0 (F := Ideal) V c 0 t) (iblk0 (F := Ideal) V c 1 t) (iblk0 (F := Ideal) V c 2 t) n o).trans ?_
  refine Eq.trans ?_ (congrArg (linFun (V c main_arg0) (V c main_arg2) (V c main_v0)) (emb0_3 t n o)).symm
  refine Eq.trans ?_ (linFun_apply (V c main_arg0) (V c main_arg2) (V c main_v0) ⟨t.val, pt0_lt t⟩ n o).symm
  refine congrArg₂ (· + ·) (Finset.sum_congr rfl fun d _ => congrArg₂ (· * ·) ?_ ?_) ?_
  · exact blk0_0 V c t n d
  · exact blk0_1 V c t (ix2 o d)
  · exact blk0_2 V c t (ix2 0 o)

/-- An index of the output array is in point `t`'s block iff each coordinate is in the block's range on its axis. -/
theorem mem_blk0 (t : Fin cfg0.N) (i : S2x512x128.Idx) :
    i ∈ ((cfg0.win 3).blk t).view.set ↔ ∀ a : Fin 3, win0_3.index t a * S1x512x128.size a ≤ (i a).val
      ∧ (i a).val < win0_3.index t a * S1x512x128.size a + S1x512x128.size a := by
  show i ∈ ((View.whole main_v1).slice (win0_3.rect t)).set ↔ _
  rw [View.set_slice_whole, Rect.mem_set_unit]
  exact Iff.rfl

/-- Batch entry b of the output array is the block of grid point b. -/
theorem cover0 (i : S2x512x128.Idx) : ∃ t : Fin cfg0.N, (cfg0.win 3).flush t = true ∧ i ∈ ((cfg0.win 3).blk t).view.set := by
  have h0 : (i 0).val < 2 := (i 0).isLt
  have h1 : (i 1).val < 512 := (i 1).isLt
  have h2 : (i 2).val < 128 := (i 2).isLt
  have hlt : (i 0).val < cfg0.N := by rw [show cfg0.N = 2 from N_0]; exact h0
  obtain ⟨t, ht⟩ : ∃ t : Fin cfg0.N, t.val = (i 0).val := ⟨⟨(i 0).val, hlt⟩, rfl⟩
  refine ⟨t, flush0_3 t, ?_⟩
  obtain ⟨-, -, -, -, -, -, -, e0, e1, e2⟩ := idx0 t
  rw [mem_blk0]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 512 ≤ (i 1).val ∧ (i 1).val < win0_3.index t (1 : Fin 3) * 512 + 512
    omega
  | ⟨2, _⟩ =>
    show win0_3.index t (2 : Fin 3) * 128 ≤ (i 2).val ∧ (i 2).val < win0_3.index t (2 : Fin 3) * 128 + 128
    omega

/-- The output array after both grid points is the linear layer of the arrays as the kernel finds them. -/
theorem final0 (c : Dev nD) :
    (dat0 (F := Ideal) V c).arrAt 3 cfg0.N = linFun (V c main_arg0) (V c main_arg2) (V c main_v0) :=
  (dat0 (F := Ideal) V c).arrAt_eq_of_cover 3 (linFun (V c main_arg0) (V c main_arg2) (V c main_v0))
    (fun t _ => flushed0_eq V c t) cover0

/-- Entry (b, n, o) of the array the first kernel leaves. -/
theorem h_final (c : Dev nD) (b : Fin 2) (n : Fin 512) (o : Fin 128) :
    (dat0 (F := Ideal) V c).arrAt 3 cfg0.N (ix3 b n o)
      = (∑ d : Fin 128, xArr V c (ix3 b n d) * wArr V c (ix2 o d)) + bArr V c (ix2 0 o) :=
  (congrFun (final0 V c) (ix3 b n o)).trans (linFun_apply (V c main_arg0) (V c main_arg2) (V c main_v0) b n o)

end Cert.KernelIdeal.Val

end
-- ==== Proof.Val.Blk1.lean ====
/-
  The second kernel's blocks as entries of the arrays. Its grid is 2 x 4 x 4 (batch entry, centre tile, neighbour tile),
  walked in row-major order. Window 0 is the 128 centre rows of the hidden features, window 1 the 128 neighbour rows,
  window 2 the 128 x 128 adjacency tile between them; windows 3 to 17 are the small parameter arrays, whole at every point.
  A block's coordinate in its array is the block index times the block size plus the coordinate inside the block.
-/
import proofs.«135699_j28114855919650_1_alg».proof.Proof.KI.D1
import proofs.«135699_j28114855919650_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Val

open Cert.KernelIdeal Cert.KernelIdeal.Gen Cert.KernelIdeal.Hand
open Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The grid point of the second kernel at batch entry `b`, centre tile `ni`, neighbour tile `mi`: the grid is walked in
    row-major order, the neighbour tile fastest. -/
def pt (b : Fin 2) (ni mi : Fin 4) : Fin cfg1.N :=
  ⟨b.val * 16 + ni.val * 4 + mi.val, by
    have h : cfg1.N = 32 := N_1
    have hb := b.isLt; have hn := ni.isLt; have hm := mi.isLt
    omega⟩

theorem pt_val (b : Fin 2) (ni mi : Fin 4) : (pt b ni mi).val = b.val * 16 + ni.val * 4 + mi.val := rfl

/-! ## The index maps over the grid -/

/-- The centre block of the hidden features moves with the batch entry and the centre tile. -/
theorem idx1_0 : ∀ t : Fin cfg1.N, win1_0.index t (0 : Fin 3) = t.val / 16 ∧ win1_0.index t (1 : Fin 3) = t.val / 4 % 4
    ∧ win1_0.index t (2 : Fin 3) = 0 :=
  (by decide +kernel : ∀ t : Fin grid1.N, _)

/-- The neighbour block of the hidden features moves with the batch entry and the neighbour tile. -/
theorem idx1_1 : ∀ t : Fin cfg1.N, win1_1.index t (0 : Fin 3) = t.val / 16 ∧ win1_1.index t (1 : Fin 3) = t.val % 4
    ∧ win1_1.index t (2 : Fin 3) = 0 :=
  (by decide +kernel : ∀ t : Fin grid1.N, _)

/-- The adjacency tile moves with all three grid coordinates. -/
theorem idx1_2 : ∀ t : Fin cfg1.N, win1_2.index t (0 : Fin 3) = t.val / 16 ∧ win1_2.index t (1 : Fin 3) = t.val / 4 % 4
    ∧ win1_2.index t (2 : Fin 3) = t.val % 4 :=
  (by decide +kernel : ∀ t : Fin grid1.N, _)

theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 2) = 0 ∧ win1_8.index t (1 : Fin 2) = 0 :=
  (by decide +kernel : ∀ t : Fin grid1.N, _)
theorem idx1_9 : ∀ t : Fin cfg1.N, win1_9.index t (0 : Fin 2) = 0 ∧ win1_9.index t (1 : Fin 2) = 0 :=
  (by decide +kernel : ∀ t : Fin grid1.N, _)
theorem idx1_10 : ∀ t : Fin cfg1.N, win1_10.index t (0 : Fin 2) = 0 ∧ win1_10.index t (1 : Fin 2) = 0 :=
  (by decide +kernel : ∀ t : Fin grid1.N, _)
theorem idx1_11 : ∀ t : Fin cfg1.N, win1_11.index t (0 : Fin 2) = 0 ∧ win1_11.index t (1 : Fin 2) = 0 :=
  (by decide +kernel : ∀ t : Fin grid1.N, _)
theorem idx1_12 : ∀ t : Fin cfg1.N, win1_12.index t (0 : Fin 2) = 0 ∧ win1_12.index t (1 : Fin 2) = 0 :=
  (by decide +kernel : ∀ t : Fin grid1.N, _)
theorem idx1_13 : ∀ t : Fin cfg1.N, win1_13.index t (0 : Fin 2) = 0 ∧ win1_13.index t (1 : Fin 2) = 0 :=
  (by decide +kernel : ∀ t : Fin grid1.N, _)
theorem idx1_14 : ∀ t : Fin cfg1.N, win1_14.index t (0 : Fin 2) = 0 ∧ win1_14.index t (1 : Fin 2) = 0 :=
  (by decide +kernel : ∀ t : Fin grid1.N, _)
theorem idx1_15 : ∀ t : Fin cfg1.N, win1_15.index t (0 : Fin 2) = 0 ∧ win1_15.index t (1 : Fin 2) = 0 :=
  (by decide +kernel : ∀ t : Fin grid1.N, _)
theorem idx1_16 : ∀ t : Fin cfg1.N, win1_16.index t (0 : Fin 2) = 0 ∧ win1_16.index t (1 : Fin 2) = 0 :=
  (by decide +kernel : ∀ t : Fin grid1.N, _)
theorem idx1_17 : ∀ t : Fin cfg1.N, win1_17.index t (0 : Fin 2) = 0 ∧ win1_17.index t (1 : Fin 2) = 0 :=
  (by decide +kernel : ∀ t : Fin grid1.N, _)

/-! ## The three moving blocks -/

/-- Entry (r, e) of the centre block is row `ni * 128 + r` of batch entry `b` of the hidden features. -/
theorem blk1_0 (c : Dev nD) (b : Fin 2) (ni mi : Fin 4) (r e : Fin 128) :
    iblk1 (F := Ideal) V c 0 (pt b ni mi) (ix3 0 r e)
      = (V c main_v1 : S2x512x128.Idx → EReal) (ix3 b ⟨ni.val * 128 + r.val, by omega⟩ e) := by
  obtain ⟨e0, e1, e2⟩ := idx1_0 (pt b ni mi)
  have hp := pt_val b ni mi
  have hb := b.isLt; have hn := ni.isLt; have hm := mi.isLt
  show (V c main_v1 : S2x512x128.Idx → EReal) (((cfg1.win 0).blk (pt b ni mi)).view.emb (ix3 (0 : Fin 1) r e)) = _
  refine congrArg (V c main_v1 : S2x512x128.Idx → EReal) (funext fun a => Fin.ext ?_)
  match a with
  | ⟨0, _⟩ => show win1_0.index (pt b ni mi) (0 : Fin 3) * 1 + 1 * (0 : ℕ) = b.val; omega
  | ⟨1, _⟩ => show win1_0.index (pt b ni mi) (1 : Fin 3) * 128 + 1 * r.val = ni.val * 128 + r.val; omega
  | ⟨2, _⟩ => show win1_0.index (pt b ni mi) (2 : Fin 3) * 128 + 1 * e.val = e.val; omega

/-- Entry (s, e) of the neighbour block is row `mi * 128 + s` of batch entry `b` of the hidden features. -/
theorem blk1_1 (c : Dev nD) (b : Fin 2) (ni mi : Fin 4) (s e : Fin 128) :
    iblk1 (F := Ideal) V c 1 (pt b ni mi) (ix3 0 s e)
      = (V c main_v1 : S2x512x128.Idx → EReal) (ix3 b ⟨mi.val * 128 + s.val, by omega⟩ e) := by
  obtain ⟨e0, e1, e2⟩ := idx1_1 (pt b ni mi)
  have hp := pt_val b ni mi
  have hb := b.isLt; have hn := ni.isLt; have hm := mi.isLt
  show (V c main_v1 : S2x512x128.Idx → EReal) (((cfg1.win 1).blk (pt b ni mi)).view.emb (ix3 (0 : Fin 1) s e)) = _
  refine congrArg (V c main_v1 : S2x512x128.Idx → EReal) (funext fun a => Fin.ext ?_)
  match a with
  | ⟨0, _⟩ => show win1_1.index (pt b ni mi) (0 : Fin 3) * 1 + 1 * (0 : ℕ) = b.val; omega
  | ⟨1, _⟩ => show win1_1.index (pt b ni mi) (1 : Fin 3) * 128 + 1 * s.val = mi.val * 128 + s.val; omega
  | ⟨2, _⟩ => show win1_1.index (pt b ni mi) (2 : Fin 3) * 128 + 1 * e.val = e.val; omega

/-- Entry (r, s) of the adjacency tile is entry (`ni * 128 + r`, `mi * 128 + s`) of batch entry `b` of the adjacency. -/
theorem blk1_2 (c : Dev nD) (b : Fin 2) (ni mi : Fin 4) (r s : Fin 128) :
    iblk1 (F := Ideal) V c 2 (pt b ni mi) (ix3 0 r s)
      = (V c main_arg1 : S2x512x512.Idx → EReal) (ix3 b ⟨ni.val * 128 + r.val, by omega⟩ ⟨mi.val * 128 + s.val, by omega⟩) := by
  obtain ⟨e0, e1, e2⟩ := idx1_2 (pt b ni mi)
  have hp := pt_val b ni mi
  have hb := b.isLt; have hn := ni.isLt; have hm := mi.isLt
  show (V c main_arg1 : S2x512x512.Idx → EReal) (((cfg1.win 2).blk (pt b ni mi)).view.emb (ix3 (0 : Fin 1) r s)) = _
  refine congrArg (V c main_arg1 : S2x512x512.Idx → EReal) (funext fun a => Fin.ext ?_)
  match a with
  | ⟨0, _⟩ => show win1_2.index (pt b ni mi) (0 : Fin 3) * 1 + 1 * (0 : ℕ) = b.val; omega
  | ⟨1, _⟩ => show win1_2.index (pt b ni mi) (1 : Fin 3) * 128 + 1 * r.val = ni.val * 128 + r.val; omega
  | ⟨2, _⟩ => show win1_2.index (pt b ni mi) (2 : Fin 3) * 128 + 1 * s.val = mi.val * 128 + s.val; omega

/-! ## The parameter windows: each is its whole array at every grid point -/

theorem blk1_3 (c : Dev nD) (t : Fin cfg1.N) (j : S128x128.Idx) :
    iblk1 (F := Ideal) V c 3 t j = (V c main_v2 : S128x128.Idx → EReal) j := by
  obtain ⟨e0, e1⟩ := idx1_3 t
  show (V c main_v2 : S128x128.Idx → EReal) (((cfg1.win 3).blk t).view.emb j) = _
  refine congrArg (V c main_v2 : S128x128.Idx → EReal) (funext fun a => Fin.ext ?_)
  match a with
  | ⟨0, _⟩ => show win1_3.index t (0 : Fin 2) * 128 + 1 * (j 0).val = (j 0).val; omega
  | ⟨1, _⟩ => show win1_3.index t (1 : Fin 2) * 128 + 1 * (j 1).val = (j 1).val; omega

theorem blk1_4 (c : Dev nD) (t : Fin cfg1.N) (j : S1x128.Idx) :
    iblk1 (F := Ideal) V c 4 t j = (V c main_v5 : S1x128.Idx → EReal) j := by
  obtain ⟨e0, e1⟩ := idx1_4 t
  show (V c main_v5 : S1x128.Idx → EReal) (((cfg1.win 4).blk t).view.emb j) = _
  refine congrArg (V c main_v5 : S1x128.Idx → EReal) (funext fun a => Fin.ext ?_)
  match a with
  | ⟨0, _⟩ => show win1_4.index t (0 : Fin 2) * 1 + 1 * (j 0).val = (j 0).val; omega
  | ⟨1, _⟩ => show win1_4.index t (1 : Fin 2) * 128 + 1 * (j 1).val = (j 1).val; omega

theorem blk1_5 (c : Dev nD) (t : Fin cfg1.N) (j : S1x128.Idx) :
    iblk1 (F := Ideal) V c 5 t j = (V c main_v6 : S1x128.Idx → EReal) j := by
  obtain ⟨e0, e1⟩ := idx1_5 t
  show (V c main_v6 : S1x128.Idx → EReal) (((cfg1.win 5).blk t).view.emb j) = _
  refine congrArg (V c main_v6 : S1x128.Idx → EReal) (funext fun a => Fin.ext ?_)
  match a with
  | ⟨0, _⟩ => show win1_5.index t (0 : Fin 2) * 1 + 1 * (j 0).val = (j 0).val; omega
  | ⟨1, _⟩ => show win1_5.index t (1 : Fin 2) * 128 + 1 * (j 1).val = (j 1).val; omega

theorem blk1_6 (c : Dev nD) (t : Fin cfg1.N) (j : S128x128.Idx) :
    iblk1 (F := Ideal) V c 6 t j = (V c main_arg6 : S128x128.Idx → EReal) j := by
  obtain ⟨e0, e1⟩ := idx1_6 t
  show (V c main_arg6 : S128x128.Idx → EReal) (((cfg1.win 6).blk t).view.emb j) = _
  refine congrArg (V c main_arg6 : S128x128.Idx → EReal) (funext fun a => Fin.ext ?_)
  match a with
  | ⟨0, _⟩ => show win1_6.index t (0 : Fin 2) * 128 + 1 * (j 0).val = (j 0).val; omega
  | ⟨1, _⟩ => show win1_6.index t (1 : Fin 2) * 128 + 1 * (j 1).val = (j 1).val; omega

theorem blk1_7 (c : Dev nD) (t : Fin cfg1.N) (j : S1x128.Idx) :
    iblk1 (F := Ideal) V c 7 t j = (V c main_v7 : S1x128.Idx → EReal) j := by
  obtain ⟨e0, e1⟩ := idx1_7 t
  show (V c main_v7 : S1x128.Idx → EReal) (((cfg1.win 7).blk t).view.emb j) = _
  refine congrArg (V c main_v7 : S1x128.Idx → EReal) (funext fun a => Fin.ext ?_)
  match a with
  | ⟨0, _⟩ => show win1_7.index t (0 : Fin 2) * 1 + 1 * (j 0).val = (j 0).val; omega
  | ⟨1, _⟩ => show win1_7.index t (1 : Fin 2) * 128 + 1 * (j 1).val = (j 1).val; omega

theorem blk1_8 (c : Dev nD) (t : Fin cfg1.N) (j : S1x128.Idx) :
    iblk1 (F := Ideal) V c 8 t j = (V c main_v10 : S1x128.Idx → EReal) j := by
  obtain ⟨e0, e1⟩ := idx1_8 t
  show (V c main_v10 : S1x128.Idx → EReal) (((cfg1.win 8).blk t).view.emb j) = _
  refine congrArg (V c main_v10 : S1x128.Idx → EReal) (funext fun a => Fin.ext ?_)
  match a with
  | ⟨0, _⟩ => show win1_8.index t (0 : Fin 2) * 1 + 1 * (j 0).val = (j 0).val; omega
  | ⟨1, _⟩ => show win1_8.index t (1 : Fin 2) * 128 + 1 * (j 1).val = (j 1).val; omega

theorem blk1_9 (c : Dev nD) (t : Fin cfg1.N) (j : S1x128.Idx) :
    iblk1 (F := Ideal) V c 9 t j = (V c main_v13 : S1x128.Idx → EReal) j := by
  obtain ⟨e0, e1⟩ := idx1_9 t
  show (V c main_v13 : S1x128.Idx → EReal) (((cfg1.win 9).blk t).view.emb j) = _
  refine congrArg (V c main_v13 : S1x128.Idx → EReal) (funext fun a => Fin.ext ?_)
  match a with
  | ⟨0, _⟩ => show win1_9.index t (0 : Fin 2) * 1 + 1 * (j 0).val = (j 0).val; omega
  | ⟨1, _⟩ => show win1_9.index t (1 : Fin 2) * 128 + 1 * (j 1).val = (j 1).val; omega

theorem blk1_10 (c : Dev nD) (t : Fin cfg1.N) (j : S1x1.Idx) :
    iblk1 (F := Ideal) V c 10 t j = (V c main_v16 : S1x1.Idx → EReal) j := by
  obtain ⟨e0, e1⟩ := idx1_10 t
  show (V c main_v16 : S1x1.Idx → EReal) (((cfg1.win 10).blk t).view.emb j) = _
  refine congrArg (V c main_v16 : S1x1.Idx → EReal) (funext fun a => Fin.ext ?_)
  match a with
  | ⟨0, _⟩ => show win1_10.index t (0 : Fin 2) * 1 + 1 * (j 0).val = (j 0).val; omega
  | ⟨1, _⟩ => show win1_10.index t (1 : Fin 2) * 1 + 1 * (j 1).val = (j 1).val; omega

theorem blk1_11 (c : Dev nD) (t : Fin cfg1.N) (j : S1x1.Idx) :
    iblk1 (F := Ideal) V c 11 t j = (V c main_v17 : S1x1.Idx → EReal) j := by
  obtain ⟨e0, e1⟩ := idx1_11 t
  show (V c main_v17 : S1x1.Idx → EReal) (((cfg1.win 11).blk t).view.emb j) = _
  refine congrArg (V c main_v17 : S1x1.Idx → EReal) (funext fun a => Fin.ext ?_)
  match a with
  | ⟨0, _⟩ => show win1_11.index t (0 : Fin 2) * 1 + 1 * (j 0).val = (j 0).val; omega
  | ⟨1, _⟩ => show win1_11.index t (1 : Fin 2) * 1 + 1 * (j 1).val = (j 1).val; omega

theorem blk1_12 (c : Dev nD) (t : Fin cfg1.N) (j : S128x128.Idx) :
    iblk1 (F := Ideal) V c 12 t j = (V c main_arg10 : S128x128.Idx → EReal) j := by
  obtain ⟨e0, e1⟩ := idx1_12 t
  show (V c main_arg10 : S128x128.Idx → EReal) (((cfg1.win 12).blk t).view.emb j) = _
  refine congrArg (V c main_arg10 : S128x128.Idx → EReal) (funext fun a => Fin.ext ?_)
  match a with
  | ⟨0, _⟩ => show win1_12.index t (0 : Fin 2) * 128 + 1 * (j 0).val = (j 0).val; omega
  | ⟨1, _⟩ => show win1_12.index t (1 : Fin 2) * 128 + 1 * (j 1).val = (j 1).val; omega

theorem blk1_13 (c : Dev nD) (t : Fin cfg1.N) (j : S1x128.Idx) :
    iblk1 (F := Ideal) V c 13 t j = (V c main_v18 : S1x128.Idx → EReal) j := by
  obtain ⟨e0, e1⟩ := idx1_13 t
  show (V c main_v18 : S1x128.Idx → EReal) (((cfg1.win 13).blk t).view.emb j) = _
  refine congrArg (V c main_v18 : S1x128.Idx → EReal) (funext fun a => Fin.ext ?_)
  match a with
  | ⟨0, _⟩ => show win1_13.index t (0 : Fin 2) * 1 + 1 * (j 0).val = (j 0).val; omega
  | ⟨1, _⟩ => show win1_13.index t (1 : Fin 2) * 128 + 1 * (j 1).val = (j 1).val; omega

theorem blk1_14 (c : Dev nD) (t : Fin cfg1.N) (j : S128x128.Idx) :
    iblk1 (F := Ideal) V c 14 t j = (V c main_arg12 : S128x128.Idx → EReal) j := by
  obtain ⟨e0, e1⟩ := idx1_14 t
  show (V c main_arg12 : S128x128.Idx → EReal) (((cfg1.win 14).blk t).view.emb j) = _
  refine congrArg (V c main_arg12 : S128x128.Idx → EReal) (funext fun a => Fin.ext ?_)
  match a with
  | ⟨0, _⟩ => show win1_14.index t (0 : Fin 2) * 128 + 1 * (j 0).val = (j 0).val; omega
  | ⟨1, _⟩ => show win1_14.index t (1 : Fin 2) * 128 + 1 * (j 1).val = (j 1).val; omega

theorem blk1_15 (c : Dev nD) (t : Fin cfg1.N) (j : S1x128.Idx) :
    iblk1 (F := Ideal) V c 15 t j = (V c main_v19 : S1x128.Idx → EReal) j := by
  obtain ⟨e0, e1⟩ := idx1_15 t
  show (V c main_v19 : S1x128.Idx → EReal) (((cfg1.win 15).blk t).view.emb j) = _
  refine congrArg (V c main_v19 : S1x128.Idx → EReal) (funext fun a => Fin.ext ?_)
  match a with
  | ⟨0, _⟩ => show win1_15.index t (0 : Fin 2) * 1 + 1 * (j 0).val = (j 0).val; omega
  | ⟨1, _⟩ => show win1_15.index t (1 : Fin 2) * 128 + 1 * (j 1).val = (j 1).val; omega

theorem blk1_16 (c : Dev nD) (t : Fin cfg1.N) (j : S1x128.Idx) :
    iblk1 (F := Ideal) V c 16 t j = (V c main_v20 : S1x128.Idx → EReal) j := by
  obtain ⟨e0, e1⟩ := idx1_16 t
  show (V c main_v20 : S1x128.Idx → EReal) (((cfg1.win 16).blk t).view.emb j) = _
  refine congrArg (V c main_v20 : S1x128.Idx → EReal) (funext fun a => Fin.ext ?_)
  match a with
  | ⟨0, _⟩ => show win1_16.index t (0 : Fin 2) * 1 + 1 * (j 0).val = (j 0).val; omega
  | ⟨1, _⟩ => show win1_16.index t (1 : Fin 2) * 128 + 1 * (j 1).val = (j 1).val; omega

theorem blk1_17 (c : Dev nD) (t : Fin cfg1.N) (j : S1x128.Idx) :
    iblk1 (F := Ideal) V c 17 t j = (V c main_v21 : S1x128.Idx → EReal) j := by
  obtain ⟨e0, e1⟩ := idx1_17 t
  show (V c main_v21 : S1x128.Idx → EReal) (((cfg1.win 17).blk t).view.emb j) = _
  refine congrArg (V c main_v21 : S1x128.Idx → EReal) (funext fun a => Fin.ext ?_)
  match a with
  | ⟨0, _⟩ => show win1_17.index t (0 : Fin 2) * 1 + 1 * (j 0).val = (j 0).val; omega
  | ⟨1, _⟩ => show win1_17.index t (1 : Fin 2) * 128 + 1 * (j 1).val = (j 1).val; omega

end Cert.KernelIdeal.Val

end
-- ==== Proof.Val.Pay13.lean ====
/-
  The relu of the first message layer, as the second kernel lays it out: rows are (centre, neighbour) pairs in
  row-major order, columns the hidden features.
-/
import proofs.«135699_j28114855919650_1_alg».proof.Proof.KI.D1
import proofs.«135699_j28114855919650_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Val

open Cert.KernelIdeal Cert.KernelIdeal.Gen Cert.KernelIdeal.Hand
open Idealize.ShloMosaic Idealize.ShloMosaic.ValueIdx

/-! ## The square product: rows of the left operand against columns of the right -/

/-! The dimension numbers contract the left operand's axis 1 against the right operand's axis 0: at output index i and
contraction coordinate q the left operand is read at (i 0, q) and the right at (q, i 1). -/

theorem mm_lhs_0 (i : S128x128.Idx) (q : dot_S128x128_S128x128_S128x128_1_0_0_1_n_n.contr.Idx) :
    (dot_S128x128_S128x128_S128x128_1_0_0_1_n_n.lhsIdx i q 0).val = (i 0).val := by
  unfold DotDims.lhsIdx
  rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
  rfl
theorem mm_lhs_1 (i : S128x128.Idx) (q : dot_S128x128_S128x128_S128x128_1_0_0_1_n_n.contr.Idx) :
    (dot_S128x128_S128x128_S128x128_1_0_0_1_n_n.lhsIdx i q 1).val = (q ⟨0, by decide⟩).val :=
  dot_S128x128_S128x128_S128x128_1_0_0_1_n_n.lhsIdx_val_of_single rfl i q
theorem mm_rhs_0 (i : S128x128.Idx) (q : dot_S128x128_S128x128_S128x128_1_0_0_1_n_n.contr.Idx) :
    (dot_S128x128_S128x128_S128x128_1_0_0_1_n_n.rhsIdx i q 0).val = (q ⟨0, by decide⟩).val :=
  dot_S128x128_S128x128_S128x128_1_0_0_1_n_n.rhsIdx_val_of_single rfl i q
theorem mm_rhs_1 (i : S128x128.Idx) (q : dot_S128x128_S128x128_S128x128_1_0_0_1_n_n.contr.Idx) :
    (dot_S128x128_S128x128_S128x128_1_0_0_1_n_n.rhsIdx i q 1).val = (i 1).val := by
  unfold DotDims.rhsIdx
  rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
  rfl

/-- A product into the zero accumulator, at (p, q): the sum over k of left (p, k) times right (k, q). -/
theorem mm_apply (a b : FVec Ideal S128x128 .f32) (p q : Fin 128) :
    matmul dot_S128x128_S128x128_S128x128_1_0_0_1_n_n none a b (constant (F := Ideal) S128x128 .f32 0x00000000#32) (ix2 p q)
      = ∑ k : Fin 128, a (ix2 p k) * b (ix2 k q) := by
  refine (Ideal.matmul_constant_zero_apply dot_S128x128_S128x128_S128x128_1_0_0_1_n_n none a b (ix2 p q)).trans ?_
  rw [← Equiv.sum_comp (contrEquiv1 dot_S128x128_S128x128_S128x128_1_0_0_1_n_n 128 rfl rfl).symm]
  refine Finset.sum_congr rfl fun k _ => ?_
  have hk := contrEquiv1_symm_val dot_S128x128_S128x128_S128x128_1_0_0_1_n_n 128 rfl rfl k
  have el : dot_S128x128_S128x128_S128x128_1_0_0_1_n_n.lhsIdx (ix2 p q) ((contrEquiv1 dot_S128x128_S128x128_S128x128_1_0_0_1_n_n 128 rfl rfl).symm k) = ix2 p k := funext fun c => Fin.ext (by
    match c with
    | ⟨0, _⟩ => exact mm_lhs_0 _ _
    | ⟨1, _⟩ => exact (mm_lhs_1 _ _).trans hk)
  have er : dot_S128x128_S128x128_S128x128_1_0_0_1_n_n.rhsIdx (ix2 p q) ((contrEquiv1 dot_S128x128_S128x128_S128x128_1_0_0_1_n_n 128 rfl rfl).symm k) = ix2 k q := funext fun c => Fin.ext (by
    match c with
    | ⟨0, _⟩ => exact (mm_rhs_0 _ _).trans hk
    | ⟨1, _⟩ => exact mm_rhs_1 _ _)
  rw [el, er]

/-! ## The layout operations of the payload, read at an index given by coordinates -/

section Layout
variable {α : Type}

/-- A row [1, 128] broadcast down 128 rows reads, at (p, q), the row at q. -/
theorem bcast_row_apply (x : S1x128.Idx → α) (h : S1x128.Broadcasts S128x128) (p q : Fin 128) :
    broadcastTo S128x128 x h (ix2 p q) = x (ix2 (0 : Fin 1) q) :=
  broadcastTo_apply x h _ _ fun c => match c with | ⟨0, _⟩ => rfl | ⟨1, _⟩ => rfl

/-- A matrix cast to [128, 128, 1] reads, at (p, q, u), the matrix at (p, q). -/
theorem cast_ab_ab1_apply (x : S128x128.Idx → α) (h : S128x128.ShapeCasts S128x128x1) (p q : Fin 128) (u : Fin 1) :
    shapeCast S128x128x1 x h (ix3 p q u) = x (ix2 p q) :=
  shapeCast_apply x h _ _ (by
    have hu : u.val = 0 := by omega
    rw [Shape.rowMajor_val_three, Shape.rowMajor_val_two]
    show p.val * 128 + q.val = (p.val * 128 + q.val) * 1 + u.val
    rw [hu, Nat.mul_one, Nat.add_zero])

/-- A vector cast to [1, 1, 128] reads, at (u, v, d), the vector at d. -/
theorem cast_a_11a_apply (x : S128.Idx → α) (h : S128.ShapeCasts S1x1x128) (u v : Fin 1) (d : Fin 128) :
    shapeCast S1x1x128 x h (ix3 u v d) = x (ix1 d) :=
  shapeCast_apply x h _ _ (by
    have hu : u.val = 0 := by omega
    have hv : v.val = 0 := by omega
    rw [Shape.rowMajor_val_three, Shape.rowMajor_val_one]
    show d.val = (u.val * 1 + v.val) * 128 + d.val
    omega)

/-- A [128, 128, 1] array broadcast along its last axis reads, at (r, s, d), the array at (r, s, 0). -/
theorem bcast_ab1_abc_apply (x : S128x128x1.Idx → α) (h : S128x128x1.Broadcasts S128x128x128) (r s d : Fin 128) :
    broadcastTo S128x128x128 x h (ix3 r s d) = x (ix3 r s (0 : Fin 1)) :=
  broadcastTo_apply x h _ _ fun c => match c with | ⟨0, _⟩ => rfl | ⟨1, _⟩ => rfl | ⟨2, _⟩ => rfl

/-- A [1, 1, 128] array broadcast along its first two axes reads, at (r, s, d), the array at (0, 0, d). -/
theorem bcast_11a_abc_apply (x : S1x1x128.Idx → α) (h : S1x1x128.Broadcasts S128x128x128) (r s d : Fin 128) :
    broadcastTo S128x128x128 x h (ix3 r s d) = x (ix3 (0 : Fin 1) (0 : Fin 1) d) :=
  broadcastTo_apply x h _ _ fun c => match c with | ⟨0, _⟩ => rfl | ⟨1, _⟩ => rfl | ⟨2, _⟩ => rfl

/-- A [1, 128, 128] array broadcast along its first axis reads, at (r, s, d), the array at (0, s, d). -/
theorem bcast_1ab_abc_apply (x : S1x128x128.Idx → α) (h : S1x128x128.Broadcasts S128x128x128) (r s d : Fin 128) :
    broadcastTo S128x128x128 x h (ix3 r s d) = x (ix3 (0 : Fin 1) s d) :=
  broadcastTo_apply x h _ _ fun c => match c with | ⟨0, _⟩ => rfl | ⟨1, _⟩ => rfl | ⟨2, _⟩ => rfl

/-- A [128, 128, 128] array flattened to [16384, 128] reads, at (r * 128 + s, d), the array at (r, s, d). -/
theorem cast_abc_flat_apply (x : S128x128x128.Idx → α) (h : S128x128x128.ShapeCasts S16384x128) (r s d : Fin 128)
    (hrs : r.val * 128 + s.val < 16384) :
    shapeCast S16384x128 x h (ix2 ⟨r.val * 128 + s.val, hrs⟩ d) = x (ix3 r s d) :=
  shapeCast_apply x h _ _ (by
    rw [Shape.rowMajor_val_three, Shape.rowMajor_val_two]
    rfl)

end Layout

/-! ## The payload at an index -/

/-- Entry (r * 128 + s, d) is the relu of the first message layer at centre r, neighbour s, feature d. -/
theorem pay13_apply (x1 x2 : Vec Ideal S1x128x128 .f32) (x3 : Vec Ideal S128x128 .f32) (x4 x5 : Vec Ideal S1x128 .f32)
    (r s d : Fin 128) (hrs : r.val * 128 + s.val < 16384) :
    k1_pay13 (F := Ideal) x1 x2 x3 x4 x5 (ix2 ⟨r.val * 128 + s.val, hrs⟩ d)
      = max (Cert.Spec.tM1 (fun s e => x1 (ix3 0 s e)) (fun r s => x2 (ix3 0 r s)) (fun o e => x3 (ix2 o e))
          (fun o => x4 (ix2 0 o)) (fun o => x5 (ix2 0 o)) r s d) Cert.Spec.zeroW := by
  unfold k1_pay13
  refine (cast_abc_flat_apply _ _ r s d hrs).trans ?_
  refine (maximumf_apply _ _ _).trans ?_
  refine congrArg₂ max ?_ rfl
  refine (addf_apply _ _ _).trans ?_
  unfold Cert.Spec.tM1
  refine congrArg₂ (· + ·) ?_ ?_
  · refine (bcast_1ab_abc_apply _ _ r s d).trans ?_
    refine (shapeCast_ab_1ab_apply _ _ (0 : Fin 1) s d).trans ?_
    refine (addf_apply _ _ _).trans ?_
    refine congrArg₂ (· + ·) ?_ ?_
    · refine (mm_apply _ _ s d).trans ?_
      refine Finset.sum_congr rfl fun k _ => ?_
      refine congrArg₂ (· * ·) ?_ ?_
      · exact shapeCast_1ab_ab_apply x1 _ s k
      · refine (transpose_ix2_apply _ _ k d).trans ?_
        exact congrFun (shapeCast_self x3 _) (ix2 d k)
    · refine (bcast_row_apply _ _ s d).trans ?_
      exact congrFun (shapeCast_self x5 _) (ix2 (0 : Fin 1) d)
  · refine (mulf_apply _ _ _).trans ?_
    refine congrArg₂ (· * ·) ?_ ?_
    · refine (bcast_ab1_abc_apply _ _ r s d).trans ?_
      refine (cast_ab_ab1_apply _ _ r s (0 : Fin 1)).trans ?_
      exact shapeCast_1ab_ab_apply x2 _ r s
    · refine (bcast_11a_abc_apply _ _ r s d).trans ?_
      refine (cast_a_11a_apply _ _ (0 : Fin 1) (0 : Fin 1) d).trans ?_
      exact shapeCast_1a_a_apply x4 _ d

end Cert.KernelIdeal.Val

end
-- ==== Proof.LibKeepdims.lean ====
/-
  A column kept as a trailing unit axis, read at coordinates: the three layout steps of a row reduction with the reduced
  axis kept (`sum(axis=1, keepdims=True)`) followed by a broadcast back along the rows.

  • an `[a]` vector viewed as an `[a, 1]` column reads, at `(i, u)`, the vector at `i`;
  • an `[a, 1]` column broadcast to `[a, b]` reads, at `(p, c)`, the column at `(p, 0)`;
  • a sum of an `[a, b]` array along its second axis reads, at `i`, the sum over `n` of the array at `(i, n)`.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the extended reals, the sum of an `[a, b]` array along its second axis (started from the zero word) reads, at row
    `i`, the sum over `n` of the entries `(i, n)`. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec 32) = 0x00000000#32) (i : Fin a) :
    multiReduction (F := Ideal) .add [1] ⟨1, ![a]⟩ src 0x00000000#32 h hφ hacc (ix1 i) = ∑ n : Fin b, src (ix2 i n) :=
  (Ideal.multiReduction_add_single src 0x00000000#32 h hφ hacc (ix1 i)).trans
    (Finset.sum_congr rfl fun k _ => congrArg src (funext fun ax => Fin.ext (by
      match ax with
      | ⟨0, _⟩ => rfl
      | ⟨1, _⟩ => rfl)))

end Cert.Keepdims
-- ==== Proof.Val.Acc.lean ====
/-
  One accumulation step of the second kernel, read at an entry of the scratch block: the block before, plus the sum
  over the 128 neighbours of the tile of the second message layer (the relu of the first layer through the second
  weight matrix, plus its bias) times the logistic of the attention logit of the pair.
-/
import proofs.«135699_j28114855919650_1_alg».proof.Proof.Val.Pay13
import proofs.«135699_j28114855919650_1_alg».proof.Proof.LibKeepdims
import proofs.«135699_j28114855919650_1_alg».proof.Proof.KI.D1
import proofs.«135699_j28114855919650_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Val

open Cert.KernelIdeal Cert.KernelIdeal.Gen Cert.KernelIdeal.Hand
open Idealize.ShloMosaic Idealize.ShloMosaic.ValueIdx
open Cert.Keepdims

namespace Acc

/-! ## Layout steps read at coordinates -/

section Layout
variable {α : Type}

/-- An `[a, b]` array viewed as `[a, b, 1]` reads, at `(i, j, u)`, the array at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the array at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[n, c]` array viewed as `[a, b, c]` (row-major, `n = a * b`) reads, at `(i, j, k)`, the array at row `i * b + j`,
    column `k`. -/
theorem shapeCast_nc_abc_apply {n a b c : ℕ} (x : (⟨2, ![n, c]⟩ : Shape).Idx → α)
    (h : (⟨2, ![n, c]⟩ : Shape).ShapeCasts ⟨3, ![a, b, c]⟩) (i : Fin a) (j : Fin b) (k : Fin c)
    (hp : i.val * b + j.val < n) :
    shapeCast ⟨3, ![a, b, c]⟩ x h (ix3 i j k) = x (ix2 ⟨i.val * b + j.val, hp⟩ k) :=
  shapeCast_apply x h _ _ (by
    rw [Shape.rowMajor_val_three, Shape.rowMajor_val_two]
    rfl)

/-- The one entry of a `[1, 1]` block. -/
theorem extractAt_11_apply (v : (⟨2, ![1, 1]⟩ : Shape).Idx → α)
    (h : ∀ a, (![0, 0] : Fin 2 → Nat) a < (⟨2, ![1, 1]⟩ : Shape).size a) :
    extractAt ![0, 0] v h = v (ix2 (0 : Fin 1) (0 : Fin 1)) := by
  unfold extractAt
  exact congrArg v (funext fun a => Fin.ext (by match a with | ⟨0, _⟩ => rfl | ⟨1, _⟩ => rfl))

end Layout

/-- At the extended reals, the sum of an `[a, b, c]` array along its middle axis (started from the zero word) reads, at
    `(i, k)`, the sum over `n` of the entries `(i, n, k)`. -/
theorem midSum_apply {a b c : ℕ} (src : FVec Ideal ⟨3, ![a, b, c]⟩ .f32)
    (h : (⟨3, ![a, b, c]⟩ : Shape).Reduces [1] ⟨2, ![a, c]⟩)
    (hφ : FKind.Formats FTy.f32) (hacc : (0x00000000#32 : BitVec 32) = 0x00000000#32) (i : Fin a) (k : Fin c) :
    multiReduction (F := Ideal) .add [1] ⟨2, ![a, c]⟩ src 0x00000000#32 h hφ hacc (ix2 i k) = ∑ n : Fin b, src (ix3 i n k) :=
  (Ideal.multiReduction_add_single src 0x00000000#32 h hφ hacc (ix2 i k)).trans
    (Finset.sum_congr rfl fun n _ => congrArg src (funext fun ax => Fin.ext (by
      match ax with
      | ⟨0, _⟩ => rfl
      | ⟨1, _⟩ => rfl
      | ⟨2, _⟩ => rfl)))

/-! ## The product with the second weight matrix -/

theorem w2_lhs_0 (i : S16384x128.Idx) (q : dot_S16384x128_S128x128_S16384x128_1_0_0_1_n_n.contr.Idx) :
    (dot_S16384x128_S128x128_S16384x128_1_0_0_1_n_n.lhsIdx i q 0).val = (i 0).val := by
  unfold DotDims.lhsIdx
  rw [dif_neg (show ¬(0 : Fin S16384x128.rank) ∈ dot_S16384x128_S128x128_S16384x128_1_0_0_1_n_n.lhsBatch by decide), dif_pos (show (0 : Fin S16384x128.rank) ∈ dot_S16384x128_S128x128_S16384x128_1_0_0_1_n_n.lhsNonContracting by decide)]
  rfl
theorem w2_lhs_1 (i : S16384x128.Idx) (q : dot_S16384x128_S128x128_S16384x128_1_0_0_1_n_n.contr.Idx) :
    (dot_S16384x128_S128x128_S16384x128_1_0_0_1_n_n.lhsIdx i q 1).val = (q ⟨0, by decide⟩).val :=
  dot_S16384x128_S128x128_S16384x128_1_0_0_1_n_n.lhsIdx_val_of_single rfl i q
theorem w2_rhs_0 (i : S16384x128.Idx) (q : dot_S16384x128_S128x128_S16384x128_1_0_0_1_n_n.contr.Idx) :
    (dot_S16384x128_S128x128_S16384x128_1_0_0_1_n_n.rhsIdx i q 0).val = (q ⟨0, by decide⟩).val :=
  dot_S16384x128_S128x128_S16384x128_1_0_0_1_n_n.rhsIdx_val_of_single rfl i q
theorem w2_rhs_1 (i : S16384x128.Idx) (q : dot_S16384x128_S128x128_S16384x128_1_0_0_1_n_n.contr.Idx) :
    (dot_S16384x128_S128x128_S16384x128_1_0_0_1_n_n.rhsIdx i q 1).val = (i 1).val := by
  unfold DotDims.rhsIdx
  rw [dif_neg (show ¬(1 : Fin S128x128.rank) ∈ dot_S16384x128_S128x128_S16384x128_1_0_0_1_n_n.rhsBatch by decide), dif_pos (show (1 : Fin S128x128.rank) ∈ dot_S16384x128_S128x128_S16384x128_1_0_0_1_n_n.rhsNonContracting by decide)]
  rfl

/-- The `[16384, 128] x [128, 128]` product into zeros reads, at `(p, o)`, the sum over `d` of the left operand at
    `(p, d)` times the right at `(d, o)`. -/
theorem w2mm_apply (A : FVec Ideal S16384x128 .bf16) (B : FVec Ideal S128x128 .bf16) (p : Fin 16384) (o : Fin 128) :
    matmul dot_S16384x128_S128x128_S16384x128_1_0_0_1_n_n none A B (constant (F := Ideal) S16384x128 .f32 0x00000000#32) (ix2 p o)
      = ∑ d : Fin 128, A (ix2 p d) * B (ix2 d o) := by
  refine (Ideal.matmul_constant_zero_apply dot_S16384x128_S128x128_S16384x128_1_0_0_1_n_n none A B (ix2 p o)).trans ?_
  rw [← Equiv.sum_comp (contrEquiv1 dot_S16384x128_S128x128_S16384x128_1_0_0_1_n_n 128 rfl rfl).symm]
  refine Finset.sum_congr rfl fun k _ => ?_
  have hk := contrEquiv1_symm_val dot_S16384x128_S128x128_S16384x128_1_0_0_1_n_n 128 rfl rfl k
  have el : dot_S16384x128_S128x128_S16384x128_1_0_0_1_n_n.lhsIdx (ix2 p o) ((contrEquiv1 dot_S16384x128_S128x128_S16384x128_1_0_0_1_n_n 128 rfl rfl).symm k) = ix2 p k := funext fun a => Fin.ext (by
    match a with
    | ⟨0, _⟩ => exact w2_lhs_0 _ _
    | ⟨1, _⟩ => exact (w2_lhs_1 _ _).trans hk)
  have er : dot_S16384x128_S128x128_S16384x128_1_0_0_1_n_n.rhsIdx (ix2 p o) ((contrEquiv1 dot_S16384x128_S128x128_S16384x128_1_0_0_1_n_n 128 rfl rfl).symm k) = ix2 k o := funext fun a => Fin.ext (by
    match a with
    | ⟨0, _⟩ => exact (w2_rhs_0 _ _).trans hk
    | ⟨1, _⟩ => exact w2_rhs_1 _ _)
  rw [el, er]

/-- With the weight matrix transposed on the way in: entry `(p, o)` is the sum over `d` of `X (p, d) * W (o, d)`. -/
theorem w2mmT_apply (X : FVec Ideal S16384x128 .f32) (W : Vec Ideal S128x128 .f32) (p : Fin 16384) (o : Fin 128) :
    matmul dot_S16384x128_S128x128_S16384x128_1_0_0_1_n_n none (truncf .bf16 X bitsLt_bf16_f32)
        (truncf .bf16 (transpose S128x128 [1, 0] W transposes_S128x128_p1_0_S128x128) bitsLt_bf16_f32)
        (constant (F := Ideal) S16384x128 .f32 0x00000000#32) (ix2 p o)
      = ∑ d : Fin 128, X (ix2 p d) * W (ix2 o d) :=
  (w2mm_apply _ _ p o).trans (Finset.sum_congr rfl fun d _ =>
    congrArg (X (ix2 p d) * ·) (transpose_ix2_apply W transposes_S128x128_p1_0_S128x128 d o))

/-! ## The attention logit's two feature sums -/

/-- A block times one weight row, summed along the features: row `r` reads the sum over `e` of `X (r, e) * w (0, e)`. -/
theorem laneDot_apply (X : FVec Ideal S128x128 .f32) (w : Vec Ideal S1x128 .f32) (r : Fin 128) :
    multiReduction (F := Ideal) .add [1] S128
        (mulf X (broadcastTo S128x128 (shapeCast S1x128 (shapeCast S128 w shapeCasts_S1x128_S128) shapeCasts_S128_S1x128) broadcasts_S1x128_S128x128))
        0x00000000#32 reduces_S128x128_S128 (.inl rfl) rfl (ix1 r)
      = ∑ e : Fin 128, X (ix2 r e) * w (ix2 0 e) :=
  (rowSum_apply _ reduces_S128x128_S128 (.inl rfl) rfl r).trans (Finset.sum_congr rfl fun e _ =>
    congrArg (X (ix2 r e) * ·)
      ((broadcastTo_1b_ab_apply _ broadcasts_S1x128_S128x128 r e).trans
        ((shapeCast_a_1a_apply _ shapeCasts_S128_S1x128 0 e).trans (shapeCast_1a_a_apply w shapeCasts_S1x128_S128 e))))

/-- Row `r * 128 + s` of the flattened pair matrix exists. -/
theorem rs_lt (r s : Fin 128) : r.val * 128 + s.val < 16384 := by
  have := r.isLt; have := s.isLt; omega

/-! ## The accumulation payload over any pair matrix -/

/-- Entry `(r, o)` of the accumulation payload, with the `[16384, 128]` pair matrix `P` a variable: the scratch entry plus
    the sum over the neighbours `s` of (row `r * 128 + s` of `P` through the second weight matrix, plus its bias) times the
    logistic of the logit of the pair `(r, s)`. -/
theorem pay14_apply (hn hm adjt : FVec Ideal S128x128 .f32) (W2 : Vec Ideal S128x128 .f32) (b2 : FVec Ideal S1x128 .f32)
    (P : FVec Ideal S16384x128 .f32) (wn wm : Vec Ideal S1x128 .f32) (wadj batt : Vec Ideal S1x1 .f32)
    (acc : Vec Ideal S128x128 .f32) (r o : Fin 128) :
    k1_pay14 (F := Ideal) hn hm adjt W2 b2 P wn wm wadj batt acc (ix2 r o)
      = acc (ix2 r o) + ∑ s : Fin 128,
          ((∑ d : Fin 128, P (ix2 ⟨r.val * 128 + s.val, rs_lt r s⟩ d) * W2 (ix2 o d)) + b2 (ix2 0 o))
            * Ideal.logistic ((((∑ e : Fin 128, hn (ix2 r e) * wn (ix2 0 e)) + (∑ e : Fin 128, hm (ix2 s e) * wm (ix2 0 e)))
                + adjt (ix2 r s) * wadj (ix2 0 0)) + batt (ix2 0 0)) := by
  unfold k1_pay14
  refine (congrFun (shapeCast_self _ _) (ix2 r o)).trans ?_
  refine congrArg (acc (ix2 r o) + ·) ?_
  refine (midSum_apply _ reduces_S128x128x128_S128x128 (.inl rfl) rfl r o).trans ?_
  refine Finset.sum_congr rfl fun s _ => ?_
  refine congrArg₂ (· * ·) ?_ ?_
  · refine (shapeCast_nc_abc_apply _ shapeCasts_S16384x128_S128x128x128 r s o (rs_lt r s)).trans ?_
    exact congrArg₂ (· + ·) (w2mmT_apply P W2 ⟨r.val * 128 + s.val, rs_lt r s⟩ o)
      (broadcastTo_1b_ab_apply b2 broadcasts_S1x128_S16384x128 ⟨r.val * 128 + s.val, rs_lt r s⟩ o)
  · refine (broadcastTo_ab1_abc_apply _ broadcasts_S128x128x1_S128x128x128 r s o).trans ?_
    refine (shapeCast_ab_ab1_apply _ shapeCasts_S128x128_S128x128x1 r s 0).trans ?_
    refine congrArg Ideal.logistic ?_
    refine congrArg₂ (· + ·) (congrArg₂ (· + ·) (congrArg₂ (· + ·) ?_ ?_) ?_) ?_
    · refine (broadcastTo_a1_ab_apply _ broadcasts_S128x1_S128x128 r s).trans ?_
      refine (shapeCast_a_a1_apply _ shapeCasts_S128_S128x1 r 0).trans ?_
      exact laneDot_apply hn wn r
    · refine (broadcastTo_1b_ab_apply _ broadcasts_S1x128_S128x128 r s).trans ?_
      refine (shapeCast_a_1a_apply _ shapeCasts_S128_S1x128 0 s).trans ?_
      exact laneDot_apply hm wm s
    · exact congrArg (adjt (ix2 r s) * ·) (extractAt_11_apply wadj inpos_S1x1_p0_0)
    · exact extractAt_11_apply batt inpos_S1x1_p0_0

end Acc
/-! ## The zero block the scratch starts from -/

/-- Every entry of the block the scratch is reset to is zero. -/
theorem pay8_apply (j : S128x128.Idx) : k1_pay8 (F := Ideal) j = 0 := by
  unfold k1_pay8
  refine (congrFun (shapeCast_self _ _) j).trans ?_
  exact Ideal.ofBits_zero_f32

/-! ## One accumulation step -/

/-- Entry `(r, o)` of the scratch block after one accumulation step: the entry before plus what the tile contributes to
    centre row `r`, feature `o`. -/
theorem accStep_apply (x0 x1 x2 : Vec Ideal S1x128x128 .f32) (x3 : Vec Ideal S128x128 .f32) (x4 x5 : Vec Ideal S1x128 .f32)
    (x6 : Vec Ideal S128x128 .f32) (x7 x8 x9 : Vec Ideal S1x128 .f32) (x10 x11 : Vec Ideal S1x1 .f32)
    (xs : Vec Ideal S128x128 .f32) (r o : Fin 128) :
    accStep (F := Ideal) x0 x1 x2 x3 x4 x5 x6 x7 x8 x9 x10 x11 xs (ix2 r o)
      = xs (ix2 r o) + Cert.Spec.tContrib (fun r e => x0 (ix3 0 r e)) (fun s e => x1 (ix3 0 s e)) (fun r s => x2 (ix3 0 r s))
          (fun o e => x3 (ix2 o e)) (fun o => x4 (ix2 0 o)) (fun o => x5 (ix2 0 o)) (fun o d => x6 (ix2 o d))
          (fun o => x7 (ix2 0 o)) (fun e => x8 (ix2 0 e)) (fun e => x9 (ix2 0 e)) (x10 (ix2 0 0)) (x11 (ix2 0 0)) r o := by
  unfold accStep
  refine (Acc.pay14_apply (k1_pay9 x0) (k1_pay10 x1) (k1_pay11 x2) x6 (k1_pay12 x7) (k1_pay13 x1 x2 x3 x4 x5) x8 x9 x10 x11 xs r o).trans ?_
  unfold Cert.Spec.tContrib Cert.Spec.tM2 Cert.Spec.tAttPre
  refine congrArg (xs (ix2 r o) + ·) (Finset.sum_congr rfl fun s _ => ?_)
  refine congrArg₂ (· * ·) ?_ (congrArg Ideal.logistic ?_)
  · refine congrArg₂ (· + ·) (Finset.sum_congr rfl fun d _ =>
      congrArg (· * x6 (ix2 o d)) (pay13_apply x1 x2 x3 x4 x5 r s d (Acc.rs_lt r s))) ?_
    exact congrFun (shapeCast_self x7 shapeCasts_S1x128_S1x128) (ix2 0 o)
  · refine congrArg₂ (· + ·) (congrArg₂ (· + ·) (congrArg₂ (· + ·) ?_ ?_) ?_) rfl
    · exact Finset.sum_congr rfl fun e _ =>
        congrArg (· * x8 (ix2 0 e)) (shapeCast_1ab_ab_apply x0 shapeCasts_S1x128x128_S128x128 r e)
    · exact Finset.sum_congr rfl fun e _ =>
        congrArg (· * x9 (ix2 0 e)) (shapeCast_1ab_ab_apply x1 shapeCasts_S1x128x128_S128x128 s e)
    · exact congrArg (· * x10 (ix2 0 0)) (shapeCast_1ab_ab_apply x2 shapeCasts_S1x128x128_S128x128 r s)

end Cert.KernelIdeal.Val

end
-- ==== Proof.Val.Out.lean ====
/-
  The closing step of the second kernel read at an index: the output network over the finished aggregate, the residual
  with the centre block, the layer norm along each row (mean and variance over the 128 features, both divided by the
  word of 128) and the relu. Entry (0, r, o) of the output block is the specification's row function at row r.
-/
import proofs.«135699_j28114855919650_1_alg».proof.Proof.KI.D1
import proofs.«135699_j28114855919650_1_alg».proof.Proof.Spec
import proofs.«135699_j28114855919650_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Val

open Cert.KernelIdeal Cert.KernelIdeal.Gen Cert.KernelIdeal.Hand
open Idealize.ShloMosaic Idealize.ShloMosaic.ValueIdx

/-! ## The square product's operand indices, axis by axis -/

theorem outDot_lhs_0 (i : S128x128.Idx) (q : dot_S128x128_S128x128_S128x128_1_0_0_1_n_n.contr.Idx) :
    (dot_S128x128_S128x128_S128x128_1_0_0_1_n_n.lhsIdx i q 0).val = (i 0).val := by
  unfold DotDims.lhsIdx
  rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
  rfl
theorem outDot_lhs_1 (i : S128x128.Idx) (q : dot_S128x128_S128x128_S128x128_1_0_0_1_n_n.contr.Idx) :
    (dot_S128x128_S128x128_S128x128_1_0_0_1_n_n.lhsIdx i q 1).val = (q ⟨0, by decide⟩).val :=
  dot_S128x128_S128x128_S128x128_1_0_0_1_n_n.lhsIdx_val_of_single rfl i q
theorem outDot_rhs_0 (i : S128x128.Idx) (q : dot_S128x128_S128x128_S128x128_1_0_0_1_n_n.contr.Idx) :
    (dot_S128x128_S128x128_S128x128_1_0_0_1_n_n.rhsIdx i q 0).val = (q ⟨0, by decide⟩).val :=
  dot_S128x128_S128x128_S128x128_1_0_0_1_n_n.rhsIdx_val_of_single rfl i q
theorem outDot_rhs_1 (i : S128x128.Idx) (q : dot_S128x128_S128x128_S128x128_1_0_0_1_n_n.contr.Idx) :
    (dot_S128x128_S128x128_S128x128_1_0_0_1_n_n.rhsIdx i q 1).val = (i 1).val := by
  unfold DotDims.rhsIdx
  rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
  rfl

/-! ## One linear layer: a product with the transposed weight into zeros, plus the bias row -/

/-- Entry (r, o) of A times the transpose of W, accumulated into zeros, is the sum over d of A (r, d) * W (o, d). -/
theorem mulT_apply (A W : FVec Ideal S128x128 .f32) (r o : Fin 128) :
    matmul dot_S128x128_S128x128_S128x128_1_0_0_1_n_n none A (transpose S128x128 [1, 0] W transposes_S128x128_p1_0_S128x128)
        (constant (F := Ideal) S128x128 .f32 0x00000000#32) (ix2 r o)
      = ∑ d : Fin 128, A (ix2 r d) * W (ix2 o d) := by
  refine (Ideal.matmul_constant_zero_apply dot_S128x128_S128x128_S128x128_1_0_0_1_n_n none A _ (ix2 r o)).trans ?_
  rw [← Equiv.sum_comp (contrEquiv1 dot_S128x128_S128x128_S128x128_1_0_0_1_n_n 128 rfl rfl).symm]
  refine Finset.sum_congr rfl fun k _ => ?_
  have hk := contrEquiv1_symm_val dot_S128x128_S128x128_S128x128_1_0_0_1_n_n 128 rfl rfl k
  have el : dot_S128x128_S128x128_S128x128_1_0_0_1_n_n.lhsIdx (ix2 r o) ((contrEquiv1 dot_S128x128_S128x128_S128x128_1_0_0_1_n_n 128 rfl rfl).symm k) = ix2 r k := funext fun a => Fin.ext (by
    match a with
    | ⟨0, _⟩ => exact outDot_lhs_0 _ _
    | ⟨1, _⟩ => exact (outDot_lhs_1 _ _).trans hk)
  have er : dot_S128x128_S128x128_S128x128_1_0_0_1_n_n.rhsIdx (ix2 r o) ((contrEquiv1 dot_S128x128_S128x128_S128x128_1_0_0_1_n_n 128 rfl rfl).symm k) = ix2 k o := funext fun a => Fin.ext (by
    match a with
    | ⟨0, _⟩ => exact (outDot_rhs_0 _ _).trans hk
    | ⟨1, _⟩ => exact outDot_rhs_1 _ _)
  rw [el, er]
  exact congrArg (A (ix2 r k) * ·) (transpose_ix2_apply W _ k o)

/-- A bias row spread over the 128 rows reads, at (r, o), the row's entry o. -/
theorem rowBias_apply (b : FVec Ideal S1x128 .f32) (r o : Fin 128) :
    broadcastTo S128x128 (shapeCast S1x128 b shapeCasts_S1x128_S1x128) broadcasts_S1x128_S128x128 (ix2 r o) = b (ix2 0 o) :=
  (broadcastTo_1b_ab_apply _ _ r o).trans (congrFun (shapeCast_self b _) _)

/-- One linear layer at (r, o): the sum over d of A (r, d) * W (o, d), plus the bias at o. -/
theorem lin_apply (A W : FVec Ideal S128x128 .f32) (b : FVec Ideal S1x128 .f32) (r o : Fin 128) :
    addf (matmul dot_S128x128_S128x128_S128x128_1_0_0_1_n_n none A (transpose S128x128 [1, 0] W transposes_S128x128_p1_0_S128x128)
          (constant (F := Ideal) S128x128 .f32 0x00000000#32))
        (broadcastTo S128x128 (shapeCast S1x128 b shapeCasts_S1x128_S1x128) broadcasts_S1x128_S128x128) (ix2 r o)
      = (∑ d : Fin 128, A (ix2 r d) * W (ix2 o d)) + b (ix2 0 o) :=
  congrArg₂ (· + ·) (mulT_apply A W r o) (rowBias_apply b r o)

/-! ## The row before the norm: the centre row plus the output network of the aggregate row -/

/-- Entry (r, o) of the residual sum is the specification's row before the norm, at o. -/
theorem pay2_apply (x0 : Vec Ideal S1x128x128 .f32) (x12 : Vec Ideal S128x128 .f32) (x13 : Vec Ideal S1x128 .f32)
    (x14 : Vec Ideal S128x128 .f32) (x15 : Vec Ideal S1x128 .f32) (s : Vec Ideal S128x128 .f32) (r o : Fin 128) :
    k1_pay2 (F := Ideal) (k1_pay9 x0) s x12 x13 x14 x15 (ix2 r o)
      = Cert.Spec.rU (fun e => x0 (ix3 0 r e)) (fun d => s (ix2 r d)) (fun o d => x12 (ix2 o d)) (fun o => x13 (ix2 0 o))
          (fun o d => x14 (ix2 o d)) (fun o => x15 (ix2 0 o)) o := by
  unfold k1_pay2
  refine (congrArg₂ (· + ·) (shapeCast_1ab_ab_apply x0 _ r o) (lin_apply _ x14 x15 r o)).trans ?_
  unfold Cert.Spec.rU
  refine congrArg (fun t => x0 (ix3 0 r o) + (t + x15 (ix2 0 o))) (Finset.sum_congr rfl fun d _ => ?_)
  refine congrArg (· * x14 (ix2 o d)) ?_
  exact congrArg (max · Cert.Spec.zeroW) (lin_apply s x12 x13 r d)

/-! ## The layer norm's columns: a row's mean, the row less its mean, the reciprocal deviation -/

/-- A row's sum kept as a column and divided by the word of 128: entry (r, u) is the sum of row r over the word. -/
theorem rowMean_apply (X : FVec Ideal S128x128 .f32) (r : Fin 128) (u : Fin 1) :
    divf (shapeCast S128x1 (multiReduction (F := Ideal) .add [1] S128 X 0x00000000#32 reduces_S128x128_S128 (.inl rfl) rfl)
          shapeCasts_S128_S128x1)
        (broadcast S128x1 (Scalar.ofBits (F := Ideal) .f32 0x43000000#32)) (ix2 r u)
      = Ideal.div (∑ o : Fin 128, X (ix2 r o)) Cert.Spec.c128W :=
  congrArg (Ideal.div · Cert.Spec.c128W)
    ((Cert.Keepdims.shapeCast_a_a1_apply _ _ r u).trans (Cert.Keepdims.rowSum_apply X _ _ _ r))

/-- A block less a column spread back along the rows: entry (r, o) loses the column's entry of row r. -/
theorem centre_apply (X : FVec Ideal S128x128 .f32) (m : FVec Ideal S128x1 .f32) (r o : Fin 128) :
    subf X (broadcastTo S128x128 m broadcasts_S128x1_S128x128) (ix2 r o) = X (ix2 r o) - m (ix2 r 0) :=
  congrArg (X (ix2 r o) - ·) (Cert.Keepdims.broadcastTo_a1_ab_apply m _ r o)

theorem pay3_apply (v4 v79 v80 : FVec Ideal S128x128 .f32) (v81 : FVec Ideal S1x128 .f32) (v83 : FVec Ideal S128x128 .f32) (v84 : FVec Ideal S1x128 .f32) (r : Fin 128) (u : Fin 1) :
    k1_pay3 (F := Ideal) v4 v79 v80 v81 v83 v84 (ix2 r u)
      = Ideal.div (∑ o : Fin 128, k1_pay2 (F := Ideal) v4 v79 v80 v81 v83 v84 (ix2 r o)) Cert.Spec.c128W := by
  unfold k1_pay3
  exact rowMean_apply _ r u

theorem pay6_apply (v4 v79 v80 : FVec Ideal S128x128 .f32) (v81 : FVec Ideal S1x128 .f32) (v83 : FVec Ideal S128x128 .f32) (v84 : FVec Ideal S1x128 .f32) (r o : Fin 128) :
    k1_pay6 (F := Ideal) v4 v79 v80 v81 v83 v84 (ix2 r o)
      = k1_pay2 (F := Ideal) v4 v79 v80 v81 v83 v84 (ix2 r o) - k1_pay3 (F := Ideal) v4 v79 v80 v81 v83 v84 (ix2 r 0) := by
  unfold k1_pay6
  exact centre_apply _ _ r o

theorem pay7_apply (v4 v79 v80 : FVec Ideal S128x128 .f32) (v81 : FVec Ideal S1x128 .f32) (v83 : FVec Ideal S128x128 .f32) (v84 : FVec Ideal S1x128 .f32) (r : Fin 128) (u : Fin 1) :
    k1_pay7 (F := Ideal) v4 v79 v80 v81 v83 v84 (ix2 r u)
      = Ideal.rsqrt (Ideal.div (∑ o : Fin 128,
            (k1_pay2 (F := Ideal) v4 v79 v80 v81 v83 v84 (ix2 r o) - k1_pay3 (F := Ideal) v4 v79 v80 v81 v83 v84 (ix2 r 0))
              * (k1_pay2 (F := Ideal) v4 v79 v80 v81 v83 v84 (ix2 r o) - k1_pay3 (F := Ideal) v4 v79 v80 v81 v83 v84 (ix2 r 0))) Cert.Spec.c128W
          + Cert.Spec.epsW) := by
  unfold k1_pay7
  refine congrArg (fun t => Ideal.rsqrt (t + Cert.Spec.epsW)) ?_
  refine (rowMean_apply _ r u).trans ?_
  refine congrArg (Ideal.div · Cert.Spec.c128W) (Finset.sum_congr rfl fun o _ => ?_)
  exact congrArg (fun t => t * t) (centre_apply _ _ r o)

/-! ## Scale, shift and relu -/

theorem pay4_eq (g : Vec Ideal S1x128 .f32) : k1_pay4 (F := Ideal) g = g := by
  unfold k1_pay4
  exact shapeCast_self g _

theorem pay5_eq (b : Vec Ideal S1x128 .f32) : k1_pay5 (F := Ideal) b = b := by
  unfold k1_pay5
  exact shapeCast_self b _

/-- Entry (0, r, o) of the stored block: the centred entry times the row's reciprocal deviation, times the scale at o,
    plus the shift at o, through the relu. -/
theorem pay1_apply (g b : FVec Ideal S1x128 .f32) (X : FVec Ideal S128x128 .f32) (q : FVec Ideal S128x1 .f32) (r o : Fin 128) :
    k1_pay1 (F := Ideal) g b X q (ix3 0 r o)
      = max (((X (ix2 r o) * q (ix2 r 0)) * g (ix2 0 o)) + b (ix2 0 o)) Cert.Spec.zeroW := by
  unfold k1_pay1
  refine (shapeCast_ab_1ab_apply _ _ 0 r o).trans ?_
  refine congrArg (max · Cert.Spec.zeroW) ?_
  exact congrArg₂ (· + ·)
    (congrArg₂ (· * ·) (congrArg (X (ix2 r o) * ·) (Cert.Keepdims.broadcastTo_a1_ab_apply q _ r o))
      (broadcastTo_1b_ab_apply g _ r o))
    (broadcastTo_1b_ab_apply b _ r o)

/-- The closing step over any row function U that the residual sum's row r reads as: the specification's norm of U. -/
theorem close_apply (x16 x17 : Vec Ideal S1x128 .f32) (v4 v79 v80 : FVec Ideal S128x128 .f32) (v81 : FVec Ideal S1x128 .f32) (v83 : FVec Ideal S128x128 .f32) (v84 : FVec Ideal S1x128 .f32) (r : Fin 128) (U : Fin 128 → EReal)
    (hU : ∀ o' : Fin 128, k1_pay2 (F := Ideal) v4 v79 v80 v81 v83 v84 (ix2 r o') = U o') (o : Fin 128) :
    k1_pay1 (F := Ideal) (k1_pay4 x16) (k1_pay5 x17) (k1_pay6 v4 v79 v80 v81 v83 v84) (k1_pay7 v4 v79 v80 v81 v83 v84) (ix3 0 r o)
      = Cert.Spec.rOut U (fun o => x16 (ix2 0 o)) (fun o => x17 (ix2 0 o)) o := by
  have hm : k1_pay3 (F := Ideal) v4 v79 v80 v81 v83 v84 (ix2 r 0) = Cert.Spec.rMu U := by
    refine (pay3_apply v4 v79 v80 v81 v83 v84 r 0).trans ?_
    unfold Cert.Spec.rMu
    exact congrArg (Ideal.div · Cert.Spec.c128W) (Finset.sum_congr rfl fun o' _ => hU o')
  have hc : ∀ o' : Fin 128, k1_pay2 (F := Ideal) v4 v79 v80 v81 v83 v84 (ix2 r o') - k1_pay3 (F := Ideal) v4 v79 v80 v81 v83 v84 (ix2 r 0)
      = U o' - Cert.Spec.rMu U := fun o' => congrArg₂ (· - ·) (hU o') hm
  have e6 : k1_pay6 (F := Ideal) v4 v79 v80 v81 v83 v84 (ix2 r o) = U o - Cert.Spec.rMu U := (pay6_apply v4 v79 v80 v81 v83 v84 r o).trans (hc o)
  have e7 : k1_pay7 (F := Ideal) v4 v79 v80 v81 v83 v84 (ix2 r 0) = Ideal.rsqrt (Cert.Spec.rVar U + Cert.Spec.epsW) := by
    refine (pay7_apply v4 v79 v80 v81 v83 v84 r 0).trans ?_
    unfold Cert.Spec.rVar
    refine congrArg (fun t => Ideal.rsqrt (Ideal.div t Cert.Spec.c128W + Cert.Spec.epsW)) (Finset.sum_congr rfl fun o' _ => ?_)
    exact congrArg₂ (· * ·) (hc o') (hc o')
  refine (pay1_apply _ _ _ _ r o).trans ?_
  unfold Cert.Spec.rOut
  exact congrArg (max · Cert.Spec.zeroW)
    (congrArg₂ (· + ·) (congrArg₂ (· * ·) (congrArg₂ (· * ·) e6 e7) (congrFun (pay4_eq x16) _)) (congrFun (pay5_eq x17) _))

/-- Entry (0, r, o) of the closing step's block is the specification's output row at o: the norm and relu of the centre
    row r plus the output network of the aggregate's row r. -/
theorem outStep_apply (x0 : Vec Ideal S1x128x128 .f32) (x12 : Vec Ideal S128x128 .f32) (x13 : Vec Ideal S1x128 .f32)
    (x14 : Vec Ideal S128x128 .f32) (x15 x16 x17 : Vec Ideal S1x128 .f32) (s : Vec Ideal S128x128 .f32) (r o : Fin 128) :
    outStep (F := Ideal) x0 x12 x13 x14 x15 x16 x17 s (ix3 0 r o)
      = Cert.Spec.rOut (Cert.Spec.rU (fun e => x0 (ix3 0 r e)) (fun d => s (ix2 r d)) (fun o d => x12 (ix2 o d))
          (fun o => x13 (ix2 0 o)) (fun o d => x14 (ix2 o d)) (fun o => x15 (ix2 0 o)))
          (fun o => x16 (ix2 0 o)) (fun o => x17 (ix2 0 o)) o := by
  unfold outStep
  exact close_apply x16 x17 (k1_pay9 x0) s x12 x13 x14 x15 r _ (fun o' => pay2_apply x0 x12 x13 x14 x15 s r o') o

end Cert.KernelIdeal.Val

end
-- ==== Proof.Val.Agg.lean ====
/-
  The second kernel's result array as a function of the arrays it is handed. The grid is 2 x 4 x 4 (batch entry, centre
  tile, neighbour tile), the last axis accumulating: over the four neighbour tiles of a centre tile the scratch block goes
  from zeros through the four tile contributions, which together are the sum over all 512 neighbours; the closing step
  at the fourth tile turns the aggregate into the output block, written back at block (batch entry, centre tile, 0) of
  the result array. The eight written blocks tile the array.
-/
import proofs.«135699_j28114855919650_1_alg».proof.Proof.KI.D1
import proofs.«135699_j28114855919650_1_alg».proof.Proof.Spec
import proofs.«135699_j28114855919650_1_alg».proof.Proof.Spec2
import proofs.«135699_j28114855919650_1_alg».proof.Proof.Val.Args2V
import proofs.«135699_j28114855919650_1_alg».proof.Proof.Val.Blk1
import proofs.«135699_j28114855919650_1_alg».proof.Proof.Val.Acc
import proofs.«135699_j28114855919650_1_alg».proof.Proof.Val.Out
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin
import Mathlib.Logic.Equiv.Fin.Basic

noncomputable section

open scoped BigOperators

namespace Cert.KernelIdeal.Val

open Cert.KernelIdeal Cert.KernelIdeal.Gen Cert.KernelIdeal.Hand
open Idealize.ShloMosaic Idealize.ShloMosaic.ValueIdx Idealize.ShloMosaic.TcCoe
open Idealize.ShloMosaic.Pipeline (Dat)

/-! ## A sum over 512 neighbours, tile by tile -/

/-- A neighbour index inside tile `mi`: `mi * 128 + s`. -/
abbrev nb (mi : Fin 4) (s : Fin 128) : Fin 512 := ⟨mi.val * 128 + s.val, by have := mi.isLt; have := s.isLt; omega⟩

/-- A sum over the 512 neighbours is the four tile sums added, in order, onto zero. -/
theorem sum_tiles (f : Fin 512 → EReal) :
    ∑ m : Fin 512, f m
      = (((0 + ∑ s : Fin 128, f (nb 0 s)) + ∑ s : Fin 128, f (nb 1 s)) + ∑ s : Fin 128, f (nb 2 s)) + ∑ s : Fin 128, f (nb 3 s) := by
  have e : ∑ m : Fin 512, f m = ∑ p : Fin 4 × Fin 128, f (nb p.1 p.2) := by
    refine (Fintype.sum_equiv (finProdFinEquiv (m := 4) (n := 128)) (fun p => f (nb p.1 p.2)) f ?_).symm
    rintro ⟨i, j⟩
    refine congrArg f (Fin.ext ?_)
    show i.val * 128 + j.val = j.val + 128 * i.val
    omega
  rw [e, Fintype.sum_prod_type, Fin.sum_univ_four, zero_add]

variable (V : (c : Dev nD) → (b : Ref sig .tc) → Buf (Elt Ideal) ((c : Thread nD τ).loc b))

/-! ## One tile's contribution, by the arrays' entries -/

/-- A centre row inside tile `ni`: `ni * 128 + r`. -/
abbrev ctr (ni : Fin 4) (r : Fin 128) : Fin 512 := ⟨ni.val * 128 + r.val, by have := ni.isLt; have := r.isLt; omega⟩

/-- The summand of the aggregate: the second message layer times the attention weight, of the pair (centre, neighbour). -/
def wmsg (B : Cert.Spec.Args2) (b : Fin 2) (n m : Fin 512) (o : Fin 128) : EReal :=
  Cert.Spec.m22 B b n m o * Ideal.logistic (Cert.Spec.attPre2 B b n m)

theorem agg2_eq (B : Cert.Spec.Args2) (b : Fin 2) (n : Fin 512) (o : Fin 128) :
    Cert.Spec.agg2 B b n o = ∑ m : Fin 512, wmsg B b n m o := rfl

/-- The accumulation step at the point (b, ni, mi), at row r and feature o of the scratch block: what was there plus the
    sum over tile mi's neighbours. Every block entry is an entry of its array. -/
theorem acc1_pt (c : Dev nD) (b : Fin 2) (ni mi : Fin 4) (xs : Vec Ideal S128x128 .f32) (r o : Fin 128) :
    acc1 (F := Ideal) V c (pt b ni mi) xs (ix2 r o)
      = xs (ix2 r o) + ∑ s : Fin 128, wmsg (args2V V c) b (ctr ni r) (nb mi s) o := by
  unfold acc1
  rw [accStep_apply]
  simp only [blk1_0 V c b ni mi, blk1_1 V c b ni mi, blk1_2 V c b ni mi, blk1_3, blk1_4, blk1_5, blk1_6, blk1_7, blk1_8,
    blk1_9, blk1_10, blk1_11]
  rfl

/-! ## The scratch block over the four neighbour tiles of a centre tile -/

theorem scr1_congr (c : Dev nD) (n n' : ℕ) (h : n = n') (hn : n < cfg1.N) (hn' : n' < cfg1.N) :
    scr1 (F := Ideal) V c n hn = scr1 (F := Ideal) V c n' hn' := by
  subst h; rfl

/-- At the first neighbour tile the step is over zeros. -/
theorem scr1_pt_first (c : Dev nD) (b : Fin 2) (ni : Fin 4) :
    scr1 (F := Ideal) V c (pt b ni 0).val (pt b ni 0).isLt = acc1 (F := Ideal) V c (pt b ni 0) (k1_pay8 (F := Ideal)) := by
  refine scr1_zero V c (pt b ni 0) ?_
  show (b.val * 16 + ni.val * 4 + ((0 : Fin 4) : ℕ)) % 4 = 0
  have h0 : ((0 : Fin 4) : ℕ) = 0 := rfl
  omega

/-- At a later neighbour tile the step is over what the tile before left. -/
theorem scr1_pt_next (c : Dev nD) (b : Fin 2) (ni mi mi' : Fin 4) (h : mi.val = mi'.val + 1) :
    scr1 (F := Ideal) V c (pt b ni mi).val (pt b ni mi).isLt
      = acc1 (F := Ideal) V c (pt b ni mi) (scr1 (F := Ideal) V c (pt b ni mi').val (pt b ni mi').isLt) := by
  have h4 : ¬ (pt b ni mi).val % 4 = 0 := by
    show ¬ (b.val * 16 + ni.val * 4 + mi.val) % 4 = 0
    have := mi.isLt
    omega
  rw [scr1_succ V c (pt b ni mi) h4]
  refine congrArg (acc1 (F := Ideal) V c (pt b ni mi)) (scr1_congr V c _ _ ?_ _ _)
  show b.val * 16 + ni.val * 4 + mi.val - 1 = b.val * 16 + ni.val * 4 + mi'.val
  omega

/-- After the fourth neighbour tile the scratch block holds the aggregate over all 512 neighbours. -/
theorem scr1_tile (c : Dev nD) (b : Fin 2) (ni : Fin 4) (r o : Fin 128) :
    scr1 (F := Ideal) V c (pt b ni 3).val (pt b ni 3).isLt (ix2 r o) = Cert.Spec.agg2 (args2V V c) b (ctr ni r) o := by
  rw [scr1_pt_next V c b ni 3 2 rfl, acc1_pt, scr1_pt_next V c b ni 2 1 rfl, acc1_pt, scr1_pt_next V c b ni 1 0 rfl, acc1_pt,
    scr1_pt_first, acc1_pt, pay8_apply, agg2_eq, sum_tiles]

/-! ## The closing step at the fourth neighbour tile -/

/-- The output block's entry (0, r, o) after the point (b, ni, 3): the layer's result at row `ni * 128 + r`. -/
theorem fin1_pt (c : Dev nD) (b : Fin 2) (ni : Fin 4) (r o : Fin 128) :
    fin1 (F := Ideal) V c (pt b ni 3) (scr1 (F := Ideal) V c (pt b ni 3).val (pt b ni 3).isLt) (ix3 0 r o)
      = Cert.Spec.out2 (args2V V c) b (ctr ni r) o := by
  unfold fin1
  rw [outStep_apply]
  simp only [blk1_0 V c b ni 3, blk1_12, blk1_13, blk1_14, blk1_15, blk1_16, blk1_17, scr1_tile]
  rfl

/-! ## From the written blocks to the array -/

/-- The result array's block index at a point: (batch entry, centre tile, 0), decided over the grid. -/
theorem idx18 : ∀ t : Fin cfg1.N, win1_18.index t (0 : Fin 3) = t.val / 16 ∧ win1_18.index t (1 : Fin 3) = t.val % 16 / 4
    ∧ win1_18.index t (2 : Fin 3) = 0 :=
  (by decide +kernel : ∀ t : Fin grid1.N, _)

theorem pt_val3 (b : Fin 2) (ni : Fin 4) : (pt b ni 3).val = b.val * 16 + ni.val * 4 + 3 := rfl

/-- A point that writes the output block back is the fourth neighbour tile of some (batch entry, centre tile). -/
theorem flush_pt (t : Fin cfg1.N) (hf : (cfg1.win 18).flush t = true) : ∃ (b : Fin 2) (ni : Fin 4), t = pt b ni 3 := by
  have h3 := (flush1_18 t).mp hf
  have hN : grid1.N = 32 := N_1
  have ht : t.val < grid1.N := t.isLt
  refine ⟨⟨t.val / 16, by omega⟩, ⟨t.val % 16 / 4, by omega⟩, Fin.ext ?_⟩
  rw [pt_val3]
  show t.val = t.val / 16 * 16 + t.val % 16 / 4 * 4 + 3
  omega

/-- The array the run leaves: the layer's result, index by index. -/
def G18 (c : Dev nD) : S2x512x128.Idx → EReal := fun i => Cert.Spec.out2 (args2V V c) (i 0) (i 1) (i 2)

/-- Where the entry (0, r, o) of the block written at the point (b, ni, 3) sits in the array. -/
theorem emb18 (b : Fin 2) (ni : Fin 4) (r o : Fin 128) :
    ((cfg1.win 18).blk (pt b ni 3)).view.emb (ix3 0 r o) = ix3 b (ctr ni r) o := by
  obtain ⟨e0, e1, e2⟩ := idx18 (pt b ni 3)
  have hv := pt_val3 b ni
  have hb := b.isLt
  have hn := ni.isLt
  funext a; apply Fin.ext
  match a with
  | ⟨0, _⟩ =>
    show win1_18.index (pt b ni 3) (0 : Fin 3) * 1 + 1 * ((0 : Fin 1) : ℕ) = b.val
    rw [e0, hv]; have : ((0 : Fin 1) : ℕ) = 0 := rfl; omega
  | ⟨1, _⟩ =>
    show win1_18.index (pt b ni 3) (1 : Fin 3) * 128 + 1 * r.val = ni.val * 128 + r.val
    rw [e1, hv]; omega
  | ⟨2, _⟩ =>
    show win1_18.index (pt b ni 3) (2 : Fin 3) * 128 + 1 * o.val = o.val
    rw [e2]; omega

/-- What a point writes back is its block of the layer's result. -/
theorem flushed18 (c : Dev nD) (t : Fin cfg1.N) (hf : (cfg1.win 18).flush t = true) :
    (dat1 (F := Ideal) V c).flushed 18 t = ((cfg1.win 18).blk t).view.read (Elt Ideal) (G18 V c) := by
  obtain ⟨b, ni, rfl⟩ := flush_pt t hf
  show (cfg1.win 18).cut (grid1.coords (pt b ni 3)) ((dat1 (F := Ideal) V c).after 18 (pt b ni 3)) = _
  rw [after1_18]
  funext j
  obtain ⟨r, o, rfl⟩ : ∃ r o : Fin 128, j = ix3 0 r o :=
    ⟨j 1, j 2, by funext a; match a with | ⟨0, _⟩ => exact Subsingleton.elim (α := Fin 1) _ _ | ⟨1, _⟩ => rfl | ⟨2, _⟩ => rfl⟩
  show fin1 (F := Ideal) V c (pt b ni 3) (scr1 (F := Ideal) V c (pt b ni 3).val (pt b ni 3).isLt) (ix3 0 r o)
    = G18 V c (((cfg1.win 18).blk (pt b ni 3)).view.emb (ix3 0 r o))
  rw [fin1_pt, emb18]
  rfl

/-- An index of the array is in a point's block iff each coordinate is in the block's range on its axis. -/
theorem mem_blk18 (t : Fin cfg1.N) (i : S2x512x128.Idx) :
    i ∈ ((cfg1.win 18).blk t).view.set ↔ ∀ a : Fin 3, win1_18.index t a * S1x128x128.size a ≤ (i a).val
      ∧ (i a).val < win1_18.index t a * S1x128x128.size a + S1x128x128.size a := by
  show i ∈ ((View.whole main_v22).slice (win1_18.rect t)).set ↔ _
  rw [View.set_slice_whole, Rect.mem_set_unit]
  exact Iff.rfl

/-- Row n of batch entry b lies in the block written at the point (b, n / 128, 3): the written blocks cover the array. -/
theorem cover18 (i : S2x512x128.Idx) :
    ∃ t : Fin cfg1.N, (cfg1.win 18).flush t = true ∧ i ∈ ((cfg1.win 18).blk t).view.set := by
  have h0 : (i 0).val < 2 := (i 0).isLt
  have h1 : (i 1).val < 512 := (i 1).isLt
  have h2 : (i 2).val < 128 := (i 2).isLt
  have hv := pt_val3 ⟨(i 0).val, h0⟩ ⟨(i 1).val / 128, by omega⟩
  obtain ⟨e0, e1, e2⟩ := idx18 (pt ⟨(i 0).val, h0⟩ ⟨(i 1).val / 128, by omega⟩ 3)
  refine ⟨pt ⟨(i 0).val, h0⟩ ⟨(i 1).val / 128, by omega⟩ 3, (flush1_18 _).mpr ?_, ?_⟩
  · rw [hv]; show ((i 0).val * 16 + (i 1).val / 128 * 4 + 3) % 4 = 3; omega
  · rw [mem_blk18]
    intro a
    match a with
    | ⟨0, _⟩ =>
      show win1_18.index _ (0 : Fin 3) * 1 ≤ (i 0).val ∧ (i 0).val < win1_18.index _ (0 : Fin 3) * 1 + 1
      rw [e0, hv]; show ((i 0).val * 16 + (i 1).val / 128 * 4 + 3) / 16 * 1 ≤ (i 0).val ∧ (i 0).val < ((i 0).val * 16 + (i 1).val / 128 * 4 + 3) / 16 * 1 + 1; omega
    | ⟨1, _⟩ =>
      show win1_18.index _ (1 : Fin 3) * 128 ≤ (i 1).val ∧ (i 1).val < win1_18.index _ (1 : Fin 3) * 128 + 128
      rw [e1, hv]; show ((i 0).val * 16 + (i 1).val / 128 * 4 + 3) % 16 / 4 * 128 ≤ (i 1).val ∧ (i 1).val < ((i 0).val * 16 + (i 1).val / 128 * 4 + 3) % 16 / 4 * 128 + 128; omega
    | ⟨2, _⟩ =>
      show win1_18.index _ (2 : Fin 3) * 128 ≤ (i 2).val ∧ (i 2).val < win1_18.index _ (2 : Fin 3) * 128 + 128
      rw [e2]; omega

/-- THE RESULT ARRAY after the run: the layer's result at what the second kernel is handed. -/
theorem out_final (c : Dev nD) (b : Fin 2) (n : Fin 512) (o : Fin 128) :
    (dat1 (F := Ideal) V c).arrAt 18 cfg1.N (ix3 b n o) = Cert.Spec.out2 (args2V V c) b n o :=
  congrFun ((dat1 (F := Ideal) V c).arrAt_eq_of_cover 18 (G18 V c) (flushed18 V c) cover18) (ix3 b n o)

end Cert.KernelIdeal.Val

end
-- ==== Proof.Val.Glue.lean ====
/-
  The host operations of @main read at an index: the reshapes and slices that prepare the two kernels' operands
  from the sixteen arguments. A buffer no operation of a stretch writes keeps its contents; a buffer an operation
  writes holds the operation's function of its operand, and a slice or a reshape read at coordinates is the operand
  at the coordinates with the same position.
-/
import proofs.«135699_j28114855919650_1_alg».proof.Proof.KI.D1
import proofs.«135699_j28114855919650_1_alg».proof.Proof.Spec
import proofs.«135699_j28114855919650_1_alg».proof.Proof.Spec2
import proofs.«135699_j28114855919650_1_alg».proof.Proof.KI.Vals
import proofs.«135699_j28114855919650_1_alg».proof.Proof.Val.Args2V
import proofs.«135699_j28114855919650_1_alg».proof.Proof.Gen.KernelIdeal.Regions
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

open scoped BigOperators

namespace Cert.KernelIdeal.Val

open Cert.KernelIdeal Cert.KernelIdeal.Gen Cert.KernelIdeal.Hand
open Idealize.ShloMosaic Idealize.ShloMosaic.ValueIdx Idealize.ShloMosaic.TcCoe

variable (m : (ℓ : Loc nD τ sig) → Buf (Elt Ideal) ℓ)

/-! ## Arguments pass through the host stretches and the first kernel unchanged -/

/-- An argument of @main, which the first host stretch does not write, is at the first kernel's entry as launched. -/
theorem Va1_of (c : Dev nD) (r : Ref sig .tc) (h0 : r ∉ hostOps0_W) : Va1 m c r = m ((c : Thread nD τ).loc r) :=
  (StableHlo.after_of_writes_sub hostOps0 _ hostOps0_writes h0).trans rfl

theorem glue0_arg0 (c : Dev nD) : Va1 m c main_arg0 = m ((c : Thread nD τ).loc main_arg0) := Va1_of m c main_arg0 (by decide)
theorem glue0_arg2 (c : Dev nD) : Va1 m c main_arg2 = m ((c : Thread nD τ).loc main_arg2) := Va1_of m c main_arg2 (by decide)

/-- A buffer neither the first host stretch nor the first kernel writes is at the first kernel's exit as launched. -/
theorem Wa2_of (c : Dev nD) (r : Ref sig .tc) (h1 : r ≠ main_v1) (h0 : r ∉ hostOps0_W) :
    Wa2 m c (Proc.devRef .tc r) = m ((c : Thread nD τ).loc r) :=
  (Va2_of_ne m c r h1).trans (Va1_of m c r h0)

/-- A buffer no item before the second kernel writes is at the second kernel's entry as launched. -/
theorem Va3_of (c : Dev nD) (r : Ref sig .tc) (h3 : r ∉ hostOps1_W) (h1 : r ≠ main_v1) (h0 : r ∉ hostOps0_W) :
    Va3 m c r = m ((c : Thread nD τ).loc r) :=
  (StableHlo.after_of_writes_sub hostOps1 _ hostOps1_writes h3).trans (Wa2_of m c r h1 h0)

/-- The second host stretch does not write the first kernel's result. -/
theorem Va3_v1 (c : Dev nD) : Va3 m c main_v1 = (dat0 (F := Ideal) (Va1 m) c).arrAt 3 cfg0.N :=
  (StableHlo.after_of_writes_sub hostOps1 _ hostOps1_writes (by decide)).trans (Va2_v1 m c)

/-- The first host stretch's one reshape: the bias as a row. -/
theorem glue0_v0 (c : Dev nD) (o : Fin 128) :
    (Va1 m c main_v0 : S1x128.Idx → EReal) (ix2 0 o) = (m ((c : Thread nD τ).loc main_arg3) : S128.Idx → EReal) (ix1 o) := by
  have e : (Va1 m c main_v0 : S1x128.Idx → EReal)
      = shapeCast S1x128 (m ((c : Thread nD τ).loc main_arg3) : S128.Idx → EReal) shapeCasts_S128_S1x128 := by
    show StableHlo.after hostOps0 (Wa0 m c) (Proc.devRef .tc main_v0) = _
    after_results
    rfl
  rw [e]
  exact shapeCast_a_1a_apply _ _ 0 o

/-! ## Reshapes read at coordinates -/

section Layout
variable {α : Type}

/-- An `[a, 1]` column cast to `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A `[1, 1]` array cast to a scalar reads the entry `(0, 0)`. -/
theorem shapeCast_11_0_apply (x : (⟨2, ![1, 1]⟩ : Shape).Idx → α) (h : (⟨2, ![1, 1]⟩ : Shape).ShapeCasts ⟨0, ![]⟩)
    (j : (⟨0, ![]⟩ : Shape).Idx) : shapeCast ⟨0, ![]⟩ x h j = x (ix2 (0 : Fin 1) (0 : Fin 1)) :=
  shapeCast_apply x h _ _ (by
    rw [Shape.rowMajor_val_two]
    show 0 * 1 + 0 = (Shape.rowMajorPi _ j).val
    rw [Shape.rowMajorPi_zero])

/-- A scalar cast to `[1, 1]` reads the scalar, whatever the two unit coordinates. -/
theorem shapeCast_0_11_apply (x : (⟨0, ![]⟩ : Shape).Idx → α) (h : (⟨0, ![]⟩ : Shape).ShapeCasts ⟨2, ![1, 1]⟩)
    (u v : Fin 1) : shapeCast ⟨2, ![1, 1]⟩ x h (ix2 u v) = x ix0 :=
  shapeCast_apply x h _ _ (by
    have hu : u.val = 0 := by omega
    have hv : v.val = 0 := by omega
    rw [Shape.rowMajor_val_two]
    show (Shape.rowMajorPi _ ix0).val = u.val * 1 + v.val
    rw [Shape.rowMajorPi_zero, hu, hv])

end Layout

/-! ## What the second host stretch leaves in each buffer it writes, as a term of the arguments -/

theorem Va3_v2 (c : Dev nD) : (Va3 m c main_v2 : S128x128.Idx → EReal)
    = extractStridedSlice S128x128 ![0, 0] (m ((c : Thread nD τ).loc main_arg4) : S128x129.Idx → EReal) slices_S128x129_S128x128_0_0 := by
  show StableHlo.after hostOps1 (Wa2 m c) (Proc.devRef .tc main_v2) = _
  after_results
  rw [Wa2_of m c main_arg4 (by decide) (by decide)]

theorem Va3_v5 (c : Dev nD) : (Va3 m c main_v5 : S1x128.Idx → EReal)
    = shapeCast S1x128 (shapeCast S128 (extractStridedSlice S128x1 ![0, 128] (m ((c : Thread nD τ).loc main_arg4) : S128x129.Idx → EReal)
        slices_S128x129_S128x1_0_128) shapeCasts_S128x1_S128) shapeCasts_S128_S1x128 := by
  show StableHlo.after hostOps1 (Wa2 m c) (Proc.devRef .tc main_v5) = _
  after_results
  rw [Wa2_of m c main_arg4 (by decide) (by decide)]
  rfl

theorem Va3_v6 (c : Dev nD) : (Va3 m c main_v6 : S1x128.Idx → EReal)
    = shapeCast S1x128 (m ((c : Thread nD τ).loc main_arg5) : S128.Idx → EReal) shapeCasts_S128_S1x128 := by
  show StableHlo.after hostOps1 (Wa2 m c) (Proc.devRef .tc main_v6) = _
  after_results
  rw [Wa2_of m c main_arg5 (by decide) (by decide)]
  rfl

theorem Va3_v7 (c : Dev nD) : (Va3 m c main_v7 : S1x128.Idx → EReal)
    = shapeCast S1x128 (m ((c : Thread nD τ).loc main_arg7) : S128.Idx → EReal) shapeCasts_S128_S1x128 := by
  show StableHlo.after hostOps1 (Wa2 m c) (Proc.devRef .tc main_v7) = _
  after_results
  rw [Wa2_of m c main_arg7 (by decide) (by decide)]
  rfl

theorem Va3_v18 (c : Dev nD) : (Va3 m c main_v18 : S1x128.Idx → EReal)
    = shapeCast S1x128 (m ((c : Thread nD τ).loc main_arg11) : S128.Idx → EReal) shapeCasts_S128_S1x128 := by
  show StableHlo.after hostOps1 (Wa2 m c) (Proc.devRef .tc main_v18) = _
  after_results
  rw [Wa2_of m c main_arg11 (by decide) (by decide)]
  rfl

theorem Va3_v19 (c : Dev nD) : (Va3 m c main_v19 : S1x128.Idx → EReal)
    = shapeCast S1x128 (m ((c : Thread nD τ).loc main_arg13) : S128.Idx → EReal) shapeCasts_S128_S1x128 := by
  show StableHlo.after hostOps1 (Wa2 m c) (Proc.devRef .tc main_v19) = _
  after_results
  rw [Wa2_of m c main_arg13 (by decide) (by decide)]
  rfl

theorem Va3_v20 (c : Dev nD) : (Va3 m c main_v20 : S1x128.Idx → EReal)
    = shapeCast S1x128 (m ((c : Thread nD τ).loc main_arg14) : S128.Idx → EReal) shapeCasts_S128_S1x128 := by
  show StableHlo.after hostOps1 (Wa2 m c) (Proc.devRef .tc main_v20) = _
  after_results
  rw [Wa2_of m c main_arg14 (by decide) (by decide)]
  rfl

theorem Va3_v21 (c : Dev nD) : (Va3 m c main_v21 : S1x128.Idx → EReal)
    = shapeCast S1x128 (m ((c : Thread nD τ).loc main_arg15) : S128.Idx → EReal) shapeCasts_S128_S1x128 := by
  show StableHlo.after hostOps1 (Wa2 m c) (Proc.devRef .tc main_v21) = _
  after_results
  rw [Wa2_of m c main_arg15 (by decide) (by decide)]
  rfl

theorem Va3_v10 (c : Dev nD) : (Va3 m c main_v10 : S1x128.Idx → EReal)
    = shapeCast S1x128 (shapeCast S128 (extractStridedSlice S1x128 ![0, 0] (m ((c : Thread nD τ).loc main_arg8) : S1x257.Idx → EReal)
        slices_S1x257_S1x128_0_0) shapeCasts_S1x128_S128) shapeCasts_S128_S1x128 := by
  show StableHlo.after hostOps1 (Wa2 m c) (Proc.devRef .tc main_v10) = _
  after_results
  rw [Wa2_of m c main_arg8 (by decide) (by decide)]
  rfl

theorem Va3_v13 (c : Dev nD) : (Va3 m c main_v13 : S1x128.Idx → EReal)
    = shapeCast S1x128 (shapeCast S128 (extractStridedSlice S1x128 ![0, 128] (m ((c : Thread nD τ).loc main_arg8) : S1x257.Idx → EReal)
        slices_S1x257_S1x128_0_128) shapeCasts_S1x128_S128) shapeCasts_S128_S1x128 := by
  show StableHlo.after hostOps1 (Wa2 m c) (Proc.devRef .tc main_v13) = _
  after_results
  rw [Wa2_of m c main_arg8 (by decide) (by decide)]
  rfl

theorem Va3_v16 (c : Dev nD) : (Va3 m c main_v16 : S1x1.Idx → EReal)
    = shapeCast S1x1 (shapeCast S_ (extractStridedSlice S1x1 ![0, 256] (m ((c : Thread nD τ).loc main_arg8) : S1x257.Idx → EReal)
        slices_S1x257_S1x1_0_256) shapeCasts_S1x1_S_) shapeCasts_S_S1x1 := by
  show StableHlo.after hostOps1 (Wa2 m c) (Proc.devRef .tc main_v16) = _
  after_results
  rw [Wa2_of m c main_arg8 (by decide) (by decide)]
  rfl

theorem Va3_v17 (c : Dev nD) : (Va3 m c main_v17 : S1x1.Idx → EReal)
    = shapeCast S1x1 (m ((c : Thread nD τ).loc main_arg9) : S1.Idx → EReal) shapeCasts_S1_S1x1 := by
  show StableHlo.after hostOps1 (Wa2 m c) (Proc.devRef .tc main_v17) = _
  after_results
  rw [Wa2_of m c main_arg9 (by decide) (by decide)]
  rfl

/-! ## The second kernel's operands by coordinates -/

/-- The first 128 columns of the first message layer's weights. -/
theorem glue_Wm1hd (c : Dev nD) (o e : Fin 128) :
    (Va3 m c main_v2 : S128x128.Idx → EReal) (ix2 o e)
      = (m ((c : Thread nD τ).loc main_arg4) : S128x129.Idx → EReal) (ix2 o (Fin.castSucc e)) := by
  rw [Va3_v2]
  exact slice2_axis1_apply 0 _ _ o e (Fin.castSucc e) (by simp)

/-- Their last column, as a row. -/
theorem glue_wlast (c : Dev nD) (o : Fin 128) :
    (Va3 m c main_v5 : S1x128.Idx → EReal) (ix2 0 o)
      = (m ((c : Thread nD τ).loc main_arg4) : S128x129.Idx → EReal) (ix2 o (Fin.last 128)) := by
  rw [Va3_v5]
  refine (shapeCast_a_1a_apply _ _ 0 o).trans ?_
  refine (shapeCast_a1_a_apply _ _ o).trans ?_
  exact slice2_axis1_apply 128 _ _ o 0 (Fin.last 128) (by simp)

theorem glue_bm1 (c : Dev nD) (o : Fin 128) :
    (Va3 m c main_v6 : S1x128.Idx → EReal) (ix2 0 o) = (m ((c : Thread nD τ).loc main_arg5) : S128.Idx → EReal) (ix1 o) := by
  rw [Va3_v6]
  exact shapeCast_a_1a_apply _ _ 0 o

theorem glue_bm2 (c : Dev nD) (o : Fin 128) :
    (Va3 m c main_v7 : S1x128.Idx → EReal) (ix2 0 o) = (m ((c : Thread nD τ).loc main_arg7) : S128.Idx → EReal) (ix1 o) := by
  rw [Va3_v7]
  exact shapeCast_a_1a_apply _ _ 0 o

/-- The attention weights of the centre's features: columns 0 to 127. -/
theorem glue_wn (c : Dev nD) (e : Fin 128) (h : e.val < 257) :
    (Va3 m c main_v10 : S1x128.Idx → EReal) (ix2 0 e)
      = (m ((c : Thread nD τ).loc main_arg8) : S1x257.Idx → EReal) (ix2 0 ⟨e.val, h⟩) := by
  rw [Va3_v10]
  refine (shapeCast_a_1a_apply _ _ 0 e).trans ?_
  refine (shapeCast_1a_a_apply _ _ e).trans ?_
  exact slice2_axis1_apply 0 _ _ 0 e ⟨e.val, h⟩ (by simp)

/-- The attention weights of the neighbour's features: columns 128 to 255. -/
theorem glue_wm (c : Dev nD) (e : Fin 128) (h : 128 + e.val < 257) :
    (Va3 m c main_v13 : S1x128.Idx → EReal) (ix2 0 e)
      = (m ((c : Thread nD τ).loc main_arg8) : S1x257.Idx → EReal) (ix2 0 ⟨128 + e.val, h⟩) := by
  rw [Va3_v13]
  refine (shapeCast_a_1a_apply _ _ 0 e).trans ?_
  refine (shapeCast_1a_a_apply _ _ e).trans ?_
  exact slice2_axis1_apply 128 _ _ 0 e ⟨128 + e.val, h⟩ rfl

/-- The attention weight of the edge: column 256. -/
theorem glue_wadj (c : Dev nD) (h : 256 < 257) :
    (Va3 m c main_v16 : S1x1.Idx → EReal) (ix2 0 0)
      = (m ((c : Thread nD τ).loc main_arg8) : S1x257.Idx → EReal) (ix2 0 ⟨256, h⟩) := by
  rw [Va3_v16]
  refine (shapeCast_0_11_apply _ _ 0 0).trans ?_
  refine (shapeCast_11_0_apply _ _ _).trans ?_
  exact slice2_axis1_apply 256 _ _ 0 0 ⟨256, h⟩ rfl

/-- The attention bias. -/
theorem glue_batt (c : Dev nD) :
    (Va3 m c main_v17 : S1x1.Idx → EReal) (ix2 0 0) = (m ((c : Thread nD τ).loc main_arg9) : S1.Idx → EReal) (ix1 0) := by
  rw [Va3_v17]
  exact shapeCast_a_1a_apply _ _ 0 0

theorem glue_bo1 (c : Dev nD) (o : Fin 128) :
    (Va3 m c main_v18 : S1x128.Idx → EReal) (ix2 0 o) = (m ((c : Thread nD τ).loc main_arg11) : S128.Idx → EReal) (ix1 o) := by
  rw [Va3_v18]
  exact shapeCast_a_1a_apply _ _ 0 o

theorem glue_bo2 (c : Dev nD) (o : Fin 128) :
    (Va3 m c main_v19 : S1x128.Idx → EReal) (ix2 0 o) = (m ((c : Thread nD τ).loc main_arg13) : S128.Idx → EReal) (ix1 o) := by
  rw [Va3_v19]
  exact shapeCast_a_1a_apply _ _ 0 o

theorem glue_g (c : Dev nD) (o : Fin 128) :
    (Va3 m c main_v20 : S1x128.Idx → EReal) (ix2 0 o) = (m ((c : Thread nD τ).loc main_arg14) : S128.Idx → EReal) (ix1 o) := by
  rw [Va3_v20]
  exact shapeCast_a_1a_apply _ _ 0 o

theorem glue_be (c : Dev nD) (o : Fin 128) :
    (Va3 m c main_v21 : S1x128.Idx → EReal) (ix2 0 o) = (m ((c : Thread nD τ).loc main_arg15) : S128.Idx → EReal) (ix1 o) := by
  rw [Va3_v21]
  exact shapeCast_a_1a_apply _ _ 0 o

/-- The sixteen arguments of @main on core `c` at launch, by coordinates. -/
abbrev argsOf (c : Dev nD) : Cert.Spec.Args :=
  Cert.Spec.ofArrays (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))

/-- What the second kernel is handed is the slices of the arguments the layer's mathematics names, given that the
    first kernel's result is the input linear layer. -/
theorem glue_args2 (c : Dev nD)
    (hh : ∀ (b : Fin 2) (n : Fin 512) (e : Fin 128), (Va3 m c main_v1 : S2x512x128.Idx → EReal) (ix3 b n e)
      = Cert.Spec.h (argsOf m c) b n e) :
    args2V (Va3 m) c = Cert.Spec.args2Of (argsOf m c) := by
  unfold args2V Cert.Spec.args2Of
  rw [Cert.Spec.Args2.mk.injEq]
  refine ⟨?_, ?_, ?_, ?_, ?_, ?_, ?_, ?_, ?_, ?_, ?_, ?_, ?_, ?_, ?_, ?_, ?_⟩
  · funext b n e; exact hh b n e
  · funext b n k; rw [Va3_of m c main_arg1 (by decide) (by decide) (by decide)]; rfl
  · funext o e; exact glue_Wm1hd m c o e
  · funext o; exact glue_wlast m c o
  · funext o; exact glue_bm1 m c o
  · funext o d; rw [Va3_of m c main_arg6 (by decide) (by decide) (by decide)]; rfl
  · funext o; exact glue_bm2 m c o
  · funext e; exact glue_wn m c e _
  · funext e; exact glue_wm m c e _
  · exact glue_wadj m c _
  · exact glue_batt m c
  · funext o d; rw [Va3_of m c main_arg10 (by decide) (by decide) (by decide)]; rfl
  · funext o; exact glue_bo1 m c o
  · funext o d; rw [Va3_of m c main_arg12 (by decide) (by decide) (by decide)]; rfl
  · funext o; exact glue_bo2 m c o
  · funext o; exact glue_g m c o
  · funext o; exact glue_be m c o

end Cert.KernelIdeal.Val

end
-- ==== Proof.Val.Final.lean ====
/-
  The kernel program's result at the ideal instance: after the run, the result array holds the layer's output of the
  sixteen arguments as launched. The first kernel's array is the input linear layer of the arguments; the host
  operations hand the second kernel slices and reshapes of the arguments; the second kernel's array is then the layer.
-/
import proofs.«135699_j28114855919650_1_alg».proof.Proof.KI.Vals
import proofs.«135699_j28114855919650_1_alg».proof.Proof.Spec2
import proofs.«135699_j28114855919650_1_alg».proof.Proof.Val.Args2V
import proofs.«135699_j28114855919650_1_alg».proof.Proof.Val.H
import proofs.«135699_j28114855919650_1_alg».proof.Proof.Val.Agg
import proofs.«135699_j28114855919650_1_alg».proof.Proof.Val.Glue
import Idealize.ShloMosaic.Lib.ValueIdx

set_option maxRecDepth 16384

noncomputable section

open scoped BigOperators

namespace Cert.KernelIdeal.Val

open Cert.KernelIdeal Cert.KernelIdeal.Gen Cert.KernelIdeal.Hand
open Idealize.ShloMosaic Idealize.ShloMosaic.ValueIdx Idealize.ShloMosaic.TcCoe
open Idealize.ShloMosaic.Pipeline (Dat)

variable (m : (ℓ : Loc nD τ sig) → Buf (Elt Ideal) ℓ)

/-- The second kernel finds, in the first kernel's result array, the input linear layer of the arguments. -/
theorem h_value (c : Dev nD) (b : Fin 2) (n : Fin 512) (e : Fin 128) :
    (Va3 m c main_v1 : S2x512x128.Idx → EReal) (ix3 b n e) = Cert.Spec.h (argsOf m c) b n e := by
  rw [Va3_v1]
  refine (h_final (Va1 m) c b n e).trans ?_
  unfold xArr wArr bArr
  rw [glue0_arg0, glue0_arg2, glue0_v0]
  rfl

/-- After the run the result array is the layer's output of the arguments as launched. -/
theorem kernel_value (c : Dev nD) :
    (Va4 m c main_v22 : S2x512x128.Idx → EReal) = fun i => Cert.Spec.out (argsOf m c) (i 0) (i 1) (i 2) := by
  funext i
  obtain ⟨b, n, o, rfl⟩ : ∃ (b : Fin 2) (n : Fin 512) (o : Fin 128), i = ix3 b n o := ⟨i 0, i 1, i 2, eq_ix3 i⟩
  rw [Va4_v22]
  refine (out_final (Va3 m) c b n o).trans ?_
  rw [glue_args2 m c (h_value m c)]
  exact Cert.Spec.out2_args2Of _ b n o

end Cert.KernelIdeal.Val

end
-- ==== Proof.Ref.A.lean ====
/-
  The reference's first half read against the specification: the input linear layer and the attention-weighted
  aggregate, each at an index by coordinates.
-/
import proofs.«135699_j28114855919650_1_alg».proof.Proof.Gen.ReferenceIdeal.Read
import proofs.«135699_j28114855919650_1_alg».proof.Proof.Spec
import Idealize.ShloMosaic.Lib.ValueIdx
import Idealize.ShloMosaic.Lib.Pipeline.Value
import Idealize.ShloMosaic.PureOps.Ideal.Laws
import Idealize.ShloMosaic.Lib.IdealHost
import Mathlib.Algebra.BigOperators.Fin

noncomputable section

open scoped BigOperators

namespace Cert.RefValue

open Cert.ReferenceIdeal Cert.ReferenceIdeal.Gen Cert.ReferenceIdeal.Read
open Idealize.ShloMosaic Idealize.ShloMosaic.ValueIdx

variable (x0 : (⟨S2x512x128, .f32⟩ : BufTy).Contents (Elt Ideal)) (x1 : (⟨S2x512x512, .f32⟩ : BufTy).Contents (Elt Ideal))
  (x2 : (⟨S128x128, .f32⟩ : BufTy).Contents (Elt Ideal)) (x3 : (⟨S128, .f32⟩ : BufTy).Contents (Elt Ideal))
  (x4 : (⟨S128x129, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S1x257, .f32⟩ : BufTy).Contents (Elt Ideal)) (x9 : (⟨S1, .f32⟩ : BufTy).Contents (Elt Ideal))
  (x10 : (⟨S128x128, .f32⟩ : BufTy).Contents (Elt Ideal)) (x11 : (⟨S128, .f32⟩ : BufTy).Contents (Elt Ideal))
  (x12 : (⟨S128x128, .f32⟩ : BufTy).Contents (Elt Ideal)) (x13 x14 x15 : (⟨S128, .f32⟩ : BufTy).Contents (Elt Ideal))

local notation "𝔸" => Cert.Spec.ofArrays x0 x1 x2 x3 x4 x5 x6 x7 x8 x9 x10 x11 x12 x13 x14 x15

/-! ## Two laws of finite sums -/

/-- A sum over 257 = 128 + 128 + 1 terms, as the first 128, the next 128, and the last. -/
theorem sum_split_257 (f : Fin 257 → EReal) :
    ∑ k : Fin 257, f k
      = ((∑ e : Fin 128, f ⟨e.val, by omega⟩) + (∑ e : Fin 128, f ⟨128 + e.val, by omega⟩)) + f ⟨256, by omega⟩ := by
  rw [Fin.sum_univ_castSucc (n := 256) f]
  congr 1
  exact Fin.sum_univ_add (a := 128) (b := 128) (fun i : Fin (128 + 128) => f (Fin.castSucc (n := 256) i))

/-! ## The index maps of the reference's operations, at an index given by coordinates -/

theorem lidx0 (b : Fin 2) (n : Fin 512) (o k : Fin 128) : lidx_main_v0 (ix3 b n o) k = ix3 b n k :=
  funext fun a => by match a with | ⟨0, _⟩ => rfl | ⟨1, _⟩ => rfl | ⟨2, _⟩ => rfl
theorem ridx0 (b : Fin 2) (n : Fin 512) (o k : Fin 128) : ridx_main_v0 (ix3 b n o) k = ix2 o k :=
  funext fun a => by match a with | ⟨0, _⟩ => rfl | ⟨1, _⟩ => rfl
theorem idx12 (b : Fin 2) (n : Fin 512) (o : Fin 128) : idx_main_v1 (idx_main_v2 (ix3 b n o)) = ix1 o :=
  funext fun a => by match a with | ⟨0, _⟩ => rfl
theorem idx56 (b : Fin 2) (n m : Fin 512) (e : Fin 128) : idx_main_v5 (idx_main_v6 (ix4 b n m e)) = ix3 b m e :=
  funext fun a => by match a with | ⟨0, _⟩ => rfl | ⟨1, _⟩ => rfl | ⟨2, _⟩ => rfl
theorem idx78 (b : Fin 2) (n m : Fin 512) (e : Fin 128) : idx_main_v7 (idx_main_v8 (ix4 b n m e)) = ix3 b n e :=
  funext fun a => by match a with | ⟨0, _⟩ => rfl | ⟨1, _⟩ => rfl | ⟨2, _⟩ => rfl
theorem idx4 (b : Fin 2) (n m : Fin 512) (z : Fin 1) : idx_main_v4 (ix4 b n m z) = ix3 b n m :=
  funext fun a => by match a with | ⟨0, _⟩ => rfl | ⟨1, _⟩ => rfl | ⟨2, _⟩ => rfl
theorem lidx10 (b : Fin 2) (n m : Fin 512) (o : Fin 128) (k : Fin 129) : lidx_main_v10 (ix4 b n m o) k = ix4 b n m k :=
  funext fun a => by match a with | ⟨0, _⟩ => rfl | ⟨1, _⟩ => rfl | ⟨2, _⟩ => rfl | ⟨3, _⟩ => rfl
theorem ridx10 (b : Fin 2) (n m : Fin 512) (o : Fin 128) (k : Fin 129) : ridx_main_v10 (ix4 b n m o) k = ix2 o k :=
  funext fun a => by match a with | ⟨0, _⟩ => rfl | ⟨1, _⟩ => rfl
theorem idx1112 (b : Fin 2) (n m : Fin 512) (o : Fin 128) : idx_main_v11 (idx_main_v12 (ix4 b n m o)) = ix1 o :=
  funext fun a => by match a with | ⟨0, _⟩ => rfl
theorem lidx15 (b : Fin 2) (n m : Fin 512) (o k : Fin 128) : lidx_main_v15 (ix4 b n m o) k = ix4 b n m k :=
  funext fun a => by match a with | ⟨0, _⟩ => rfl | ⟨1, _⟩ => rfl | ⟨2, _⟩ => rfl | ⟨3, _⟩ => rfl
theorem ridx15 (b : Fin 2) (n m : Fin 512) (o k : Fin 128) : ridx_main_v15 (ix4 b n m o) k = ix2 o k :=
  funext fun a => by match a with | ⟨0, _⟩ => rfl | ⟨1, _⟩ => rfl
theorem idx1617 (b : Fin 2) (n m : Fin 512) (o : Fin 128) : idx_main_v16 (idx_main_v17 (ix4 b n m o)) = ix1 o :=
  funext fun a => by match a with | ⟨0, _⟩ => rfl
theorem lidx20 (b : Fin 2) (n m : Fin 512) (k : Fin 257) : lidx_main_v20 (ix4 b n m (0 : Fin 1)) k = ix4 b n m k :=
  funext fun a => by match a with | ⟨0, _⟩ => rfl | ⟨1, _⟩ => rfl | ⟨2, _⟩ => rfl | ⟨3, _⟩ => rfl
theorem ridx20 (b : Fin 2) (n m : Fin 512) (k : Fin 257) : ridx_main_v20 (ix4 b n m (0 : Fin 1)) k = ix2 (0 : Fin 1) k :=
  funext fun a => by match a with | ⟨0, _⟩ => rfl | ⟨1, _⟩ => rfl
theorem idx2122 (b : Fin 2) (n m : Fin 512) : idx_main_v21 (idx_main_v22 (ix4 b n m (0 : Fin 1))) = ix1 (0 : Fin 1) :=
  funext fun a => by match a with | ⟨0, _⟩ => rfl
theorem idx30 (b : Fin 2) (n m : Fin 512) (o : Fin 128) : idx_main_v30 (ix4 b n m o) = ix4 b n m (0 : Fin 1) :=
  funext fun a => by match a with | ⟨0, _⟩ => rfl | ⟨1, _⟩ => rfl | ⟨2, _⟩ => rfl | ⟨3, _⟩ => rfl
theorem idx32 (b : Fin 2) (n : Fin 512) (o : Fin 128) (k : Fin 512) : idx_main_v32 (ix3 b n o) k = ix4 b n k o :=
  funext fun a => by match a with | ⟨0, _⟩ => rfl | ⟨1, _⟩ => rfl | ⟨2, _⟩ => rfl | ⟨3, _⟩ => rfl

/-! ## The operations, one after the other -/

/-- The input linear layer, as the reference computes it. -/
theorem ref_h (b : Fin 2) (n : Fin 512) (o : Fin 128) :
    val_main_v3 (F := Ideal) x0 x2 x3 (ix3 b n o)
      = Cert.Spec.h (Cert.Spec.ofArrays x0 x1 x2 x3 x4 x5 x6 x7 x8 x9 x10 x11 x12 x13 x14 x15) b n o := by
  rw [val_main_v3_apply, val_main_v0_apply, val_main_v2_apply, val_main_v1_apply]
  simp only [Ideal.addf_def, lidx0, ridx0, idx12]
  rfl

/-- The linear layer's value broadcast along the centre axis: the neighbour's row. -/
theorem ref_v6 (b : Fin 2) (n m : Fin 512) (e : Fin 128) :
    val_main_v6 (F := Ideal) x0 x2 x3 (ix4 b n m e) = Cert.Spec.h 𝔸 b m e := by
  rw [val_main_v6_apply, val_main_v5_apply, idx56]
  exact ref_h x0 x1 x2 x3 x4 x5 x6 x7 x8 x9 x10 x11 x12 x13 x14 x15 b m e

/-- The linear layer's value broadcast along the neighbour axis: the centre's row. -/
theorem ref_v8 (b : Fin 2) (n m : Fin 512) (e : Fin 128) :
    val_main_v8 (F := Ideal) x0 x2 x3 (ix4 b n m e) = Cert.Spec.h 𝔸 b n e := by
  rw [val_main_v8_apply, val_main_v7_apply, idx78]
  exact ref_h x0 x1 x2 x3 x4 x5 x6 x7 x8 x9 x10 x11 x12 x13 x14 x15 b n e

/-- The edge weights with a unit axis behind. -/
theorem ref_v4 (b : Fin 2) (n m : Fin 512) (z : Fin 1) :
    val_main_v4 (F := Ideal) x1 (ix4 b n m z) = x1 (ix3 b n m) := by
  rw [val_main_v4_apply, idx4]

/-- The first message layer's operand below column 128: the neighbour's features. -/
theorem ref_v9_left (b : Fin 2) (n m : Fin 512) (e : Fin 128) :
    val_main_v9 (F := Ideal) x0 x1 x2 x3 (ix4 b n m (Fin.castSucc e)) = Cert.Spec.h 𝔸 b m e := by
  unfold val_main_v9
  refine (concatenate_pair_apply_left _ _ _ _ _ (by rfl) (ix4 b n m e) ?_).trans (ref_v6 x0 x1 x2 x3 x4 x5 x6 x7 x8 x9 x10 x11 x12 x13 x14 x15 b n m e)
  intro a
  match a with | ⟨0, _⟩ => rfl | ⟨1, _⟩ => rfl | ⟨2, _⟩ => rfl | ⟨3, _⟩ => rfl

/-- The first message layer's operand at column 128: the edge weight. -/
theorem ref_v9_last (b : Fin 2) (n m : Fin 512) :
    val_main_v9 (F := Ideal) x0 x1 x2 x3 (ix4 b n m (Fin.last 128)) = x1 (ix3 b n m) := by
  unfold val_main_v9
  refine (concatenate_pair_apply_right _ _ _ _ _ (by rfl) (by rfl) (ix4 b n m (0 : Fin 1)) ?_ ?_).trans (ref_v4 x1 b n m 0)
  · intro a ha
    match a, ha with
    | ⟨0, _⟩, _ => rfl
    | ⟨1, _⟩, _ => rfl
    | ⟨2, _⟩, _ => rfl
    | ⟨3, _⟩, h => exact absurd (Fin.ext (by rfl)) h
  · rfl

/-- The first message layer before the relu. -/
theorem ref_m1 (b : Fin 2) (n m : Fin 512) (o : Fin 128) :
    val_main_v13 (F := Ideal) x0 x1 x2 x3 x4 x5 (ix4 b n m o) = Cert.Spec.m1pre 𝔸 b n m o := by
  rw [val_main_v13_apply, val_main_v10_apply, val_main_v12_apply, val_main_v11_apply]
  simp only [Ideal.addf_def, lidx10, ridx10, idx1112]
  rw [Fin.sum_univ_castSucc (n := 128)]
  simp only [ref_v9_left x0 x1 x2 x3 x4 x5 x6 x7 x8 x9 x10 x11 x12 x13 x14 x15, ref_v9_last x0 x1 x2 x3]
  exact add_right_comm _ _ _

/-- The relu of the first message layer. -/
theorem ref_relu (b : Fin 2) (n m : Fin 512) (o : Fin 128) :
    val_main_v14 (F := Ideal) x0 x1 x2 x3 x4 x5 (ix4 b n m o) = max (Cert.Spec.m1pre 𝔸 b n m o) Cert.Spec.zeroW := by
  rw [val_main_v14_apply, val_main_call0_v0_apply, val_main_call0_cst_apply, ref_m1 x0 x1 x2 x3 x4 x5 x6 x7 x8 x9 x10 x11 x12 x13 x14 x15]
  rfl

/-- The second message layer. -/
theorem ref_m2 (b : Fin 2) (n m : Fin 512) (o : Fin 128) :
    val_main_v18 (F := Ideal) x0 x1 x2 x3 x4 x5 x6 x7 (ix4 b n m o) = Cert.Spec.m2 𝔸 b n m o := by
  rw [val_main_v18_apply, val_main_v15_apply, val_main_v17_apply, val_main_v16_apply]
  simp only [Ideal.addf_def, lidx15, ridx15, idx1617, ref_relu x0 x1 x2 x3 x4 x5 x6 x7 x8 x9 x10 x11 x12 x13 x14 x15]
  rfl

/-- The attention logit's operand below column 128: the centre's features. -/
theorem ref_v19_a (b : Fin 2) (n m : Fin 512) (e : Fin 128) :
    val_main_v19 (F := Ideal) x0 x1 x2 x3 (ix4 b n m (⟨e.val, by omega⟩ : Fin 257)) = Cert.Spec.h 𝔸 b n e := by
  unfold val_main_v19
  refine (concatenate_apply_piece _ _ _ _ 0 (by simp) S2x512x512x128 (val_main_v8 (F := Ideal) x0 x2 x3) (by rfl) (by rfl)
    0 (by rfl) (ix4 b n m e) ?_ ?_).trans (ref_v8 x0 x1 x2 x3 x4 x5 x6 x7 x8 x9 x10 x11 x12 x13 x14 x15 b n m e)
  · intro a ha
    match a, ha with
    | ⟨0, _⟩, _ => rfl
    | ⟨1, _⟩, _ => rfl
    | ⟨2, _⟩, _ => rfl
    | ⟨3, _⟩, h => exact absurd (Fin.ext (by rfl)) h
  · exact Nat.zero_add _

/-- The attention logit's operand in columns 128 to 255: the neighbour's features. -/
theorem ref_v19_b (b : Fin 2) (n m : Fin 512) (e : Fin 128) :
    val_main_v19 (F := Ideal) x0 x1 x2 x3 (ix4 b n m (⟨128 + e.val, by omega⟩ : Fin 257)) = Cert.Spec.h 𝔸 b m e := by
  unfold val_main_v19
  refine (concatenate_apply_piece _ _ _ _ 1 (by simp) S2x512x512x128 (val_main_v6 (F := Ideal) x0 x2 x3) (by rfl) (by rfl)
    128 (by rfl) (ix4 b n m e) ?_ ?_).trans (ref_v6 x0 x1 x2 x3 x4 x5 x6 x7 x8 x9 x10 x11 x12 x13 x14 x15 b n m e)
  · intro a ha
    match a, ha with
    | ⟨0, _⟩, _ => rfl
    | ⟨1, _⟩, _ => rfl
    | ⟨2, _⟩, _ => rfl
    | ⟨3, _⟩, h => exact absurd (Fin.ext (by rfl)) h
  · rfl

/-- The attention logit's operand at column 256: the edge weight. -/
theorem ref_v19_c (b : Fin 2) (n m : Fin 512) :
    val_main_v19 (F := Ideal) x0 x1 x2 x3 (ix4 b n m (⟨256, by omega⟩ : Fin 257)) = x1 (ix3 b n m) := by
  unfold val_main_v19
  refine (concatenate_apply_piece _ _ _ _ 2 (by simp) S2x512x512x1 (val_main_v4 (F := Ideal) x1) (by rfl) (by rfl)
    256 (by rfl) (ix4 b n m (0 : Fin 1)) ?_ ?_).trans (ref_v4 x1 b n m 0)
  · intro a ha
    match a, ha with
    | ⟨0, _⟩, _ => rfl
    | ⟨1, _⟩, _ => rfl
    | ⟨2, _⟩, _ => rfl
    | ⟨3, _⟩, h => exact absurd (Fin.ext (by rfl)) h
  · rfl

/-- The attention logit. -/
theorem ref_attPre (b : Fin 2) (n m : Fin 512) :
    val_main_v23 (F := Ideal) x0 x1 x2 x3 x8 x9 (ix4 b n m (0 : Fin 1)) = Cert.Spec.attPre 𝔸 b n m := by
  rw [val_main_v23_apply, val_main_v20_apply, val_main_v22_apply, val_main_v21_apply]
  simp only [Ideal.addf_def, lidx20, ridx20, idx2122]
  rw [sum_split_257]
  simp only [ref_v19_a x0 x1 x2 x3 x4 x5 x6 x7 x8 x9 x10 x11 x12 x13 x14 x15, ref_v19_b x0 x1 x2 x3 x4 x5 x6 x7 x8 x9 x10 x11 x12 x13 x14 x15, ref_v19_c x0 x1 x2 x3]
  rfl

/-- The attention weight: one over one plus the exponential of the negated logit is the logistic function. -/
theorem ref_att (b : Fin 2) (n m : Fin 512) :
    val_main_v29 (F := Ideal) x0 x1 x2 x3 x8 x9 (ix4 b n m (0 : Fin 1)) = Ideal.logistic (Cert.Spec.attPre 𝔸 b n m) := by
  rw [val_main_v29_apply, val_main_v28_apply, val_main_cst_0_apply, val_main_v27_apply, val_main_v26_apply,
    val_main_cst_apply, val_main_v25_apply, val_main_v24_apply, ref_attPre x0 x1 x2 x3 x4 x5 x6 x7 x8 x9 x10 x11 x12 x13 x14 x15]
  simp only [Ideal.hostDivf_def, Ideal.hostUnary_exp_def, Ideal.hostNegf_def, Ideal.negf_def, Ideal.addf_def,
    Ideal.ofBits_def, Ideal.ofBits_one_f32]
  rfl

/-- The attention-weighted aggregate, as the reference computes it. -/
theorem ref_agg (b : Fin 2) (n : Fin 512) (o : Fin 128) :
    val_main_v32 (F := Ideal) x0 x1 x2 x3 x4 x5 x6 x7 x8 x9 (ix3 b n o)
      = Cert.Spec.agg (Cert.Spec.ofArrays x0 x1 x2 x3 x4 x5 x6 x7 x8 x9 x10 x11 x12 x13 x14 x15) b n o := by
  rw [val_main_v32_apply, val_main_cst_1_apply]
  simp only [Ideal.ofBits_def, Ideal.ofBits_zero_f32, zero_add, idx32, val_main_v31_apply, val_main_v30_apply, idx30,
    ref_m2 x0 x1 x2 x3 x4 x5 x6 x7 x8 x9 x10 x11 x12 x13 x14 x15, ref_att x0 x1 x2 x3 x4 x5 x6 x7 x8 x9 x10 x11 x12 x13 x14 x15, Ideal.mulf_def]
  rfl

end Cert.RefValue

end
-- ==== Proof.Ref.B.lean ====
/-
  The reference's second half read against the specification: the output network on the aggregate, the residual, the
  layer norm over the feature axis, and the last relu, each at an index by coordinates.
-/
import proofs.«135699_j28114855919650_1_alg».proof.Proof.Ref.A
import proofs.«135699_j28114855919650_1_alg».proof.Proof.Gen.ReferenceIdeal.Read
import proofs.«135699_j28114855919650_1_alg».proof.Proof.Spec
import Idealize.ShloMosaic.Lib.ValueIdx
import Idealize.ShloMosaic.Lib.Pipeline.Value
import Idealize.ShloMosaic.PureOps.Ideal.Laws

noncomputable section

open scoped BigOperators

namespace Cert.RefValue

open Cert.ReferenceIdeal Cert.ReferenceIdeal.Gen Cert.ReferenceIdeal.Read
open Idealize.ShloMosaic Idealize.ShloMosaic.ValueIdx

variable (x0 : (⟨S2x512x128, .f32⟩ : BufTy).Contents (Elt Ideal)) (x1 : (⟨S2x512x512, .f32⟩ : BufTy).Contents (Elt Ideal))
  (x2 : (⟨S128x128, .f32⟩ : BufTy).Contents (Elt Ideal)) (x3 : (⟨S128, .f32⟩ : BufTy).Contents (Elt Ideal))
  (x4 : (⟨S128x129, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S1x257, .f32⟩ : BufTy).Contents (Elt Ideal)) (x9 : (⟨S1, .f32⟩ : BufTy).Contents (Elt Ideal))
  (x10 : (⟨S128x128, .f32⟩ : BufTy).Contents (Elt Ideal)) (x11 : (⟨S128, .f32⟩ : BufTy).Contents (Elt Ideal))
  (x12 : (⟨S128x128, .f32⟩ : BufTy).Contents (Elt Ideal)) (x13 x14 x15 : (⟨S128, .f32⟩ : BufTy).Contents (Elt Ideal))

/-! ## The composed index maps of the layout operations, by coordinates -/

theorem tail_lidx33 (b : Fin 2) (n : Fin 512) (d k : Fin 128) : lidx_main_v33 (ix3 b n d) k = ix3 b n k :=
  funext fun a => Fin.ext (by match a with | ⟨0, _⟩ => rfl | ⟨1, _⟩ => rfl | ⟨2, _⟩ => rfl)
theorem tail_ridx33 (b : Fin 2) (n : Fin 512) (d k : Fin 128) : ridx_main_v33 (ix3 b n d) k = ix2 d k :=
  funext fun a => Fin.ext (by match a with | ⟨0, _⟩ => rfl | ⟨1, _⟩ => rfl)
theorem tail_idx34 (b : Fin 2) (n : Fin 512) (d : Fin 128) : idx_main_v34 (idx_main_v35 (ix3 b n d)) = ix1 d :=
  funext fun a => Fin.ext (by match a with | ⟨0, _⟩ => rfl)
theorem tail_lidx38 (b : Fin 2) (n : Fin 512) (o k : Fin 128) : lidx_main_v38 (ix3 b n o) k = ix3 b n k :=
  funext fun a => Fin.ext (by match a with | ⟨0, _⟩ => rfl | ⟨1, _⟩ => rfl | ⟨2, _⟩ => rfl)
theorem tail_ridx38 (b : Fin 2) (n : Fin 512) (o k : Fin 128) : ridx_main_v38 (ix3 b n o) k = ix2 o k :=
  funext fun a => Fin.ext (by match a with | ⟨0, _⟩ => rfl | ⟨1, _⟩ => rfl)
theorem tail_idx39 (b : Fin 2) (n : Fin 512) (o : Fin 128) : idx_main_v39 (idx_main_v40 (ix3 b n o)) = ix1 o :=
  funext fun a => Fin.ext (by match a with | ⟨0, _⟩ => rfl)
theorem tail_idx43 (b : Fin 2) (n : Fin 512) (z : Fin 1) (k : Fin 128) :
    idx_main_v43 (idx_main_v44 (ix3 b n z)) k = ix3 b n k :=
  funext fun a => Fin.ext (by match a with | ⟨0, _⟩ => rfl | ⟨1, _⟩ => rfl | ⟨2, _⟩ => rfl)
theorem tail_idx47 (b : Fin 2) (n : Fin 512) (o : Fin 128) : idx_main_v47 (ix3 b n o) = ix3 b n (0 : Fin 1) :=
  funext fun a => Fin.ext (by match a with | ⟨0, _⟩ => rfl | ⟨1, _⟩ => rfl | ⟨2, _⟩ => rfl)
theorem tail_idx50 (b : Fin 2) (n : Fin 512) (z : Fin 1) (k : Fin 128) :
    idx_main_v50 (idx_main_v51 (ix3 b n z)) k = ix3 b n k :=
  funext fun a => Fin.ext (by match a with | ⟨0, _⟩ => rfl | ⟨1, _⟩ => rfl | ⟨2, _⟩ => rfl)
theorem tail_idx54 (b : Fin 2) (n : Fin 512) (o : Fin 128) : idx_main_v54 (ix3 b n o) = ix3 b n (0 : Fin 1) :=
  funext fun a => Fin.ext (by match a with | ⟨0, _⟩ => rfl | ⟨1, _⟩ => rfl | ⟨2, _⟩ => rfl)
theorem tail_idx59 (b : Fin 2) (n : Fin 512) (o : Fin 128) : idx_main_v59 (ix3 b n o) = ix3 b n (0 : Fin 1) :=
  funext fun a => Fin.ext (by match a with | ⟨0, _⟩ => rfl | ⟨1, _⟩ => rfl | ⟨2, _⟩ => rfl)
theorem tail_idx61 (b : Fin 2) (n : Fin 512) (o : Fin 128) : idx_main_v61 (idx_main_v62 (ix3 b n o)) = ix1 o :=
  funext fun a => Fin.ext (by match a with | ⟨0, _⟩ => rfl)
theorem tail_idx64 (b : Fin 2) (n : Fin 512) (o : Fin 128) : idx_main_v64 (idx_main_v65 (ix3 b n o)) = ix1 o :=
  funext fun a => Fin.ext (by match a with | ⟨0, _⟩ => rfl)

/-! ## The output network and the residual -/

/-- The output network's hidden layer: the aggregate through the first weight, the bias, the relu. -/
theorem tail_a1 (b : Fin 2) (n : Fin 512) (d : Fin 128) :
    val_main_v37 (F := Ideal) x0 x1 x2 x3 x4 x5 x6 x7 x8 x9 x10 x11 (ix3 b n d)
      = Cert.Spec.rA1 (Cert.Spec.agg (Cert.Spec.ofArrays x0 x1 x2 x3 x4 x5 x6 x7 x8 x9 x10 x11 x12 x13 x14 x15) b n) (Cert.Spec.ofArrays x0 x1 x2 x3 x4 x5 x6 x7 x8 x9 x10 x11 x12 x13 x14 x15).Wo1 (Cert.Spec.ofArrays x0 x1 x2 x3 x4 x5 x6 x7 x8 x9 x10 x11 x12 x13 x14 x15).bo1 d := by
  rewrite [val_main_v37_apply, val_main_v36_apply, val_main_v33_apply, val_main_v35_apply, val_main_v34_apply,
    val_main_call1_v0_apply, val_main_call1_cst_apply, tail_idx34]
  have hs : ∀ k : Fin 128, val_main_v32 (F := Ideal) x0 x1 x2 x3 x4 x5 x6 x7 x8 x9 (lidx_main_v33 (ix3 b n d) k) * x10 (ridx_main_v33 (ix3 b n d) k)
      = Cert.Spec.agg (Cert.Spec.ofArrays x0 x1 x2 x3 x4 x5 x6 x7 x8 x9 x10 x11 x12 x13 x14 x15) b n k * x10 (ix2 d k) := fun k => by
    rewrite [tail_lidx33, tail_ridx33, ref_agg]; exact rfl
  rewrite [Finset.sum_congr rfl fun k _ => hs k]
  exact rfl

/-- The residual stream: the input layer's row plus the output network of the aggregate. -/
theorem tail_u (b : Fin 2) (n : Fin 512) (o : Fin 128) :
    val_main_v42 (F := Ideal) x0 x1 x2 x3 x4 x5 x6 x7 x8 x9 x10 x11 x12 x13 (ix3 b n o) = Cert.Spec.u (Cert.Spec.ofArrays x0 x1 x2 x3 x4 x5 x6 x7 x8 x9 x10 x11 x12 x13 x14 x15) b n o := by
  rewrite [val_main_v42_apply, val_main_v41_apply, val_main_v38_apply, val_main_v40_apply, val_main_v39_apply,
    tail_idx39, ref_h]
  have hs : ∀ k : Fin 128, val_main_v37 (F := Ideal) x0 x1 x2 x3 x4 x5 x6 x7 x8 x9 x10 x11 (lidx_main_v38 (ix3 b n o) k) * x12 (ridx_main_v38 (ix3 b n o) k)
      = Cert.Spec.rA1 (Cert.Spec.agg (Cert.Spec.ofArrays x0 x1 x2 x3 x4 x5 x6 x7 x8 x9 x10 x11 x12 x13 x14 x15) b n) (Cert.Spec.ofArrays x0 x1 x2 x3 x4 x5 x6 x7 x8 x9 x10 x11 x12 x13 x14 x15).Wo1 (Cert.Spec.ofArrays x0 x1 x2 x3 x4 x5 x6 x7 x8 x9 x10 x11 x12 x13 x14 x15).bo1 k * x12 (ix2 o k) := fun k => by
    rewrite [tail_lidx38, tail_ridx38, tail_a1]; exact rfl
  rewrite [Finset.sum_congr rfl fun k _ => hs k]
  exact rfl

/-! ## The layer norm -/

/-- The row mean: the sum starts from the zero word, which is the extended real zero. -/
theorem tail_mu (b : Fin 2) (n : Fin 512) (z : Fin 1) :
    val_main_v46 (F := Ideal) x0 x1 x2 x3 x4 x5 x6 x7 x8 x9 x10 x11 x12 x13 (ix3 b n z) = Cert.Spec.rMu (Cert.Spec.u (Cert.Spec.ofArrays x0 x1 x2 x3 x4 x5 x6 x7 x8 x9 x10 x11 x12 x13 x14 x15) b n) := by
  rewrite [val_main_v46_apply, val_main_v44_apply, val_main_v43_apply, val_main_v45_apply, val_main_cst_3_apply,
    val_main_cst_2_apply]
  have hs : ∀ k : Fin 128, val_main_v42 (F := Ideal) x0 x1 x2 x3 x4 x5 x6 x7 x8 x9 x10 x11 x12 x13 (idx_main_v43 (idx_main_v44 (ix3 b n z)) k)
      = Cert.Spec.u (Cert.Spec.ofArrays x0 x1 x2 x3 x4 x5 x6 x7 x8 x9 x10 x11 x12 x13 x14 x15) b n k := fun k => by
    rewrite [tail_idx43, tail_u]; exact rfl
  rewrite [Finset.sum_congr rfl fun k _ => hs k]
  show Ideal.div (Ideal.ofBits .f32 0x00000000#32 + ∑ k : Fin 128, Cert.Spec.u (Cert.Spec.ofArrays x0 x1 x2 x3 x4 x5 x6 x7 x8 x9 x10 x11 x12 x13 x14 x15) b n k) Cert.Spec.c128W = _
  rewrite [Ideal.ofBits_zero_f32, zero_add]
  exact rfl

/-- A row's entry less the row mean. -/
theorem tail_cen (b : Fin 2) (n : Fin 512) (o : Fin 128) :
    val_main_v48 (F := Ideal) x0 x1 x2 x3 x4 x5 x6 x7 x8 x9 x10 x11 x12 x13 (ix3 b n o)
      = Cert.Spec.u (Cert.Spec.ofArrays x0 x1 x2 x3 x4 x5 x6 x7 x8 x9 x10 x11 x12 x13 x14 x15) b n o - Cert.Spec.rMu (Cert.Spec.u (Cert.Spec.ofArrays x0 x1 x2 x3 x4 x5 x6 x7 x8 x9 x10 x11 x12 x13 x14 x15) b n) := by
  rewrite [val_main_v48_apply, val_main_v47_apply, tail_idx47, tail_mu, tail_u]
  exact rfl

/-- The row variance. -/
theorem tail_var (b : Fin 2) (n : Fin 512) (z : Fin 1) :
    val_main_v53 (F := Ideal) x0 x1 x2 x3 x4 x5 x6 x7 x8 x9 x10 x11 x12 x13 (ix3 b n z) = Cert.Spec.rVar (Cert.Spec.u (Cert.Spec.ofArrays x0 x1 x2 x3 x4 x5 x6 x7 x8 x9 x10 x11 x12 x13 x14 x15) b n) := by
  rewrite [val_main_v53_apply, val_main_v51_apply, val_main_v50_apply, val_main_v52_apply, val_main_cst_5_apply,
    val_main_cst_4_apply]
  have hs : ∀ k : Fin 128, val_main_v49 (F := Ideal) x0 x1 x2 x3 x4 x5 x6 x7 x8 x9 x10 x11 x12 x13 (idx_main_v50 (idx_main_v51 (ix3 b n z)) k)
      = (Cert.Spec.u (Cert.Spec.ofArrays x0 x1 x2 x3 x4 x5 x6 x7 x8 x9 x10 x11 x12 x13 x14 x15) b n k - Cert.Spec.rMu (Cert.Spec.u (Cert.Spec.ofArrays x0 x1 x2 x3 x4 x5 x6 x7 x8 x9 x10 x11 x12 x13 x14 x15) b n))
        * (Cert.Spec.u (Cert.Spec.ofArrays x0 x1 x2 x3 x4 x5 x6 x7 x8 x9 x10 x11 x12 x13 x14 x15) b n k - Cert.Spec.rMu (Cert.Spec.u (Cert.Spec.ofArrays x0 x1 x2 x3 x4 x5 x6 x7 x8 x9 x10 x11 x12 x13 x14 x15) b n)) := fun k => by
    rewrite [tail_idx50, val_main_v49_apply, tail_cen]; exact rfl
  rewrite [Finset.sum_congr rfl fun k _ => hs k]
  show Ideal.div (Ideal.ofBits .f32 0x00000000#32 + ∑ k : Fin 128,
      (Cert.Spec.u (Cert.Spec.ofArrays x0 x1 x2 x3 x4 x5 x6 x7 x8 x9 x10 x11 x12 x13 x14 x15) b n k - Cert.Spec.rMu (Cert.Spec.u (Cert.Spec.ofArrays x0 x1 x2 x3 x4 x5 x6 x7 x8 x9 x10 x11 x12 x13 x14 x15) b n))
        * (Cert.Spec.u (Cert.Spec.ofArrays x0 x1 x2 x3 x4 x5 x6 x7 x8 x9 x10 x11 x12 x13 x14 x15) b n k - Cert.Spec.rMu (Cert.Spec.u (Cert.Spec.ofArrays x0 x1 x2 x3 x4 x5 x6 x7 x8 x9 x10 x11 x12 x13 x14 x15) b n))) Cert.Spec.c128W = _
  rewrite [Ideal.ofBits_zero_f32, zero_add]
  exact rfl

/-! ## The result -/

/-- The reference's result is the specification's layer output. -/
theorem ref_out (b : Fin 2) (n : Fin 512) (o : Fin 128) :
    val_main_v67 (F := Ideal) x0 x1 x2 x3 x4 x5 x6 x7 x8 x9 x10 x11 x12 x13 x14 x15 (ix3 b n o)
      = Cert.Spec.out (Cert.Spec.ofArrays x0 x1 x2 x3 x4 x5 x6 x7 x8 x9 x10 x11 x12 x13 x14 x15) b n o := by
  rewrite [val_main_v67_apply, val_main_v66_apply, val_main_v63_apply, val_main_v60_apply, val_main_v55_apply,
    val_main_v59_apply, val_main_v58_apply, val_main_v57_apply, val_main_v56_apply, val_main_cst_6_apply,
    val_main_v54_apply, val_main_v62_apply, val_main_v61_apply, val_main_v65_apply, val_main_v64_apply,
    val_main_call2_v0_apply, val_main_call2_cst_apply,
    tail_idx59, tail_idx54, tail_idx61, tail_idx64, tail_var, tail_mu, tail_u]
  exact rfl

end Cert.RefValue

end
-- ==== Proof.lean ====
/-
  The certificate of the graph layer's kernels against the reference, over the extended reals.

  The kernel program runs two kernels. The first computes the input linear layer h = x · W_linᵀ + b_lin, one batch
  entry per grid point. The second, on a 2 x 4 x 4 grid (batch entry, tile of 128 centre nodes, tile of 128 neighbour
  nodes), adds for each centre node the attention-weighted messages of one neighbour tile into a scratch block, zeroed
  at the first neighbour tile, and at the last applies the output network, the residual, the layer norm and the relu.
  The reference computes the same layer on whole arrays: its message and attention layers are single products with the
  concatenated inputs, which split into the kernel's partial products (sums are regrouped, nothing else), its sum over
  all 512 neighbours is the four tile sums, its sigmoid spelt with exp is the logistic function, and a change of float
  format is the identity. So both end with `Spec.out` of the arguments, index by index.

  Frames: each kernel program's run (Proof/KI/Run.lean, Proof/K/Run.lean) ends with every unscoped buffer at contents
  folded from the launch memory, where no argument is ever written; the reference's is its generated run.
-/
import proofs.«135699_j28114855919650_1_alg».proof.Defs
import proofs.«135699_j28114855919650_1_alg».proof.Proof.Gen.Kernel
import proofs.«135699_j28114855919650_1_alg».proof.Proof.Gen.KernelIdeal
import proofs.«135699_j28114855919650_1_alg».proof.Proof.Gen.ReferenceIdeal
import proofs.«135699_j28114855919650_1_alg».proof.Proof.Gen.ReferenceIdeal.Run
import proofs.«135699_j28114855919650_1_alg».proof.Proof.Gen.ReferenceIdeal.Read
import proofs.«135699_j28114855919650_1_alg».proof.Proof.Gen.Pre_finite_inputs
import proofs.«135699_j28114855919650_1_alg».proof.Proof.K.Run
import proofs.«135699_j28114855919650_1_alg».proof.Proof.KI.Run
import proofs.«135699_j28114855919650_1_alg».proof.Proof.Val.Final
import proofs.«135699_j28114855919650_1_alg».proof.Proof.Ref.B
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_k : Cert.frame_Kernel := fun m ρ _ =>
  (θ_run Cert.Kernel.defs _ _).mono (fun r h c =>
    ⟨(h c _ (Cert.Kernel.Hand.mem_uc Cert.Kernel.main_arg0 (by decide))).trans (Cert.Kernel.Hand.Va4_kept m c Cert.Kernel.main_arg0 (by decide) (by decide) (by decide) (by decide)),
      (h c _ (Cert.Kernel.Hand.mem_uc Cert.Kernel.main_arg1 (by decide))).trans (Cert.Kernel.Hand.Va4_kept m c Cert.Kernel.main_arg1 (by decide) (by decide) (by decide) (by decide)),
      (h c _ (Cert.Kernel.Hand.mem_uc Cert.Kernel.main_arg2 (by decide))).trans (Cert.Kernel.Hand.Va4_kept m c Cert.Kernel.main_arg2 (by decide) (by decide) (by decide) (by decide)),
      (h c _ (Cert.Kernel.Hand.mem_uc Cert.Kernel.main_arg3 (by decide))).trans (Cert.Kernel.Hand.Va4_kept m c Cert.Kernel.main_arg3 (by decide) (by decide) (by decide) (by decide)),
      (h c _ (Cert.Kernel.Hand.mem_uc Cert.Kernel.main_arg4 (by decide))).trans (Cert.Kernel.Hand.Va4_kept m c Cert.Kernel.main_arg4 (by decide) (by decide) (by decide) (by decide)),
      (h c _ (Cert.Kernel.Hand.mem_uc Cert.Kernel.main_arg5 (by decide))).trans (Cert.Kernel.Hand.Va4_kept m c Cert.Kernel.main_arg5 (by decide) (by decide) (by decide) (by decide)),
      (h c _ (Cert.Kernel.Hand.mem_uc Cert.Kernel.main_arg6 (by decide))).trans (Cert.Kernel.Hand.Va4_kept m c Cert.Kernel.main_arg6 (by decide) (by decide) (by decide) (by decide)),
      (h c _ (Cert.Kernel.Hand.mem_uc Cert.Kernel.main_arg7 (by decide))).trans (Cert.Kernel.Hand.Va4_kept m c Cert.Kernel.main_arg7 (by decide) (by decide) (by decide) (by decide)),
      (h c _ (Cert.Kernel.Hand.mem_uc Cert.Kernel.main_arg8 (by decide))).trans (Cert.Kernel.Hand.Va4_kept m c Cert.Kernel.main_arg8 (by decide) (by decide) (by decide) (by decide)),
      (h c _ (Cert.Kernel.Hand.mem_uc Cert.Kernel.main_arg9 (by decide))).trans (Cert.Kernel.Hand.Va4_kept m c Cert.Kernel.main_arg9 (by decide) (by decide) (by decide) (by decide)),
      (h c _ (Cert.Kernel.Hand.mem_uc Cert.Kernel.main_arg10 (by decide))).trans (Cert.Kernel.Hand.Va4_kept m c Cert.Kernel.main_arg10 (by decide) (by decide) (by decide) (by decide)),
      (h c _ (Cert.Kernel.Hand.mem_uc Cert.Kernel.main_arg11 (by decide))).trans (Cert.Kernel.Hand.Va4_kept m c Cert.Kernel.main_arg11 (by decide) (by decide) (by decide) (by decide)),
      (h c _ (Cert.Kernel.Hand.mem_uc Cert.Kernel.main_arg12 (by decide))).trans (Cert.Kernel.Hand.Va4_kept m c Cert.Kernel.main_arg12 (by decide) (by decide) (by decide) (by decide)),
      (h c _ (Cert.Kernel.Hand.mem_uc Cert.Kernel.main_arg13 (by decide))).trans (Cert.Kernel.Hand.Va4_kept m c Cert.Kernel.main_arg13 (by decide) (by decide) (by decide) (by decide)),
      (h c _ (Cert.Kernel.Hand.mem_uc Cert.Kernel.main_arg14 (by decide))).trans (Cert.Kernel.Hand.Va4_kept m c Cert.Kernel.main_arg14 (by decide) (by decide) (by decide) (by decide)),
      (h c _ (Cert.Kernel.Hand.mem_uc Cert.Kernel.main_arg15 (by decide))).trans (Cert.Kernel.Hand.Va4_kept m c Cert.Kernel.main_arg15 (by decide) (by decide) (by decide) (by decide))⟩)
    (Cert.Kernel.Hand.run_all (F := Bits) m ρ)

/-- The idealized kernel program runs and leaves its arguments as launched. -/
theorem frame_ki : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Hand.Va4_kept m c Cert.KernelIdeal.main_arg0 (by decide) (by decide) (by decide) (by decide)),
      (h c _ (Cert.KernelIdeal.Hand.mem_uc Cert.KernelIdeal.main_arg1 (by decide))).trans (Cert.KernelIdeal.Hand.Va4_kept m c Cert.KernelIdeal.main_arg1 (by decide) (by decide) (by decide) (by decide)),
      (h c _ (Cert.KernelIdeal.Hand.mem_uc Cert.KernelIdeal.main_arg2 (by decide))).trans (Cert.KernelIdeal.Hand.Va4_kept m c Cert.KernelIdeal.main_arg2 (by decide) (by decide) (by decide) (by decide)),
      (h c _ (Cert.KernelIdeal.Hand.mem_uc Cert.KernelIdeal.main_arg3 (by decide))).trans (Cert.KernelIdeal.Hand.Va4_kept m c Cert.KernelIdeal.main_arg3 (by decide) (by decide) (by decide) (by decide)),
      (h c _ (Cert.KernelIdeal.Hand.mem_uc Cert.KernelIdeal.main_arg4 (by decide))).trans (Cert.KernelIdeal.Hand.Va4_kept m c Cert.KernelIdeal.main_arg4 (by decide) (by decide) (by decide) (by decide)),
      (h c _ (Cert.KernelIdeal.Hand.mem_uc Cert.KernelIdeal.main_arg5 (by decide))).trans (Cert.KernelIdeal.Hand.Va4_kept m c Cert.KernelIdeal.main_arg5 (by decide) (by decide) (by decide) (by decide)),
      (h c _ (Cert.KernelIdeal.Hand.mem_uc Cert.KernelIdeal.main_arg6 (by decide))).trans (Cert.KernelIdeal.Hand.Va4_kept m c Cert.KernelIdeal.main_arg6 (by decide) (by decide) (by decide) (by decide)),
      (h c _ (Cert.KernelIdeal.Hand.mem_uc Cert.KernelIdeal.main_arg7 (by decide))).trans (Cert.KernelIdeal.Hand.Va4_kept m c Cert.KernelIdeal.main_arg7 (by decide) (by decide) (by decide) (by decide)),
      (h c _ (Cert.KernelIdeal.Hand.mem_uc Cert.KernelIdeal.main_arg8 (by decide))).trans (Cert.KernelIdeal.Hand.Va4_kept m c Cert.KernelIdeal.main_arg8 (by decide) (by decide) (by decide) (by decide)),
      (h c _ (Cert.KernelIdeal.Hand.mem_uc Cert.KernelIdeal.main_arg9 (by decide))).trans (Cert.KernelIdeal.Hand.Va4_kept m c Cert.KernelIdeal.main_arg9 (by decide) (by decide) (by decide) (by decide)),
      (h c _ (Cert.KernelIdeal.Hand.mem_uc Cert.KernelIdeal.main_arg10 (by decide))).trans (Cert.KernelIdeal.Hand.Va4_kept m c Cert.KernelIdeal.main_arg10 (by decide) (by decide) (by decide) (by decide)),
      (h c _ (Cert.KernelIdeal.Hand.mem_uc Cert.KernelIdeal.main_arg11 (by decide))).trans (Cert.KernelIdeal.Hand.Va4_kept m c Cert.KernelIdeal.main_arg11 (by decide) (by decide) (by decide) (by decide)),
      (h c _ (Cert.KernelIdeal.Hand.mem_uc Cert.KernelIdeal.main_arg12 (by decide))).trans (Cert.KernelIdeal.Hand.Va4_kept m c Cert.KernelIdeal.main_arg12 (by decide) (by decide) (by decide) (by decide)),
      (h c _ (Cert.KernelIdeal.Hand.mem_uc Cert.KernelIdeal.main_arg13 (by decide))).trans (Cert.KernelIdeal.Hand.Va4_kept m c Cert.KernelIdeal.main_arg13 (by decide) (by decide) (by decide) (by decide)),
      (h c _ (Cert.KernelIdeal.Hand.mem_uc Cert.KernelIdeal.main_arg14 (by decide))).trans (Cert.KernelIdeal.Hand.Va4_kept m c Cert.KernelIdeal.main_arg14 (by decide) (by decide) (by decide) (by decide)),
      (h c _ (Cert.KernelIdeal.Hand.mem_uc Cert.KernelIdeal.main_arg15 (by decide))).trans (Cert.KernelIdeal.Hand.Va4_kept m c Cert.KernelIdeal.main_arg15 (by decide) (by decide) (by decide) (by decide))⟩)
    (Cert.KernelIdeal.Hand.run_all (F := Ideal) m ρ)

/-- The reference runs and leaves its arguments as launched: its run with the result dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both idealized programs end with the layer's output of the arguments, and with the adjacency returned as it came. -/
theorem algebraic :
    Cert.algebraic_KernelIdeal_ReferenceIdeal := by
  intro m ρ m' ρ' _ hagree
  refine ⟨fun c => (fun i => Cert.Spec.out (Cert.KernelIdeal.Val.argsOf m c) (i 0) (i 1) (i 2) : Cert.KernelIdeal.S2x512x128.Idx → EReal),
    fun c => m ((c.tc : Thread Cert.KernelIdeal.nD Cert.KernelIdeal.τ).loc Cert.KernelIdeal.main_arg1), ?_, ?_⟩
  · refine (θ_run Cert.KernelIdeal.defs _ _).mono (fun r h c => ?_) (Cert.KernelIdeal.Hand.run_all (F := Ideal) m ρ)
    exact ⟨(h c _ (Cert.KernelIdeal.Hand.mem_uc Cert.KernelIdeal.main_v22 (by decide))).trans (Cert.KernelIdeal.Val.kernel_value m c),
      (h c _ (Cert.KernelIdeal.Hand.mem_uc Cert.KernelIdeal.main_arg1 (by decide))).trans (Cert.KernelIdeal.Hand.Va4_kept m c Cert.KernelIdeal.main_arg1 (by decide) (by decide) (by decide) (by decide)),
      (h c _ (Cert.KernelIdeal.Hand.mem_uc Cert.KernelIdeal.main_arg0 (by decide))).trans (Cert.KernelIdeal.Hand.Va4_kept m c Cert.KernelIdeal.main_arg0 (by decide) (by decide) (by decide) (by decide)),
      (h c _ (Cert.KernelIdeal.Hand.mem_uc Cert.KernelIdeal.main_arg1 (by decide))).trans (Cert.KernelIdeal.Hand.Va4_kept m c Cert.KernelIdeal.main_arg1 (by decide) (by decide) (by decide) (by decide)),
      (h c _ (Cert.KernelIdeal.Hand.mem_uc Cert.KernelIdeal.main_arg2 (by decide))).trans (Cert.KernelIdeal.Hand.Va4_kept m c Cert.KernelIdeal.main_arg2 (by decide) (by decide) (by decide) (by decide)),
      (h c _ (Cert.KernelIdeal.Hand.mem_uc Cert.KernelIdeal.main_arg3 (by decide))).trans (Cert.KernelIdeal.Hand.Va4_kept m c Cert.KernelIdeal.main_arg3 (by decide) (by decide) (by decide) (by decide)),
      (h c _ (Cert.KernelIdeal.Hand.mem_uc Cert.KernelIdeal.main_arg4 (by decide))).trans (Cert.KernelIdeal.Hand.Va4_kept m c Cert.KernelIdeal.main_arg4 (by decide) (by decide) (by decide) (by decide)),
      (h c _ (Cert.KernelIdeal.Hand.mem_uc Cert.KernelIdeal.main_arg5 (by decide))).trans (Cert.KernelIdeal.Hand.Va4_kept m c Cert.KernelIdeal.main_arg5 (by decide) (by decide) (by decide) (by decide)),
      (h c _ (Cert.KernelIdeal.Hand.mem_uc Cert.KernelIdeal.main_arg6 (by decide))).trans (Cert.KernelIdeal.Hand.Va4_kept m c Cert.KernelIdeal.main_arg6 (by decide) (by decide) (by decide) (by decide)),
      (h c _ (Cert.KernelIdeal.Hand.mem_uc Cert.KernelIdeal.main_arg7 (by decide))).trans (Cert.KernelIdeal.Hand.Va4_kept m c Cert.KernelIdeal.main_arg7 (by decide) (by decide) (by decide) (by decide)),
      (h c _ (Cert.KernelIdeal.Hand.mem_uc Cert.KernelIdeal.main_arg8 (by decide))).trans (Cert.KernelIdeal.Hand.Va4_kept m c Cert.KernelIdeal.main_arg8 (by decide) (by decide) (by decide) (by decide)),
      (h c _ (Cert.KernelIdeal.Hand.mem_uc Cert.KernelIdeal.main_arg9 (by decide))).trans (Cert.KernelIdeal.Hand.Va4_kept m c Cert.KernelIdeal.main_arg9 (by decide) (by decide) (by decide) (by decide)),
      (h c _ (Cert.KernelIdeal.Hand.mem_uc Cert.KernelIdeal.main_arg10 (by decide))).trans (Cert.KernelIdeal.Hand.Va4_kept m c Cert.KernelIdeal.main_arg10 (by decide) (by decide) (by decide) (by decide)),
      (h c _ (Cert.KernelIdeal.Hand.mem_uc Cert.KernelIdeal.main_arg11 (by decide))).trans (Cert.KernelIdeal.Hand.Va4_kept m c Cert.KernelIdeal.main_arg11 (by decide) (by decide) (by decide) (by decide)),
      (h c _ (Cert.KernelIdeal.Hand.mem_uc Cert.KernelIdeal.main_arg12 (by decide))).trans (Cert.KernelIdeal.Hand.Va4_kept m c Cert.KernelIdeal.main_arg12 (by decide) (by decide) (by decide) (by decide)),
      (h c _ (Cert.KernelIdeal.Hand.mem_uc Cert.KernelIdeal.main_arg13 (by decide))).trans (Cert.KernelIdeal.Hand.Va4_kept m c Cert.KernelIdeal.main_arg13 (by decide) (by decide) (by decide) (by decide)),
      (h c _ (Cert.KernelIdeal.Hand.mem_uc Cert.KernelIdeal.main_arg14 (by decide))).trans (Cert.KernelIdeal.Hand.Va4_kept m c Cert.KernelIdeal.main_arg14 (by decide) (by decide) (by decide) (by decide)),
      (h c _ (Cert.KernelIdeal.Hand.mem_uc Cert.KernelIdeal.main_arg15 (by decide))).trans (Cert.KernelIdeal.Hand.Va4_kept m c Cert.KernelIdeal.main_arg15 (by decide) (by decide) (by decide) (by decide))⟩
  · refine (θ_run Cert.ReferenceIdeal.defs _ _).mono (fun r h c => ⟨(h c).1.trans ?_, (h c).2.1.trans (hagree c).2.1, (h c).2.2⟩)
      (Cert.ReferenceIdeal.Value.run (F := Ideal) m' ρ')
    rw [Cert.ReferenceIdeal.Read.val_main_v67_eq]
    funext i
    obtain ⟨b, n, o, rfl⟩ : ∃ (b : Fin 2) (n : Fin 512) (o : Fin 128), i = ValueIdx.ix3 b n o := ⟨i 0, i 1, i 2, ValueIdx.eq_ix3 i⟩
    rw [Cert.RefValue.ref_out]
    obtain ⟨h0, h1, h2, h3, h4, h5, h6, h7, h8, h9, h10, h11, h12, h13, h14, h15⟩ := hagree c
    rw [h0, h1, h2, h3, h4, h5, h6, h7, h8, h9, h10, h11, h12, h13, h14, h15]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
